-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_arg7 : FVec F S16 .f32) (main_arg8 : FVec F S16x16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x16 .f32 := Host.absf main_arg8
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  main_v43

def fn_part1 {F : FTy → Type} [FloatOps F] (main_arg4 : FVec F S16x16 .f32) (main_arg5 : FVec F S16 .f32) (main_arg6 : FVec F S16x16 .f32) (main_arg7 : FVec F S16 .f32) (main_arg8 : FVec F S16x16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) (main_arg6 : FVec F S16x16 .f32) (main_arg7 : FVec F S16 .f32) (main_arg8 : FVec F S16x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S16x48 : Shape := ⟨2, ![16, 48]⟩
abbrev S10000x16 : Shape := ⟨2, ![10000, 16]⟩
abbrev S400x10000 : Shape := ⟨2, ![400, 10000]⟩
abbrev S400x16 : Shape := ⟨2, ![400, 16]⟩
abbrev S400x48 : Shape := ⟨2, ![400, 48]⟩
abbrev S1250x128 : Shape := ⟨2, ![1250, 128]⟩
abbrev S1x1250x128 : Shape := ⟨3, ![1, 1250, 128]⟩
abbrev S1 : Shape := ⟨1, ![1]⟩
abbrev S1x1x1 : Shape := ⟨3, ![1, 1, 1]⟩
abbrev S400 : Shape := ⟨1, ![400]⟩
abbrev S400x1 : Shape := ⟨2, ![400, 1]⟩

abbrev nBuf : Space → Nat
  | .hbm => 21
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S1x16, .f32⟩
  | .hbm, ⟨10, _⟩ => ⟨S1x16, .f32⟩
  | .hbm, ⟨11, _⟩ => ⟨S1x16, .f32⟩
  | .hbm, ⟨12, _⟩ => ⟨S16x16, .f32⟩
  | .hbm, ⟨13, _⟩ => ⟨S16x48, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S1250x128, .f32⟩
  | .hbm, ⟨18, _⟩ => ⟨S10000x16, .f32⟩
  | .hbm, ⟨19, _⟩ => ⟨S1250x128, .f32⟩
  | .hbm, ⟨20, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S1x16, .f32⟩
  | .local _ .vmem, ⟨3, _⟩ => ⟨S16x48, .f32⟩
  | .local _ .vmem, ⟨4, _⟩ => ⟨S1x16, .f32⟩
  | .local _ .vmem, ⟨5, _⟩ => ⟨S400x10000, .f32⟩
  | .local _ .vmem, ⟨6, _⟩ => ⟨S400x10000, .f32⟩
  | .local _ .vmem, ⟨7, _⟩ => ⟨S400x16, .f32⟩
  | .local _ .vmem, ⟨8, _⟩ => ⟨S400x16, .f32⟩
  | .local _ .vmem, ⟨9, _⟩ => ⟨S400x16, .f32⟩
  | .local _ .vmem, ⟨10, _⟩ => ⟨S400x16, .f32⟩
  | .local _ .vmem, ⟨11, _⟩ => ⟨S400x16, .f32⟩
  | .local _ .vmem, ⟨12, _⟩ => ⟨S400x16, .f32⟩
  | .local _ .vmem, ⟨13, _⟩ => ⟨S10000x16, .f32⟩
  | .local _ .vmem, ⟨14, _⟩ => ⟨S1250x128, .f32⟩
  | .local _ .vmem, ⟨15, _⟩ => ⟨S10000x16, .f32⟩
  | .local _ .vmem, ⟨16, _⟩ => ⟨S1x16, .f32⟩
  | .local _ .vmem, ⟨17, _⟩ => ⟨S400x10000, .f32⟩
  | .local _ .vmem, ⟨18, _⟩ => ⟨S400x10000, .f32⟩
  | .local _ .vmem, ⟨19, _⟩ => ⟨S400x16, .f32⟩
  | .local _ .vmem, ⟨20, _⟩ => ⟨S400x16, .f32⟩
  | .local _ .vmem, ⟨21, _⟩ => ⟨S1250x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1250x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1250x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S16_S1x16 : S16.ShapeCasts S1x16
  transposes_S16x16_S16x16_1_0 : S16x16.Transposes [1, 0] S16x16
  concatenates_S16x16_S16x16_S16x16_S16x48_d1 : Shape.Concatenates [S16x16, S16x16, S16x16] S16x48 1
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x48_S16x48_0_0 : ∀ a, (![0, 0] : Fin 2 → Nat) a + S16x48.size a ≤ S16x48.size a
  h_S16x48 : 0 < S16x48.numel
  shapeCasts_S16x48_S16x48 : S16x48.ShapeCasts S16x48
  slices_S400x48_o0_0_S400x16 : S400x48.Slices ![0, 0] S400x16
  inb_S400x16_S400x16_0_0 : ∀ a, (![0, 0] : Fin 2 → Nat) a + S400x16.size a ≤ S400x16.size a
  h_S400x16 : 0 < S400x16.numel
  slices_S400x48_o0_16_S400x16 : S400x48.Slices ![0, 16] S400x16
  slices_S400x48_o0_32_S400x16 : S400x48.Slices ![0, 32] S400x16
  shapeCasts_S10000x16_S1250x128 : S10000x16.ShapeCasts S1250x128
  inb_S1250x128_S1250x128_0_0 : ∀ a, (![0, 0] : Fin 2 → Nat) a + S1250x128.size a ≤ S1250x128.size a
  h_S1250x128 : 0 < S1250x128.numel
  shapeCasts_S1250x128_S1250x128 : S1250x128.ShapeCasts S1250x128
  shapeCasts_S1250x128_S1x1250x128 : S1250x128.ShapeCasts S1x1250x128
  reduces_S1x1250x128_S1 : S1x1250x128.Reduces [1, 2] S1
  shapeCasts_S1_S1x1x1 : S1.ShapeCasts S1x1x1
  inpos_S1x1x1_p0_0_0 : ∀ a, (![0, 0, 0] : Fin 3 → Nat) a < S1x1x1.size a
  reduces_S400x16_S400 : S400x16.Reduces [1] S400
  shapeCasts_S400_S400x1 : S400.ShapeCasts S400x1
  broadcasts_S400x1_S400x16 : S400x1.Broadcasts S400x16
  shapeCasts_S1250x128_S10000x16 : S1250x128.ShapeCasts S10000x16
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x48_S400x48_1_0_0_1_n_n_wf : DotDims.WF S400x16 S16x48 S400x48 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x48.size a ≤ S16x48.size a
  hwx0_3 : ∀ i : grid0.Coords, EltTy.bits .f32 = 32 ∨ (Rect.block (s := S16x48) S16x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x16.size a ≤ S10000x16.size a
  hwx0_7 : ∀ i : grid0.Coords, EltTy.bits .f32 = 32 ∨ (Rect.block (s := S10000x16) S400x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x16.size a ≤ S10000x16.size a
  hwx0_8 : ∀ i : grid0.Coords, EltTy.bits .f32 = 32 ∨ (Rect.block (s := S10000x16) S400x16.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1250x128.size a ≤ S1250x128.size a
  hwx1_0 : ∀ i : grid1.Coords, EltTy.bits .f32 = 32 ∨ (Rect.block (s := S1250x128) S1250x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10000.size a ≤ S10000x10000.size a
  hwx1_3 : ∀ i : grid1.Coords, EltTy.bits .f32 = 32 ∨ (Rect.block (s := S10000x10000) S400x10000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1250x128.size a ≤ S1250x128.size a
  hwx1_5 : ∀ i : grid1.Coords, EltTy.bits .f32 = 32 ∨ (Rect.block (s := S1250x128) S1250x128.size (cc1_transform_5 i) (hinb1_5 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x48_S400x48_1_0_0_1_n_n : DotDims S400x16 S16x48 S400x48 where
  lhsContracting := [1]
  rhsContracting := [0]
  lhsNonContracting := [0]
  rhsNonContracting := [1]
  lhsBatch := []
  rhsBatch := []
  wf := dot_S400x16_S16x48_S400x48_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S400x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S400x16.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_2) S400x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v6) S1250x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5_2) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S400x10000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S400x16.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S1250x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩
abbrev S160000 : Shape := ⟨1, ![160000]⟩
abbrev S1 : Shape := ⟨1, ![1]⟩
abbrev S10000 : Shape := ⟨1, ![10000]⟩
abbrev S10000x1 : Shape := ⟨2, ![10000, 1]⟩

abbrev nBuf : Space → Nat
  | .hbm => 58
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S10000x16, .f32⟩
  | .hbm, ⟨10, _⟩ => ⟨S10000x16, .f32⟩
  | .hbm, ⟨11, _⟩ => ⟨S1x16, .f32⟩
  | .hbm, ⟨12, _⟩ => ⟨S10000x16, .f32⟩
  | .hbm, ⟨13, _⟩ => ⟨S10000x16, .f32⟩
  | .hbm, ⟨14, _⟩ => ⟨S_, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S10000x16, .f32⟩
  | .hbm, ⟨19, _⟩ => ⟨S1x16, .f32⟩
  | .hbm, ⟨20, _⟩ => ⟨S10000x16, .f32⟩
  | .hbm, ⟨21, _⟩ => ⟨S10000x16, .f32⟩
  | .hbm, ⟨22, _⟩ => ⟨S16x16, .f32⟩
  | .hbm, ⟨23, _⟩ => ⟨S10000x16, .f32⟩
  | .hbm, ⟨24, _⟩ => ⟨S1x16, .f32⟩
  | .hbm, ⟨25, _⟩ => ⟨S10000x16, .f32⟩
  | .hbm, ⟨26, _⟩ => ⟨S10000x16, .f32⟩
  | .hbm, ⟨27, _⟩ => ⟨S10000x16, .f32⟩
  | .hbm, ⟨28, _⟩ => ⟨S160000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S160000, .f32⟩
  | .hbm, ⟨35, _⟩ => ⟨S160000, .f32⟩
  | .hbm, ⟨36, _⟩ => ⟨S160000, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S160000, .f32⟩
  | .hbm, ⟨41, _⟩ => ⟨S160000, .f32⟩
  | .hbm, ⟨42, _⟩ => ⟨S10000x16, .f32⟩
  | .hbm, ⟨43, _⟩ => ⟨S_, .f32⟩
  | .hbm, ⟨44, _⟩ => ⟨S10000, .f32⟩
  | .hbm, ⟨45, _⟩ => ⟨S_, .f32⟩
  | .hbm, ⟨46, _⟩ => ⟨S10000, .f32⟩
  | .hbm, ⟨47, _⟩ => ⟨S10000, .f32⟩
  | .hbm, ⟨48, _⟩ => ⟨S10000x1, .f32⟩
  | .hbm, ⟨49, _⟩ => ⟨S10000x16, .f32⟩
  | .hbm, ⟨50, _⟩ => ⟨S10000x16, .f32⟩
  | .hbm, ⟨51, _⟩ => ⟨S10000x16, .f32⟩
  | .hbm, ⟨52, _⟩ => ⟨S_, .f32⟩
  | .hbm, ⟨53, _⟩ => ⟨S10000, .f32⟩
  | .hbm, ⟨54, _⟩ => ⟨S10000x1, .f32⟩
  | .hbm, ⟨55, _⟩ => ⟨S10000x1, .f32⟩
  | .hbm, ⟨56, _⟩ => ⟨S10000x16, .f32⟩
  | .hbm, ⟨57, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_call1_cst_0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_cst_1 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_v29 : Ref sig .tc := ⟨.hbm, 57, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  transposes_S16x16_S16x16_1_0 : S16x16.Transposes [1, 0] S16x16
  shapeCasts_S10000x16_S160000 : S10000x16.ShapeCasts S160000
  reducesTo_S160000_S_d0 : S160000.ReducesTo [0] S_
  h_S_ : 0 < S_.numel
  bcast_S_S1 : S_.BroadcastsInDim S1 (![] : Fin 0 → Fin S1.rank)
  bcast_S1_S160000_0 : S1.BroadcastsInDim S160000 (![0] : Fin 1 → Fin S160000.rank)
  shapeCasts_S160000_S10000x16 : S160000.ShapeCasts S10000x16
  reducesTo_S10000x16_S10000_d1 : S10000x16.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.BitsRun.R0Cond.lean ====
import proofs.«103986_g86887188398718_cont_9to1c4b_243_22_alg».proof.Proof.Gen.Kernel.Launch
import proofs.«103986_g86887188398718_cont_9to1c4b_243_22_alg».proof.Proof.Gen.Kernel.Skeleton
import proofs.«103986_g86887188398718_cont_9to1c4b_243_22_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body, run once per case of its one branch

The first kernel computes, at the grid's first point only, the product of the feature matrix with the first
weight matrix into a scratch buffer that it keeps for all later points; at every point it multiplies the point's
block of 400 adjacency rows with that scratch, adds the bias, clamps at zero and multiplies with the
concatenated weights, storing three column bands of the product into three output blocks. -/

/-- The branch's condition as the body computes it from the grid coordinate: "this is the first point". -/
abbrev cond0 (i : grid0.Coords) : Prop := (Scalar.cmpi .ne (Scalar.extui (Scalar.cmpi .eq (BitVec.ofNat 32 (i 0).val) 0#32)) 0#32) = 1#1
/-- It holds at the first of the 25 points and at no other. -/
theorem hcond0 : ∀ t : Fin cfg0.N, cond0 (grid0.coords t) ↔ t.val = 0 :=
  (by decide +kernel : ∀ t : Fin grid0.N, cond0 (grid0.coords t) ↔ t.val = 0)

end Cert.Kernel.Run

end
-- ==== Proof.BitsRun.R0RunA.lean ====
import proofs.«103986_g86887188398718_cont_9to1c4b_243_22_alg».proof.Proof.BitsRun.R0Cond

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point: the scratch holds anything and is stored whole before it is read. The pieces
    each output buffer and the scratch end with are found by running the body. -/
noncomputable def kernelRun0_A (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x48 .f32) (harg4 : arg4.IsWhole) (arg5 : Memref sig .tc .vmem S1x16 .f32) (harg5 : arg5.IsWhole) (arg6 : Memref sig .tc .vmem S400x10000 .f32) (harg6 : arg6.IsWhole) (arg7 : Memref sig .tc .vmem S400x16 .f32) (harg7 : arg7.IsWhole) (arg8 : Memref sig .tc .vmem S400x16 .f32) (harg8 : arg8.IsWhole) (arg9 : Memref sig .tc .vmem S400x16 .f32) (harg9 : arg9.IsWhole) (arg10 : Memref sig .tc .vmem S10000x16 .f32) (harg10 : arg10.IsWhole) (hc0 : cond0 i)
    (x0 : Vec F S10000x128 .f32) (x1 : Vec F S128x16 .f32) (x2 : Vec F S1x16 .f32) (x3 : Vec F S16x48 .f32) (x4 : Vec F S1x16 .f32) (x5 : Vec F S400x10000 .f32) :
    Σ' (L6 : List (View.Piece (Elt F) S400x16 .f32)) (L7 : List (View.Piece (Elt F) S400x16 .f32)) (L8 : List (View.Piece (Elt F) S400x16 .f32)), { LS0 : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc0__stream_a i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__stream_a_eq_skeleton]; unfold cc0__stream_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact HS0

end Cert.Kernel.Run

end
-- ==== Proof.BitsRun.R0RunB.lean ====
import proofs.«103986_g86887188398718_cont_9to1c4b_243_22_alg».proof.Proof.BitsRun.R0Cond

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later point: the scratch holds what the first point stored, `xs0`, and is only read, and comes back as it was. -/
noncomputable def kernelRun0_B (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x48 .f32) (harg4 : arg4.IsWhole) (arg5 : Memref sig .tc .vmem S1x16 .f32) (harg5 : arg5.IsWhole) (arg6 : Memref sig .tc .vmem S400x10000 .f32) (harg6 : arg6.IsWhole) (arg7 : Memref sig .tc .vmem S400x16 .f32) (harg7 : arg7.IsWhole) (arg8 : Memref sig .tc .vmem S400x16 .f32) (harg8 : arg8.IsWhole) (arg9 : Memref sig .tc .vmem S400x16 .f32) (harg9 : arg9.IsWhole) (arg10 : Memref sig .tc .vmem S10000x16 .f32) (harg10 : arg10.IsWhole) (hc0 : ¬cond0 i)
    (x0 : Vec F S10000x128 .f32) (x1 : Vec F S128x16 .f32) (x2 : Vec F S1x16 .f32) (x3 : Vec F S16x48 .f32) (x4 : Vec F S1x16 .f32) (x5 : Vec F S400x10000 .f32) (xs0 : Vec F S10000x16 .f32) :
    Σ' (L6 : List (View.Piece (Elt F) S400x16 .f32)) (L7 : List (View.Piece (Elt F) S400x16 .f32)), { L8 : List (View.Piece (Elt F) S400x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0) -∗ K ⟨⟩))
          ⊢ wp frame (wpE (defs₀ (F := F)) Variants.none c none) E (cc0__stream_a i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__stream_a_eq_skeleton]; unfold cc0__stream_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; isplitr; · ipureintro; exact harg10.read_unread _
    iexact HS0

end Cert.Kernel.Run

end
-- ==== Proof.BitsRun.R0Pieces.lean ====
import proofs.«103986_g86887188398718_cont_9to1c4b_243_22_alg».proof.Proof.BitsRun.R0RunA
import proofs.«103986_g86887188398718_cont_9to1c4b_243_22_alg».proof.Proof.BitsRun.R0RunB
import Idealize.ShloMosaic.Lib.Pipeline.RegionsLoop
import Idealize.ShloMosaic.Lib.Pipeline.TableIdle

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel over its grid: what every buffer holds after each point, and the obligation per point

Stated at a parameter `V`, the contents of the core's buffers when the kernel region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds the window's block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds the window's block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds the window's block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The memrefs the body is called with -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x48 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x10000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x16 .f32 := win0_8.stage (cfg0.slots t 8)
abbrev hs0_8 (t : Fin cfg0.N) : (ms0_8 t).IsWhole := hstage0_8 ((cfg0.slots t 8).cast nbuf0_8)
/-- The scratch operand: a whole scoped buffer of the kernel's own. -/
abbrev scM0 : Memref sig .tc .vmem S10000x16 .f32 := Memref.whole cc0_scratch0
/-- Views through which the outputs' and the scratch's contents are stated. -/
abbrev VO0_6 : View sig .tc .vmem S400x16 .f32 := (Memref.whole cc0_stg6_0 : Memref sig .tc .vmem S400x16 .f32).view
abbrev VO0_7 : View sig .tc .vmem S400x16 .f32 := (Memref.whole cc0_stg7_0 : Memref sig .tc .vmem S400x16 .f32).view
abbrev VO0_8 : View sig .tc .vmem S400x16 .f32 := (Memref.whole cc0_stg8_0 : Memref sig .tc .vmem S400x16 .f32).view
abbrev VS0 : View sig .tc .vmem S10000x16 .f32 := scM0.view

/-- The second kernel's staging buffers, scoped and no concern of this kernel: each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f))

/-- The region's invariant as the launch hands it over: the scratch at anything, the other scoped buffers, the
    generator register. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [scM0, owns_whole]; try rfl

/-! ## The body's two cases at a point of the grid -/

/-- The first point's run, at the point's memrefs and input blocks. -/
def stepA0 (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) ((hcond0 t).mpr h)
    (iblk0 V c 0 t) (iblk0 V c 1 t) (iblk0 V c 2 t) (iblk0 V c 3 t) (iblk0 V c 4 t) (iblk0 V c 5 t)

/-- A later point's run, the scratch at `xs0`. -/
def stepB0 (c : Dev nD) (t : Fin cfg0.N) (h : t.val ≠ 0) (xs0 : Vec F S10000x16 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (fun hc => h ((hcond0 t).mp hc))
    (iblk0 V c 0 t) (iblk0 V c 1 t) (iblk0 V c 2 t) (iblk0 V c 3 t) (iblk0 V c 4 t) (iblk0 V c 5 t) xs0

/-- Case A's one store into output 6 covers its block. -/
theorem cover0_A_6 (c : Dev nD) (t : Fin cfg0.N) (h : t.val = 0) (y : S400x16.Idx) :
    ∃ pc ∈ (stepA0 V c t h).1, y ∈ pc.1.set :=
  View.cover_of_tiledL (stepA0 V c t h).1 S400x16.size (by unfold stepA0; sl_kernel_rfl) y
/-- What case A leaves in output 6's staging buffer: its pieces read back. -/
def out0_A_6 (c : Dev nD) (t : Fin cfg0.N) (h : t.val = 0) : Vec F S400x16 .f32 :=
  VO0_6.read (Elt F) (VO0_6.writes (Elt F) VO0_6.junk (stepA0 V c t h).1)
/-- Case A's one store into output 7 covers its block. -/
theorem cover0_A_7 (c : Dev nD) (t : Fin cfg0.N) (h : t.val = 0) (y : S400x16.Idx) :
    ∃ pc ∈ (stepA0 V c t h).2.1, y ∈ pc.1.set :=
  View.cover_of_tiledL (stepA0 V c t h).2.1 S400x16.size (by unfold stepA0; sl_kernel_rfl) y
/-- What case A leaves in output 7's staging buffer: its pieces read back. -/
def out0_A_7 (c : Dev nD) (t : Fin cfg0.N) (h : t.val = 0) : Vec F S400x16 .f32 :=
  VO0_7.read (Elt F) (VO0_7.writes (Elt F) VO0_7.junk (stepA0 V c t h).2.1)
/-- Case A's one store into output 8 covers its block. -/
theorem cover0_A_8 (c : Dev nD) (t : Fin cfg0.N) (h : t.val = 0) (y : S400x16.Idx) :
    ∃ pc ∈ (stepA0 V c t h).2.2.1, y ∈ pc.1.set :=
  View.cover_of_tiledL (stepA0 V c t h).2.2.1 S400x16.size (by unfold stepA0; sl_kernel_rfl) y
/-- What case A leaves in output 8's staging buffer: its pieces read back. -/
def out0_A_8 (c : Dev nD) (t : Fin cfg0.N) (h : t.val = 0) : Vec F S400x16 .f32 :=
  VO0_8.read (Elt F) (VO0_8.writes (Elt F) VO0_8.junk (stepA0 V c t h).2.2.1)
/-- Case B's one store into output 6 covers its block. -/
theorem cover0_B_6 (c : Dev nD) (t : Fin cfg0.N) (h : t.val ≠ 0) (xs0 : Vec F S10000x16 .f32) (y : S400x16.Idx) :
    ∃ pc ∈ (stepB0 V c t h xs0).1, y ∈ pc.1.set :=
  View.cover_of_tiledL (stepB0 V c t h xs0).1 S400x16.size (by unfold stepB0; sl_kernel_rfl) y
/-- What case B leaves in output 6's staging buffer: its pieces read back. -/
def out0_B_6 (c : Dev nD) (t : Fin cfg0.N) (h : t.val ≠ 0) (xs0 : Vec F S10000x16 .f32) : Vec F S400x16 .f32 :=
  VO0_6.read (Elt F) (VO0_6.writes (Elt F) VO0_6.junk (stepB0 V c t h xs0).1)
/-- Case B's one store into output 7 covers its block. -/
theorem cover0_B_7 (c : Dev nD) (t : Fin cfg0.N) (h : t.val ≠ 0) (xs0 : Vec F S10000x16 .f32) (y : S400x16.Idx) :
    ∃ pc ∈ (stepB0 V c t h xs0).2.1, y ∈ pc.1.set :=
  View.cover_of_tiledL (stepB0 V c t h xs0).2.1 S400x16.size (by unfold stepB0; sl_kernel_rfl) y
/-- What case B leaves in output 7's staging buffer: its pieces read back. -/
def out0_B_7 (c : Dev nD) (t : Fin cfg0.N) (h : t.val ≠ 0) (xs0 : Vec F S10000x16 .f32) : Vec F S400x16 .f32 :=
  VO0_7.read (Elt F) (VO0_7.writes (Elt F) VO0_7.junk (stepB0 V c t h xs0).2.1)
/-- Case B's one store into output 8 covers its block. -/
theorem cover0_B_8 (c : Dev nD) (t : Fin cfg0.N) (h : t.val ≠ 0) (xs0 : Vec F S10000x16 .f32) (y : S400x16.Idx) :
    ∃ pc ∈ (stepB0 V c t h xs0).2.2.1, y ∈ pc.1.set :=
  View.cover_of_tiledL (stepB0 V c t h xs0).2.2.1 S400x16.size (by unfold stepB0; sl_kernel_rfl) y
/-- What case B leaves in output 8's staging buffer: its pieces read back. -/
def out0_B_8 (c : Dev nD) (t : Fin cfg0.N) (h : t.val ≠ 0) (xs0 : Vec F S10000x16 .f32) : Vec F S400x16 .f32 :=
  VO0_8.read (Elt F) (VO0_8.writes (Elt F) VO0_8.junk (stepB0 V c t h xs0).2.2.1)
/-- At the first point the scratch is stored whole. -/
theorem scover0_A (c : Dev nD) (t : Fin cfg0.N) (h : t.val = 0) (y : S10000x16.Idx) :
    ∃ pc ∈ (stepA0 V c t h).2.2.2.1, y ∈ pc.1.set :=
  View.cover_of_tiledL (stepA0 V c t h).2.2.2.1 S10000x16.size (by unfold stepA0; sl_kernel_rfl) y
/-- What the first point leaves in the scratch. -/
def sout0_A (c : Dev nD) (t : Fin cfg0.N) (h : t.val = 0) : Vec F S10000x16 .f32 :=
  VS0.read (Elt F) (VS0.writes (Elt F) VS0.junk (stepA0 V c t h).2.2.2.1)

end Region0

end Cert.Kernel.Run

end
-- ==== Proof.BitsRun.R0Body.lean ====
import proofs.«103986_g86887188398718_cont_9to1c4b_243_22_alg».proof.Proof.BitsRun.R0Pieces

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's proof data and its obligation at every point -/

section Region0
variable (V : (c : Dev nD) → (b : Ref sig .tc) → Buf (Elt F) ((c : Thread nD τ).loc b))

/-- What the three output buffers and the scratch hold after the body at position `n`: the first point's run at
    `n = 0`; afterwards the later-point run over the scratch as the point before left it (which it hands back). -/
def outsAt0 (c : Dev nD) : (n : ℕ) → n < cfg0.N → Vec F S400x16 .f32 × Vec F S400x16 .f32 × Vec F S400x16 .f32 × Vec F S10000x16 .f32
  | 0, hn => (out0_A_6 V c ⟨0, hn⟩ rfl, out0_A_7 V c ⟨0, hn⟩ rfl, out0_A_8 V c ⟨0, hn⟩ rfl, sout0_A V c ⟨0, hn⟩ rfl)
  | n + 1, hn =>
    (out0_B_6 V c ⟨n + 1, hn⟩ (Nat.succ_ne_zero n) (outsAt0 c n (Nat.lt_of_succ_lt hn)).2.2.2,
     out0_B_7 V c ⟨n + 1, hn⟩ (Nat.succ_ne_zero n) (outsAt0 c n (Nat.lt_of_succ_lt hn)).2.2.2,
     out0_B_8 V c ⟨n + 1, hn⟩ (Nat.succ_ne_zero n) (outsAt0 c n (Nat.lt_of_succ_lt hn)).2.2.2,
     (outsAt0 c n (Nat.lt_of_succ_lt hn)).2.2.2)

theorem outsAt0_A (c : Dev nD) (t : Fin cfg0.N) (h : t.val = 0) :
    outsAt0 V c t.val t.isLt = (out0_A_6 V c t h, out0_A_7 V c t h, out0_A_8 V c t h, sout0_A V c t h) := by
  obtain ⟨n, hn⟩ := t
  cases n with
  | zero => rfl
  | succ n => exact absurd h (Nat.succ_ne_zero n)

theorem outsAt0_B (c : Dev nD) (t : Fin cfg0.N) (h : t.val ≠ 0) :
    outsAt0 V c t.val t.isLt =
      (out0_B_6 V c t h (outsAt0 V c (t.val - 1) (Nat.lt_of_le_of_lt (Nat.sub_le _ _) t.isLt)).2.2.2,
       out0_B_7 V c t h (outsAt0 V c (t.val - 1) (Nat.lt_of_le_of_lt (Nat.sub_le _ _) t.isLt)).2.2.2,
       out0_B_8 V c t h (outsAt0 V c (t.val - 1) (Nat.lt_of_le_of_lt (Nat.sub_le _ _) t.isLt)).2.2.2,
       (outsAt0 V c (t.val - 1) (Nat.lt_of_le_of_lt (Nat.sub_le _ _) t.isLt)).2.2.2) := by
  obtain ⟨n, hn⟩ := t
  cases n with
  | zero => exact absurd rfl h
  | succ n => rfl

/-- The region's invariant before position `n`: at the start the launch's; afterwards the scratch at what the
    point before left in it. -/
def PhiS0 (c : Dev nD) : (n : ℕ) → n ≤ cfg0.N → sProp 𝕄
  | 0, _ => Pipeline.ΦA spec0 c
  | n + 1, hn => iprop((owns (c : Thread nD τ) scM0 fullShare (outsAt0 V c n hn).2.2.2 ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (outsAt0 V c n hn).2.2.2 ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare (outsAt0 V c (n - 1) (by omega)).2.2.2 ∗ rest0 c) ∗ (∃ r, prngReg c r)) := by
  cases n with
  | zero => exact absurd rfl hz
  | succ n => rfl

/-- The first pipeline's proof data on core `c`: the arrays as the region finds them; each input's buffer at its
    block; the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 4800000 in
/-- The body at any point: the inputs' memrefs hold their blocks; the point is the first or a later one; the
    invariant hands the body the scratch (at anything at the first point, else at what the point before left) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7, after0_8]
  by_cases hz : t.val = 0
  · rw [outsAt0_A V c t hz]
    unfold out0_A_6 out0_A_7 out0_A_8 sout0_A; (try dsimp only)
    rw [PhiS0_castSucc V c t, PhiS0_zero V c _ _ hz, PhiA0_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, H6, H7, H8⟩
    iapply ((stepA0 V c t hz).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · icases H6 with ⟨%d, H6⟩; iexists _; iexact H6
    isplitl [H7]; · icases H7 with ⟨%d, H7⟩; iexists _; iexact H7
    isplitl [H8]; · icases H8 with ⟨%d, H8⟩; iexists _; iexact H8
    isplitl [HS0]; · iexact HS0
    iintro ⟨H0, H1, H2, H3, H4, H5, ⟨%e6, H6⟩, ⟨%e7, H7⟩, ⟨%e8, H8⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A V c t hz)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 V c t hz)
    isplitl [H7]
    · unfold owns; iexists _; isplitr
      swap; · iexact H7
      ipureintro; exact View.read_writes_of_cover _ _ _ _ _ (cover0_A_7 V c t hz)
    unfold owns; iexists _; isplitr
    swap; · iexact H8
    ipureintro; exact View.read_writes_of_cover _ _ _ _ _ (cover0_A_8 V c t hz)
  · rw [outsAt0_B V c t hz]
    unfold out0_B_6 out0_B_7 out0_B_8; (try dsimp only)
    rw [PhiS0_castSucc V c t, PhiS0_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, H6, H7, H8⟩
    iapply ((stepB0 V c t hz _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · icases H6 with ⟨%d, H6⟩; iexists _; iexact H6
    isplitl [H7]; · icases H7 with ⟨%d, H7⟩; iexists _; iexact H7
    isplitl [H8]; · icases H8 with ⟨%d, H8⟩; iexists _; iexact H8
    isplitl [HS0]; · iexact HS0
    iintro ⟨H0, H1, H2, H3, H4, H5, ⟨%e6, H6⟩, ⟨%e7, H7⟩, ⟨%e8, H8⟩, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 V c t hz _)
    isplitl [H7]
    · unfold owns; iexists _; isplitr
      swap; · iexact H7
      ipureintro; exact View.read_writes_of_cover _ _ _ _ _ (cover0_B_7 V c t hz _)
    unfold owns; iexists _; isplitr
    swap; · iexact H8
    ipureintro; exact View.read_writes_of_cover _ _ _ _ _ (cover0_B_8 V c t hz _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨HS0, Hr⟩, Hg⟩
  isplitl [HS0 Hr]
  · isplitl [HS0]; · iexists _; iexact HS0
    iexact Hr
  iexact Hg

end Region0

end Cert.Kernel.Run

end
-- ==== Proof.BitsRun.R1Run.lean ====
import proofs.«103986_g86887188398718_cont_9to1c4b_243_22_alg».proof.Proof.Gen.Kernel.Launch
import proofs.«103986_g86887188398718_cont_9to1c4b_243_22_alg».proof.Proof.Gen.Kernel.Skeleton
import proofs.«103986_g86887188398718_cont_9to1c4b_243_22_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body, run once per case of its one branch

The second kernel computes, at the grid's first point only, the softmax of all 160000 attention logits (laid out
1250 by 128) into an output block that stays in its buffer until the last point writes it back; at every point it
multiplies the point's block of 400 adjacency rows with the hidden product, adds the bias and takes the row-wise
log-softmax into the point's output block. -/

/-- The branch's condition, "this is the first point". -/
abbrev cond1 (i : grid1.Coords) : Prop := k1_cond1 i = 1#1
/-- It holds at the first of the 25 points and at no other. -/
theorem hcond1 : ∀ t : Fin cfg1.N, cond1 (grid1.coords t) ↔ t.val = 0 :=
  (by decide +kernel : ∀ t : Fin grid1.N, cond1 (grid1.coords t) ↔ t.val = 0)

set_option maxHeartbeats 4000000 in
/-- The body at the first point: both output buffers hold anything; both are stored whole. -/
noncomputable def kernelRun1_A (c : Dev nD) (i : grid1.Coords) (arg1 : Memref sig .tc .vmem S1250x128 .f32) (harg1 : arg1.IsWhole) (arg2 : Memref sig .tc .vmem S10000x16 .f32) (harg2 : arg2.IsWhole) (arg3 : Memref sig .tc .vmem S1x16 .f32) (harg3 : arg3.IsWhole) (arg4 : Memref sig .tc .vmem S400x10000 .f32) (harg4 : arg4.IsWhole) (arg5 : Memref sig .tc .vmem S400x16 .f32) (harg5 : arg5.IsWhole) (arg6 : Memref sig .tc .vmem S1250x128 .f32) (harg6 : arg6.IsWhole) (hc0 : cond1 i)
    (x0 : Vec F S1250x128 .f32) (x1 : Vec F S10000x16 .f32) (x2 : Vec F S1x16 .f32) (x3 : Vec F S400x10000 .f32) :
    Σ' (L4 : List (View.Piece (Elt F) S400x16 .f32)), { L5 : List (View.Piece (Elt F) S1250x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc1__stream_b i arg1 harg1 arg2 harg2 arg3 harg3 arg4 harg4 arg5 harg5 arg6 harg6) K } := by
  refine ⟨?_, ?_, fun E K => ?run⟩
  case run =>
    simp only [cc1__stream_b_eq_skeleton]; unfold cc1__stream_b_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

set_option maxHeartbeats 4000000 in
/-- The body at a later point: the softmax block's buffer, at `xi5`, is neither read nor stored and comes back
    as it was; the log-softmax block is stored whole. -/
noncomputable def kernelRun1_B (c : Dev nD) (i : grid1.Coords) (arg1 : Memref sig .tc .vmem S1250x128 .f32) (harg1 : arg1.IsWhole) (arg2 : Memref sig .tc .vmem S10000x16 .f32) (harg2 : arg2.IsWhole) (arg3 : Memref sig .tc .vmem S1x16 .f32) (harg3 : arg3.IsWhole) (arg4 : Memref sig .tc .vmem S400x10000 .f32) (harg4 : arg4.IsWhole) (arg5 : Memref sig .tc .vmem S400x16 .f32) (harg5 : arg5.IsWhole) (arg6 : Memref sig .tc .vmem S1250x128 .f32) (harg6 : arg6.IsWhole) (hc0 : ¬cond1 i)
    (x0 : Vec F S1250x128 .f32) (x1 : Vec F S10000x16 .f32) (x2 : Vec F S1x16 .f32) (x3 : Vec F S400x10000 .f32) :
    { L4 : List (View.Piece (Elt F) S400x16 .f32) //
      ∀ (xi5 : Vec F S1250x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5) -∗ K ⟨⟩))
          ⊢ wp frame (wpE (defs₀ (F := F)) Variants.none c none) E (cc1__stream_b i arg1 harg1 arg2 harg2 arg3 harg3 arg4 harg4 arg5 harg5 arg6 harg6) K } := by
  refine ⟨?_, fun xi5 E K => ?run⟩
  case run =>
    simp only [cc1__stream_b_eq_skeleton]; unfold cc1__stream_b_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact H5

end Cert.Kernel.Run

end
-- ==== Proof.BitsRun.R1Body.lean ====
import proofs.«103986_g86887188398718_cont_9to1c4b_243_22_alg».proof.Proof.BitsRun.R1Run
import Idealize.ShloMosaic.Lib.Pipeline.RegionsLoop
import Idealize.ShloMosaic.Lib.Pipeline.TableIdle

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel over its grid: what every buffer holds after each point, and the obligation per point

Stated at a parameter `V`, the contents of the core's buffers when the kernel region is entered. The softmax
block is stored at the first point, stays in its one staging buffer while the later points leave it alone, and is
written back after the last. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Where the windows are idle, and when the softmax block's buffer is fresh -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_0c : ∀ i : grid1.Coords, cfg1.idle 0 i = false := fun _ => rfl
theorem liveAt1_1c : ∀ i : grid1.Coords, cfg1.idle 1 i = false := fun _ => rfl
theorem liveAt1_2c : ∀ i : grid1.Coords, cfg1.idle 2 i = false := fun _ => rfl
theorem liveAt1_3c : ∀ i : grid1.Coords, cfg1.idle 3 i = false := fun _ => rfl
theorem liveAt1_5 : ∀ t : Fin cfg1.N, t.val = 0 → cfg1.idle 5 (grid1.coords t) = false := by decide +kernel
theorem idleAt1_5 : ∀ t : Fin cfg1.N, t.val ≠ 0 → cfg1.idle 5 (grid1.coords t) = true := by decide +kernel
/-- The softmax block's buffer holds nothing the body stored only before the first point. -/
theorem fresh1_5 : ∀ t : Fin cfg1.N, cfg1.fresh 5 t.val = decide (t.val = 0) := by decide +kernel
theorem noclip1_5 : ∀ (i : cfg1.grid.Coords) a, (cfg1.win 5).clip i a = none := by decide +kernel

/-- Input window 0's staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl liveAt1_0c (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl liveAt1_1c (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl liveAt1_2c (fun _ _ _ => rfl) (fun t => by rw [hafter]; unfold Dat.blockOf iblk1; rw [hA]; try rfl) t d).trans
    (by unfold Dat.fetched Dat.blockOf iblk1; rw [hA]; try rfl)

/-- Input window 3's staging buffer holds the window's block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl liveAt1_3c (fun _ _ _ => rfl) (fun t => by rw [hafter]; unfold Dat.blockOf iblk1; rw [hA]; try rfl) t d).trans
    (by unfold Dat.fetched Dat.blockOf iblk1; rw [hA]; try rfl)

/-! ## The memrefs the body is called with -/

abbrev ms1_0 (t : Fin cfg1.N) : Memref sig .tc .vmem S1250x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x10000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S400x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1250x128 .f32 := win1_5.stage (cfg1.slots t 5)
abbrev hs1_5 (t : Fin cfg1.N) : (ms1_5 t).IsWhole := hstage1_5 ((cfg1.slots t 5).cast nbuf1_5)
abbrev VO1_4 : View sig .tc .vmem S400x16 .f32 := (Memref.whole cc1_stg4_0 : Memref sig .tc .vmem S400x16 .f32).view
abbrev VO1_5 : View sig .tc .vmem S1250x128 .f32 := (Memref.whole cc1_stg5_0 : Memref sig .tc .vmem S1250x128 .f32).view

/-- The first point's run, at the point's memrefs and input blocks. -/
def stepA1 (c : Dev nD) (t : Fin cfg1.N) (h : t.val = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1 t).mpr h)
    (iblk1 V c 0 t) (iblk1 V c 1 t) (iblk1 V c 2 t) (iblk1 V c 3 t)

/-- A later point's run. -/
def stepB1 (c : Dev nD) (t : Fin cfg1.N) (h : t.val ≠ 0) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (fun hc => h ((hcond1 t).mp hc))
    (iblk1 V c 0 t) (iblk1 V c 1 t) (iblk1 V c 2 t) (iblk1 V c 3 t)

theorem cover1_A_4 (c : Dev nD) (t : Fin cfg1.N) (h : t.val = 0) (y : S400x16.Idx) :
    ∃ pc ∈ (stepA1 V c t h).1, y ∈ pc.1.set :=
  View.cover_of_tiledL (stepA1 V c t h).1 S400x16.size (by unfold stepA1; sl_kernel_rfl) y
/-- What the first point leaves in the log-softmax block's buffer. -/
def out1_A_4 (c : Dev nD) (t : Fin cfg1.N) (h : t.val = 0) : Vec F S400x16 .f32 :=
  VO1_4.read (Elt F) (VO1_4.writes (Elt F) VO1_4.junk (stepA1 V c t h).1)
theorem cover1_A_5 (c : Dev nD) (t : Fin cfg1.N) (h : t.val = 0) (y : S1250x128.Idx) :
    ∃ pc ∈ (stepA1 V c t h).2.1, y ∈ pc.1.set :=
  View.cover_of_tiledL (stepA1 V c t h).2.1 S1250x128.size (by unfold stepA1; sl_kernel_rfl) y
/-- What the first point leaves in the softmax block's buffer. -/
def out1_A_5 (c : Dev nD) (t : Fin cfg1.N) (h : t.val = 0) : Vec F S1250x128 .f32 :=
  VO1_5.read (Elt F) (VO1_5.writes (Elt F) VO1_5.junk (stepA1 V c t h).2.1)
theorem cover1_B_4 (c : Dev nD) (t : Fin cfg1.N) (h : t.val ≠ 0) (y : S400x16.Idx) :
    ∃ pc ∈ (stepB1 V c t h).1, y ∈ pc.1.set :=
  View.cover_of_tiledL (stepB1 V c t h).1 S400x16.size (by unfold stepB1; sl_kernel_rfl) y
/-- What a later point leaves in the log-softmax block's buffer. -/
def out1_B_4 (c : Dev nD) (t : Fin cfg1.N) (h : t.val ≠ 0) : Vec F S400x16 .f32 :=
  VO1_4.read (Elt F) (VO1_4.writes (Elt F) VO1_4.junk (stepB1 V c t h).1)

/-- The log-softmax block after point `t`. -/
def out1_4 (c : Dev nD) (t : Fin cfg1.N) : Vec F S400x16 .f32 :=
  if h : t.val = 0 then out1_A_4 V c t h else out1_B_4 V c t h

theorem N1_pos : 0 < cfg1.N := by rw [show cfg1.N = 25 from N_1]; omega

/-- The softmax block, as the first point stores it: what its buffer holds from then on. -/
def out1_5 (c : Dev nD) : Vec F S1250x128 .f32 := out1_A_5 V c ⟨0, N1_pos⟩ rfl

theorem out1_A_5_eq (c : Dev nD) (t : Fin cfg1.N) (h : t.val = 0) : out1_A_5 V c t h = out1_5 V c := by
  obtain ⟨n, hn⟩ := t
  simp only at h; subst h; rfl

/-- The second pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 V c t
    | ⟨5, _⟩ => out1_5 V c
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 V c t := by dsimp only [dat1]
theorem after1_5 (c : Dev nD) (t : Fin cfg1.N) : (dat1 V c).after 5 t = out1_5 V c := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- After the first point the softmax block's buffer holds the softmax block. -/
theorem before1_5 (c : Dev nD) (t : Fin cfg1.N) (h : t.val ≠ 0) (d) : (dat1 V c).before 5 t d = out1_5 V c := by
  rw [(dat1 V c).before_out_traj 5 rfl noclip1_5 (fun t _ _ _ => by rw [after1_5, after1_5]) t.val t rfl d, fresh1_5 t,
    if_neg (by simpa using h), after1_5]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the first point stores both blocks; a later one stores the log-softmax block and hands
    the softmax block's buffer back as it found it, holding the softmax block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3,
    show (dat1 V c).leavesExact 4 t = owns (c : Thread nD τ) (ms1_4 t) fullShare ((dat1 V c).after 4 t) from by
      unfold Dat.leavesExact; rw [liveAt1_4 t], after1_4]
  by_cases hz : t.val = 0
  · rw [show (dat1 V c).leavesExact 5 t = owns (c : Thread nD τ) (ms1_5 t) fullShare ((dat1 V c).after 5 t) from by
      unfold Dat.leavesExact; rw [liveAt1_5 t hz], after1_5, ← out1_A_5_eq V c t hz]
    unfold out1_4; rw [dif_pos hz]
    unfold out1_A_4 out1_A_5; (try dsimp only)
    iintro ⟨HΦ, Ho, ⟨%d0, H0⟩, ⟨%d1, H1⟩, ⟨%d2, H2⟩, ⟨%d3, H3⟩, H4, H5⟩
    iapply ((stepA1 V c t hz).2.2 Set.univ _)
    isplitl [H0]; · iexact H0
    isplitl [H1]; · iexact H1
    isplitl [H2]; · iexact H2
    isplitl [H3]; · iexact H3
    isplitl [H4]; · icases H4 with ⟨%d, H4⟩; iexists _; iexact H4
    isplitl [H5]; · icases H5 with ⟨%d, H5⟩; iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 V c t hz)
    unfold owns; iexists _; isplitr
    swap; · iexact H5
    ipureintro; exact View.read_writes_of_cover _ _ _ _ _ (cover1_A_5 V c t hz)
  · have h5 : (dat1 V c).leavesExact 5 t = owns (c : Thread nD τ) (ms1_5 t) fullShare (out1_5 V c) := by
      unfold Dat.leavesExact; rw [idleAt1_5 t hz]
      cases hfl : (cfg1.win 5).flush t
      · dsimp only
        simp only [before1_5 V c t hz]
        have h₁ : (iprop(∃ d : (cfg1.win 5).block.Idx → Elt F (cfg1.win 5).elt, owns (c : Thread nD τ) (ms1_5 t) fullShare (out1_5 V c)) : sProp 𝕄)
            ⊢ owns (c : Thread nD τ) (ms1_5 t) fullShare (out1_5 V c) := by
          iintro ⟨%d, H⟩; iexact H
        have h₂ : (owns (c : Thread nD τ) (ms1_5 t) fullShare (out1_5 V c) : sProp 𝕄)
            ⊢ iprop(∃ d : (cfg1.win 5).block.Idx → Elt F (cfg1.win 5).elt, owns (c : Thread nD τ) (ms1_5 t) fullShare (out1_5 V c)) := by
          iintro H; iexists (out1_5 V c); iexact H
        exact BI.equiv_iff.mp ⟨h₁, h₂⟩
      · dsimp only; rw [after1_5]
    rw [h5]
    simp only [before1_5 V c t hz]
    unfold out1_4; rw [dif_neg hz]
    unfold out1_B_4; (try dsimp only)
    iintro ⟨HΦ, Ho, ⟨%d0, H0⟩, ⟨%d1, H1⟩, ⟨%d2, H2⟩, ⟨%d3, H3⟩, H4, ⟨%d5, H5⟩⟩
    iapply ((stepB1 V c t hz).2 (out1_5 V c) Set.univ _)
    isplitl [H0]; · iexact H0
    isplitl [H1]; · iexact H1
    isplitl [H2]; · iexact H2
    isplitl [H3]; · iexact H3
    isplitl [H4]; · icases H4 with ⟨%d, H4⟩; iexists _; iexact H4
    isplitl [H5]; · iexact H5
    iintro ⟨H0, H1, H2, H3, ⟨%e4, H4⟩, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 V c t hz)
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Run

end
-- ==== Proof.BitsRun.Launch.lean ====
import proofs.«103986_g86887188398718_cont_9to1c4b_243_22_alg».proof.Proof.BitsRun.R0Body
import proofs.«103986_g86887188398718_cont_9to1c4b_243_22_alg».proof.Proof.BitsRun.R1Body

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program's run

The program is five items: host operations (three reshapes of the biases, a transpose and the concatenation of the
three small weight matrices), the first kernel region, one host reshape of the attention logits, the second kernel
region, one host reshape of the softmax. The contents of the core's buffers at each boundary are a fold from the
launch memory; the run ends with every unscoped buffer at the last fold. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: what the program returns from. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-- After the last host stretch the thread state is the last one beside the core owing nothing. -/
theorem last_chain (c : Dev nD) :
    (iprop(StableHlo.held (c : Thread nD τ) (Pipeline.ucRefs τ sig) (W5 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as items of the run -/

set_option backward.isDefEq.respectTransparency.types false in
/-- Kernel region 0 over the thread state "every unscoped buffer at the boundary's contents, the generator
    register at some state, nothing owed": its arrays split out of the unscoped buffers at entry and put back at
    the contents the pipeline leaves at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state "every unscoped buffer at the boundary's contents, the generator
    register at some state, nothing owed": its arrays split out of the unscoped buffers at entry and put back at
    the contents the pipeline leaves at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Run

end
-- ==== Proof.LibNary3.lean ====
import Idealize.ShloMosaic.Lib.StableHlo.Run

noncomputable section

namespace Idealize.ShloMosaic.StableHlo

open Idealize.SL.Sem

variable {τ : Topo} {sig : RefSig} {Val : EltTy → Type}
variable {x a b y : Ref sig .tc}

/-- A host operation over a LITERAL family of three references (a concatenation of three operands): its result with
    each operand's contents at its own reference, `Fin.cons (F x) …` in place of `fun k => F (![x, a, b] k)`, so that
    the operands' contents can be rewritten further. The three-operand companion of the four-operand lemma. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.BitsRun.Fold.lean ====
import proofs.«103986_g86887188398718_cont_9to1c4b_243_22_alg».proof.Proof.BitsRun.Launch
import proofs.«103986_g86887188398718_cont_9to1c4b_243_22_alg».proof.Proof.LibNary3

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Reading the fold of buffer contents

What each buffer holds at each boundary of the program, walked back through the items that do not write it. -/

variable (m : (ℓ : Loc nD τ sig) → Buf (Elt F) ℓ) (ρ : Dev nD → PrngReg)

abbrev hostOps0_Wr : List (Ref sig .tc) := [main_v0, main_v1, main_v2, main_v3, main_v4]
theorem hostOps0_wr : (hostOps0 : List (HloOp τ sig (Elt F))).Forall fun op => op.writes ⊆ (hostOps0_Wr.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
abbrev hostOps1_Wr : List (Ref sig .tc) := [main_v6]
theorem hostOps1_wr : (hostOps1 : List (HloOp τ sig (Elt F))).Forall fun op => op.writes ⊆ (hostOps1_Wr.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
abbrev hostOps2_Wr : List (Ref sig .tc) := [main_v8]
theorem hostOps2_wr : (hostOps2 : List (HloOp τ sig (Elt F))).Forall fun op => op.writes ⊆ (hostOps2_Wr.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem W1_of (c : Dev nD) (r : Ref sig .tc) (h : r ∉ hostOps0_Wr) : W1 m ρ c (Proc.devRef .tc r) = W0 m ρ c (Proc.devRef .tc r) :=
  StableHlo.after_of_writes_sub hostOps0 _ hostOps0_wr h
theorem W3_of (c : Dev nD) (r : Ref sig .tc) (h : r ∉ hostOps1_Wr) : W3 m ρ c (Proc.devRef .tc r) = W2 m ρ c (Proc.devRef .tc r) :=
  StableHlo.after_of_writes_sub hostOps1 _ hostOps1_wr h
theorem W5_of (c : Dev nD) (r : Ref sig .tc) (h : r ∉ hostOps2_Wr) : W5 m ρ c (Proc.devRef .tc r) = W4 m ρ c (Proc.devRef .tc r) :=
  StableHlo.after_of_writes_sub hostOps2 _ hostOps2_wr h

/-! ## The arguments end as launched -/

/-- No item writes argument 0: it reaches the end as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

/-- No item writes argument 1: it reaches the end as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := (W4_arr m ρ c 3).trans (((dat1 (V3 m ρ) c).arrAt_in 3 rfl _).trans (A_eq1 (V3 m ρ) c 3))
    _ = W2 m ρ c (Proc.devRef .tc main_arg1) := W3_of m ρ c main_arg1 (by decide)
    _ = W1 m ρ c (Proc.devRef .tc main_arg1) := (W2_arr m ρ c 5).trans (((dat0 (V1 m ρ) c).arrAt_in 5 rfl _).trans (A_eq0 (V1 m ρ) c 5))
    _ = W0 m ρ c (Proc.devRef .tc main_arg1) := W1_of m ρ c main_arg1 (by decide)
    _ = m ((c : Thread nD τ).loc main_arg1) := rfl

/-- No item writes argument 2: it reaches the end as launched. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl

/-- No item writes argument 3: it reaches the end as launched. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- No item writes argument 4: it reaches the end as launched. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- No item writes argument 5: it reaches the end as launched. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- No item writes argument 6: it reaches the end as launched. -/
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- No item writes argument 7: it reaches the end as launched. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- No item writes argument 8: it reaches the end as launched. -/
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! ## The results, and what the regions are entered with -/

/-- The first result is the second region's log-softmax array. -/
theorem W5_main_v7_0 (c : Dev nD) : W5 m ρ c (Proc.devRef .tc main_v7_0) = (dat1 (V3 m ρ) c).arrAt 4 cfg1.N :=
  (W5_of m ρ c main_v7_0 (by decide)).trans (W4_arr m ρ c 4)
/-- The second result is the first region's encoder array, which nothing later writes. -/
theorem W5_main_v5_1 (c : Dev nD) : W5 m ρ c (Proc.devRef .tc main_v5_1) = (dat0 (V1 m ρ) c).arrAt 7 cfg0.N :=
  (W5_of m ρ c main_v5_1 (by decide)).trans <| (W4_of_ne m ρ c main_v5_1 (by decide)).trans <|
    (W3_of m ρ c main_v5_1 (by decide)).trans (W2_arr m ρ c 7)
/-- The third result is the second region's softmax array, relaid by the host. -/
theorem W5_main_v8 (c : Dev nD) :
    W5 m ρ c (Proc.devRef .tc main_v8) = shapeCast S10000x16 ((dat1 (V3 m ρ) c).arrAt 5 cfg1.N) shapeCasts_S1250x128_S10000x16 := by
  show StableHlo.after hostOps2 (W4 m ρ c) (Proc.devRef .tc main_v8) = _
  after_results
  rw [W4_arr m ρ c 5]
  rfl

/-- The second region's logits are the first region's attention array, relaid by the host. -/
theorem V3_main_v6 (c : Dev nD) :
    V3 m ρ c main_v6 = shapeCast S1250x128 ((dat0 (V1 m ρ) c).arrAt 6 cfg0.N) shapeCasts_S10000x16_S1250x128 := by
  show StableHlo.after hostOps1 (W2 m ρ c) (Proc.devRef .tc main_v6) = _
  after_results
  rw [W2_arr m ρ c 6]
  rfl
theorem V3_main_v5_2 (c : Dev nD) : V3 m ρ c main_v5_2 = (dat0 (V1 m ρ) c).arrAt 8 cfg0.N :=
  (W3_of m ρ c main_v5_2 (by decide)).trans (W2_arr m ρ c 8)
theorem V3_main_arg1 (c : Dev nD) : V3 m ρ c main_arg1 = m ((c : Thread nD τ).loc main_arg1) :=
  (W3_of m ρ c main_arg1 (by decide)).trans <| ((W2_arr m ρ c 5).trans (((dat0 (V1 m ρ) c).arrAt_in 5 rfl _).trans (A_eq0 (V1 m ρ) c 5))).trans <|
    (W1_of m ρ c main_arg1 (by decide)).trans rfl
theorem V1_main_arg0 (c : Dev nD) : V1 m ρ c main_arg0 = m ((c : Thread nD τ).loc main_arg0) := (W1_of m ρ c main_arg0 (by decide)).trans rfl
theorem V1_main_arg1 (c : Dev nD) : V1 m ρ c main_arg1 = m ((c : Thread nD τ).loc main_arg1) := (W1_of m ρ c main_arg1 (by decide)).trans rfl
theorem V1_main_arg2 (c : Dev nD) : V1 m ρ c main_arg2 = m ((c : Thread nD τ).loc main_arg2) := (W1_of m ρ c main_arg2 (by decide)).trans rfl

/-- The biases as one-row matrices, and the three small weight matrices side by side: what the host prepares. -/
theorem V1_main_v0 (c : Dev nD) : V1 m ρ c main_v0 = shapeCast S1x16 (m ((c : Thread nD τ).loc main_arg3)) shapeCasts_S16_S1x16 := by
  show StableHlo.after hostOps0 (W0 m ρ c) (Proc.devRef .tc main_v0) = _
  after_results; rfl
theorem V1_main_v2 (c : Dev nD) : V1 m ρ c main_v2 = shapeCast S1x16 (m ((c : Thread nD τ).loc main_arg7)) shapeCasts_S16_S1x16 := by
  show StableHlo.after hostOps0 (W0 m ρ c) (Proc.devRef .tc main_v2) = _
  after_results; rfl
theorem V3_main_v1 (c : Dev nD) : V3 m ρ c main_v1 = shapeCast S1x16 (m ((c : Thread nD τ).loc main_arg5)) shapeCasts_S16_S1x16 := by
  refine (W3_of m ρ c main_v1 (by decide)).trans <| (W2_of_ne m ρ c main_v1 (by decide)).trans ?_
  show StableHlo.after hostOps0 (W0 m ρ c) (Proc.devRef .tc main_v1) = _
  after_results; rfl
theorem V1_main_v4 (c : Dev nD) :
    V1 m ρ c main_v4 = concatenate S16x48 1 [⟨S16x16, m ((c : Thread nD τ).loc main_arg8)⟩,
      ⟨S16x16, transpose S16x16 [1, 0] (m ((c : Thread nD τ).loc main_arg6)) transposes_S16x16_S16x16_1_0⟩,
      ⟨S16x16, m ((c : Thread nD τ).loc main_arg4)⟩] concatenates_S16x16_S16x16_S16x16_S16x48_d1 := by
  show StableHlo.after hostOps0 (W0 m ρ c) (Proc.devRef .tc main_v4) = _
  simp only [StableHlo.after_cons, StableHlo.after_nil]
  rw [StableHlo.nary3_result]
  repeat (first
    | rw [StableHlo.unary_result] | rw [StableHlo.reshape_result]
    | (rw [StableHlo.unary_result_ne]; rotate_left; decide)
    | (rw [StableHlo.reshape_result_ne]; rotate_left; decide))
  rfl

end Cert.Kernel.Run

end
-- ==== Proof.IdealRun.R0Cond.lean ====
import proofs.«103986_g86887188398718_cont_9to1c4b_243_22_alg».proof.Proof.Gen.KernelIdeal.Launch
import proofs.«103986_g86887188398718_cont_9to1c4b_243_22_alg».proof.Proof.Gen.KernelIdeal.Skeleton
import proofs.«103986_g86887188398718_cont_9to1c4b_243_22_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body, run once per case of its one branch

The first kernel computes, at the grid's first point only, the product of the feature matrix with the first
weight matrix into a scratch buffer that it keeps for all later points; at every point it multiplies the point's
block of 400 adjacency rows with that scratch, adds the bias, clamps at zero and multiplies with the
concatenated weights, storing three column bands of the product into three output blocks. -/

/-- The branch's condition as the body computes it from the grid coordinate: "this is the first point". -/
abbrev cond0 (i : grid0.Coords) : Prop := (Scalar.cmpi .ne (Scalar.extui (Scalar.cmpi .eq (BitVec.ofNat 32 (i 0).val) 0#32)) 0#32) = 1#1
/-- It holds at the first of the 25 points and at no other. -/
theorem hcond0 : ∀ t : Fin cfg0.N, cond0 (grid0.coords t) ↔ t.val = 0 :=
  (by decide +kernel : ∀ t : Fin grid0.N, cond0 (grid0.coords t) ↔ t.val = 0)

end Cert.KernelIdeal.Run

end
-- ==== Proof.IdealRun.R0RunA.lean ====
import proofs.«103986_g86887188398718_cont_9to1c4b_243_22_alg».proof.Proof.IdealRun.R0Cond

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point: the scratch holds anything and is stored whole before it is read. The pieces
    each output buffer and the scratch end with are found by running the body. -/
noncomputable def kernelRun0_A (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x48 .f32) (harg4 : arg4.IsWhole) (arg5 : Memref sig .tc .vmem S1x16 .f32) (harg5 : arg5.IsWhole) (arg6 : Memref sig .tc .vmem S400x10000 .f32) (harg6 : arg6.IsWhole) (arg7 : Memref sig .tc .vmem S400x16 .f32) (harg7 : arg7.IsWhole) (arg8 : Memref sig .tc .vmem S400x16 .f32) (harg8 : arg8.IsWhole) (arg9 : Memref sig .tc .vmem S400x16 .f32) (harg9 : arg9.IsWhole) (arg10 : Memref sig .tc .vmem S10000x16 .f32) (harg10 : arg10.IsWhole) (hc0 : cond0 i)
    (x0 : Vec F S10000x128 .f32) (x1 : Vec F S128x16 .f32) (x2 : Vec F S1x16 .f32) (x3 : Vec F S16x48 .f32) (x4 : Vec F S1x16 .f32) (x5 : Vec F S400x10000 .f32) :
    Σ' (L6 : List (View.Piece (Elt F) S400x16 .f32)) (L7 : List (View.Piece (Elt F) S400x16 .f32)) (L8 : List (View.Piece (Elt F) S400x16 .f32)), { LS0 : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc0__stream_a i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__stream_a_eq_skeleton]; unfold cc0__stream_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact HS0

end Cert.KernelIdeal.Run

end
-- ==== Proof.IdealRun.R0RunB.lean ====
import proofs.«103986_g86887188398718_cont_9to1c4b_243_22_alg».proof.Proof.IdealRun.R0Cond

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later point: the scratch holds what the first point stored, `xs0`, and is only read, and comes back as it was. -/
noncomputable def kernelRun0_B (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x48 .f32) (harg4 : arg4.IsWhole) (arg5 : Memref sig .tc .vmem S1x16 .f32) (harg5 : arg5.IsWhole) (arg6 : Memref sig .tc .vmem S400x10000 .f32) (harg6 : arg6.IsWhole) (arg7 : Memref sig .tc .vmem S400x16 .f32) (harg7 : arg7.IsWhole) (arg8 : Memref sig .tc .vmem S400x16 .f32) (harg8 : arg8.IsWhole) (arg9 : Memref sig .tc .vmem S400x16 .f32) (harg9 : arg9.IsWhole) (arg10 : Memref sig .tc .vmem S10000x16 .f32) (harg10 : arg10.IsWhole) (hc0 : ¬cond0 i)
    (x0 : Vec F S10000x128 .f32) (x1 : Vec F S128x16 .f32) (x2 : Vec F S1x16 .f32) (x3 : Vec F S16x48 .f32) (x4 : Vec F S1x16 .f32) (x5 : Vec F S400x10000 .f32) (xs0 : Vec F S10000x16 .f32) :
    Σ' (L6 : List (View.Piece (Elt F) S400x16 .f32)) (L7 : List (View.Piece (Elt F) S400x16 .f32)), { L8 : List (View.Piece (Elt F) S400x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0) -∗ K ⟨⟩))
          ⊢ wp frame (wpE (defs₀ (F := F)) Variants.none c none) E (cc0__stream_a i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__stream_a_eq_skeleton]; unfold cc0__stream_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; isplitr; · ipureintro; exact harg10.read_unread _
    iexact HS0

end Cert.KernelIdeal.Run

end
-- ==== Proof.IdealRun.R0Pieces.lean ====
import proofs.«103986_g86887188398718_cont_9to1c4b_243_22_alg».proof.Proof.IdealRun.R0RunA
import proofs.«103986_g86887188398718_cont_9to1c4b_243_22_alg».proof.Proof.IdealRun.R0RunB
import Idealize.ShloMosaic.Lib.Pipeline.RegionsLoop
import Idealize.ShloMosaic.Lib.Pipeline.TableIdle

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel over its grid: what every buffer holds after each point, and the obligation per point

Stated at a parameter `V`, the contents of the core's buffers when the kernel region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds the window's block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds the window's block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds the window's block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The memrefs the body is called with -/

abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x48 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x10000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x16 .f32 := win0_8.stage (cfg0.slots t 8)
abbrev hs0_8 (t : Fin cfg0.N) : (ms0_8 t).IsWhole := hstage0_8 ((cfg0.slots t 8).cast nbuf0_8)
/-- The scratch operand: a whole scoped buffer of the kernel's own. -/
abbrev scM0 : Memref sig .tc .vmem S10000x16 .f32 := Memref.whole cc0_scratch0
/-- Views through which the outputs' and the scratch's contents are stated. -/
abbrev VO0_6 : View sig .tc .vmem S400x16 .f32 := (Memref.whole cc0_stg6_0 : Memref sig .tc .vmem S400x16 .f32).view
abbrev VO0_7 : View sig .tc .vmem S400x16 .f32 := (Memref.whole cc0_stg7_0 : Memref sig .tc .vmem S400x16 .f32).view
abbrev VO0_8 : View sig .tc .vmem S400x16 .f32 := (Memref.whole cc0_stg8_0 : Memref sig .tc .vmem S400x16 .f32).view
abbrev VS0 : View sig .tc .vmem S10000x16 .f32 := scM0.view

/-- The second kernel's staging buffers, scoped and no concern of this kernel: each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f))

/-- The region's invariant as the launch hands it over: the scratch at anything, the other scoped buffers, the
    generator register. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [scM0, owns_whole]; try rfl

/-! ## The body's two cases at a point of the grid -/

/-- The first point's run, at the point's memrefs and input blocks. -/
def stepA0 (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) ((hcond0 t).mpr h)
    (iblk0 V c 0 t) (iblk0 V c 1 t) (iblk0 V c 2 t) (iblk0 V c 3 t) (iblk0 V c 4 t) (iblk0 V c 5 t)

/-- A later point's run, the scratch at `xs0`. -/
def stepB0 (c : Dev nD) (t : Fin cfg0.N) (h : t.val ≠ 0) (xs0 : Vec F S10000x16 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (fun hc => h ((hcond0 t).mp hc))
    (iblk0 V c 0 t) (iblk0 V c 1 t) (iblk0 V c 2 t) (iblk0 V c 3 t) (iblk0 V c 4 t) (iblk0 V c 5 t) xs0

/-- Case A's one store into output 6 covers its block. -/
theorem cover0_A_6 (c : Dev nD) (t : Fin cfg0.N) (h : t.val = 0) (y : S400x16.Idx) :
    ∃ pc ∈ (stepA0 V c t h).1, y ∈ pc.1.set :=
  View.cover_of_tiledL (stepA0 V c t h).1 S400x16.size (by unfold stepA0; sl_kernel_rfl) y
/-- What case A leaves in output 6's staging buffer: its pieces read back. -/
def out0_A_6 (c : Dev nD) (t : Fin cfg0.N) (h : t.val = 0) : Vec F S400x16 .f32 :=
  VO0_6.read (Elt F) (VO0_6.writes (Elt F) VO0_6.junk (stepA0 V c t h).1)
/-- Case A's one store into output 7 covers its block. -/
theorem cover0_A_7 (c : Dev nD) (t : Fin cfg0.N) (h : t.val = 0) (y : S400x16.Idx) :
    ∃ pc ∈ (stepA0 V c t h).2.1, y ∈ pc.1.set :=
  View.cover_of_tiledL (stepA0 V c t h).2.1 S400x16.size (by unfold stepA0; sl_kernel_rfl) y
/-- What case A leaves in output 7's staging buffer: its pieces read back. -/
def out0_A_7 (c : Dev nD) (t : Fin cfg0.N) (h : t.val = 0) : Vec F S400x16 .f32 :=
  VO0_7.read (Elt F) (VO0_7.writes (Elt F) VO0_7.junk (stepA0 V c t h).2.1)
/-- Case A's one store into output 8 covers its block. -/
theorem cover0_A_8 (c : Dev nD) (t : Fin cfg0.N) (h : t.val = 0) (y : S400x16.Idx) :
    ∃ pc ∈ (stepA0 V c t h).2.2.1, y ∈ pc.1.set :=
  View.cover_of_tiledL (stepA0 V c t h).2.2.1 S400x16.size (by unfold stepA0; sl_kernel_rfl) y
/-- What case A leaves in output 8's staging buffer: its pieces read back. -/
def out0_A_8 (c : Dev nD) (t : Fin cfg0.N) (h : t.val = 0) : Vec F S400x16 .f32 :=
  VO0_8.read (Elt F) (VO0_8.writes (Elt F) VO0_8.junk (stepA0 V c t h).2.2.1)
/-- Case B's one store into output 6 covers its block. -/
theorem cover0_B_6 (c : Dev nD) (t : Fin cfg0.N) (h : t.val ≠ 0) (xs0 : Vec F S10000x16 .f32) (y : S400x16.Idx) :
    ∃ pc ∈ (stepB0 V c t h xs0).1, y ∈ pc.1.set :=
  View.cover_of_tiledL (stepB0 V c t h xs0).1 S400x16.size (by unfold stepB0; sl_kernel_rfl) y
/-- What case B leaves in output 6's staging buffer: its pieces read back. -/
def out0_B_6 (c : Dev nD) (t : Fin cfg0.N) (h : t.val ≠ 0) (xs0 : Vec F S10000x16 .f32) : Vec F S400x16 .f32 :=
  VO0_6.read (Elt F) (VO0_6.writes (Elt F) VO0_6.junk (stepB0 V c t h xs0).1)
/-- Case B's one store into output 7 covers its block. -/
theorem cover0_B_7 (c : Dev nD) (t : Fin cfg0.N) (h : t.val ≠ 0) (xs0 : Vec F S10000x16 .f32) (y : S400x16.Idx) :
    ∃ pc ∈ (stepB0 V c t h xs0).2.1, y ∈ pc.1.set :=
  View.cover_of_tiledL (stepB0 V c t h xs0).2.1 S400x16.size (by unfold stepB0; sl_kernel_rfl) y
/-- What case B leaves in output 7's staging buffer: its pieces read back. -/
def out0_B_7 (c : Dev nD) (t : Fin cfg0.N) (h : t.val ≠ 0) (xs0 : Vec F S10000x16 .f32) : Vec F S400x16 .f32 :=
  VO0_7.read (Elt F) (VO0_7.writes (Elt F) VO0_7.junk (stepB0 V c t h xs0).2.1)
/-- Case B's one store into output 8 covers its block. -/
theorem cover0_B_8 (c : Dev nD) (t : Fin cfg0.N) (h : t.val ≠ 0) (xs0 : Vec F S10000x16 .f32) (y : S400x16.Idx) :
    ∃ pc ∈ (stepB0 V c t h xs0).2.2.1, y ∈ pc.1.set :=
  View.cover_of_tiledL (stepB0 V c t h xs0).2.2.1 S400x16.size (by unfold stepB0; sl_kernel_rfl) y
/-- What case B leaves in output 8's staging buffer: its pieces read back. -/
def out0_B_8 (c : Dev nD) (t : Fin cfg0.N) (h : t.val ≠ 0) (xs0 : Vec F S10000x16 .f32) : Vec F S400x16 .f32 :=
  VO0_8.read (Elt F) (VO0_8.writes (Elt F) VO0_8.junk (stepB0 V c t h xs0).2.2.1)
/-- At the first point the scratch is stored whole. -/
theorem scover0_A (c : Dev nD) (t : Fin cfg0.N) (h : t.val = 0) (y : S10000x16.Idx) :
    ∃ pc ∈ (stepA0 V c t h).2.2.2.1, y ∈ pc.1.set :=
  View.cover_of_tiledL (stepA0 V c t h).2.2.2.1 S10000x16.size (by unfold stepA0; sl_kernel_rfl) y
/-- What the first point leaves in the scratch. -/
def sout0_A (c : Dev nD) (t : Fin cfg0.N) (h : t.val = 0) : Vec F S10000x16 .f32 :=
  VS0.read (Elt F) (VS0.writes (Elt F) VS0.junk (stepA0 V c t h).2.2.2.1)

end Region0

end Cert.KernelIdeal.Run

end
-- ==== Proof.IdealRun.R0Body.lean ====
import proofs.«103986_g86887188398718_cont_9to1c4b_243_22_alg».proof.Proof.IdealRun.R0Pieces

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's proof data and its obligation at every point -/

section Region0
variable (V : (c : Dev nD) → (b : Ref sig .tc) → Buf (Elt F) ((c : Thread nD τ).loc b))

/-- What the three output buffers and the scratch hold after the body at position `n`: the first point's run at
    `n = 0`; afterwards the later-point run over the scratch as the point before left it (which it hands back). -/
def outsAt0 (c : Dev nD) : (n : ℕ) → n < cfg0.N → Vec F S400x16 .f32 × Vec F S400x16 .f32 × Vec F S400x16 .f32 × Vec F S10000x16 .f32
  | 0, hn => (out0_A_6 V c ⟨0, hn⟩ rfl, out0_A_7 V c ⟨0, hn⟩ rfl, out0_A_8 V c ⟨0, hn⟩ rfl, sout0_A V c ⟨0, hn⟩ rfl)
  | n + 1, hn =>
    (out0_B_6 V c ⟨n + 1, hn⟩ (Nat.succ_ne_zero n) (outsAt0 c n (Nat.lt_of_succ_lt hn)).2.2.2,
     out0_B_7 V c ⟨n + 1, hn⟩ (Nat.succ_ne_zero n) (outsAt0 c n (Nat.lt_of_succ_lt hn)).2.2.2,
     out0_B_8 V c ⟨n + 1, hn⟩ (Nat.succ_ne_zero n) (outsAt0 c n (Nat.lt_of_succ_lt hn)).2.2.2,
     (outsAt0 c n (Nat.lt_of_succ_lt hn)).2.2.2)

theorem outsAt0_A (c : Dev nD) (t : Fin cfg0.N) (h : t.val = 0) :
    outsAt0 V c t.val t.isLt = (out0_A_6 V c t h, out0_A_7 V c t h, out0_A_8 V c t h, sout0_A V c t h) := by
  obtain ⟨n, hn⟩ := t
  cases n with
  | zero => rfl
  | succ n => exact absurd h (Nat.succ_ne_zero n)

theorem outsAt0_B (c : Dev nD) (t : Fin cfg0.N) (h : t.val ≠ 0) :
    outsAt0 V c t.val t.isLt =
      (out0_B_6 V c t h (outsAt0 V c (t.val - 1) (Nat.lt_of_le_of_lt (Nat.sub_le _ _) t.isLt)).2.2.2,
       out0_B_7 V c t h (outsAt0 V c (t.val - 1) (Nat.lt_of_le_of_lt (Nat.sub_le _ _) t.isLt)).2.2.2,
       out0_B_8 V c t h (outsAt0 V c (t.val - 1) (Nat.lt_of_le_of_lt (Nat.sub_le _ _) t.isLt)).2.2.2,
       (outsAt0 V c (t.val - 1) (Nat.lt_of_le_of_lt (Nat.sub_le _ _) t.isLt)).2.2.2) := by
  obtain ⟨n, hn⟩ := t
  cases n with
  | zero => exact absurd rfl h
  | succ n => rfl

/-- The region's invariant before position `n`: at the start the launch's; afterwards the scratch at what the
    point before left in it. -/
def PhiS0 (c : Dev nD) : (n : ℕ) → n ≤ cfg0.N → sProp 𝕄
  | 0, _ => Pipeline.ΦA spec0 c
  | n + 1, hn => iprop((owns (c : Thread nD τ) scM0 fullShare (outsAt0 V c n hn).2.2.2 ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (outsAt0 V c n hn).2.2.2 ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare (outsAt0 V c (n - 1) (by omega)).2.2.2 ∗ rest0 c) ∗ (∃ r, prngReg c r)) := by
  cases n with
  | zero => exact absurd rfl hz
  | succ n => rfl

/-- The first pipeline's proof data on core `c`: the arrays as the region finds them; each input's buffer at its
    block; the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 4800000 in
/-- The body at any point: the inputs' memrefs hold their blocks; the point is the first or a later one; the
    invariant hands the body the scratch (at anything at the first point, else at what the point before left) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7, after0_8]
  by_cases hz : t.val = 0
  · rw [outsAt0_A V c t hz]
    unfold out0_A_6 out0_A_7 out0_A_8 sout0_A; (try dsimp only)
    rw [PhiS0_castSucc V c t, PhiS0_zero V c _ _ hz, PhiA0_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, H6, H7, H8⟩
    iapply ((stepA0 V c t hz).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · icases H6 with ⟨%d, H6⟩; iexists _; iexact H6
    isplitl [H7]; · icases H7 with ⟨%d, H7⟩; iexists _; iexact H7
    isplitl [H8]; · icases H8 with ⟨%d, H8⟩; iexists _; iexact H8
    isplitl [HS0]; · iexact HS0
    iintro ⟨H0, H1, H2, H3, H4, H5, ⟨%e6, H6⟩, ⟨%e7, H7⟩, ⟨%e8, H8⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A V c t hz)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 V c t hz)
    isplitl [H7]
    · unfold owns; iexists _; isplitr
      swap; · iexact H7
      ipureintro; exact View.read_writes_of_cover _ _ _ _ _ (cover0_A_7 V c t hz)
    unfold owns; iexists _; isplitr
    swap; · iexact H8
    ipureintro; exact View.read_writes_of_cover _ _ _ _ _ (cover0_A_8 V c t hz)
  · rw [outsAt0_B V c t hz]
    unfold out0_B_6 out0_B_7 out0_B_8; (try dsimp only)
    rw [PhiS0_castSucc V c t, PhiS0_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, H6, H7, H8⟩
    iapply ((stepB0 V c t hz _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · icases H6 with ⟨%d, H6⟩; iexists _; iexact H6
    isplitl [H7]; · icases H7 with ⟨%d, H7⟩; iexists _; iexact H7
    isplitl [H8]; · icases H8 with ⟨%d, H8⟩; iexists _; iexact H8
    isplitl [HS0]; · iexact HS0
    iintro ⟨H0, H1, H2, H3, H4, H5, ⟨%e6, H6⟩, ⟨%e7, H7⟩, ⟨%e8, H8⟩, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 V c t hz _)
    isplitl [H7]
    · unfold owns; iexists _; isplitr
      swap; · iexact H7
      ipureintro; exact View.read_writes_of_cover _ _ _ _ _ (cover0_B_7 V c t hz _)
    unfold owns; iexists _; isplitr
    swap; · iexact H8
    ipureintro; exact View.read_writes_of_cover _ _ _ _ _ (cover0_B_8 V c t hz _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨HS0, Hr⟩, Hg⟩
  isplitl [HS0 Hr]
  · isplitl [HS0]; · iexists _; iexact HS0
    iexact Hr
  iexact Hg

end Region0

end Cert.KernelIdeal.Run

end
-- ==== Proof.IdealRun.R1Run.lean ====
import proofs.«103986_g86887188398718_cont_9to1c4b_243_22_alg».proof.Proof.Gen.KernelIdeal.Launch
import proofs.«103986_g86887188398718_cont_9to1c4b_243_22_alg».proof.Proof.Gen.KernelIdeal.Skeleton
import proofs.«103986_g86887188398718_cont_9to1c4b_243_22_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body, run once per case of its one branch

The second kernel computes, at the grid's first point only, the softmax of all 160000 attention logits (laid out
1250 by 128) into an output block that stays in its buffer until the last point writes it back; at every point it
multiplies the point's block of 400 adjacency rows with the hidden product, adds the bias and takes the row-wise
log-softmax into the point's output block. -/

/-- The branch's condition, "this is the first point". -/
abbrev cond1 (i : grid1.Coords) : Prop := k1_cond1 i = 1#1
/-- It holds at the first of the 25 points and at no other. -/
theorem hcond1 : ∀ t : Fin cfg1.N, cond1 (grid1.coords t) ↔ t.val = 0 :=
  (by decide +kernel : ∀ t : Fin grid1.N, cond1 (grid1.coords t) ↔ t.val = 0)

set_option maxHeartbeats 4000000 in
/-- The body at the first point: both output buffers hold anything; both are stored whole. -/
noncomputable def kernelRun1_A (c : Dev nD) (i : grid1.Coords) (arg1 : Memref sig .tc .vmem S1250x128 .f32) (harg1 : arg1.IsWhole) (arg2 : Memref sig .tc .vmem S10000x16 .f32) (harg2 : arg2.IsWhole) (arg3 : Memref sig .tc .vmem S1x16 .f32) (harg3 : arg3.IsWhole) (arg4 : Memref sig .tc .vmem S400x10000 .f32) (harg4 : arg4.IsWhole) (arg5 : Memref sig .tc .vmem S400x16 .f32) (harg5 : arg5.IsWhole) (arg6 : Memref sig .tc .vmem S1250x128 .f32) (harg6 : arg6.IsWhole) (hc0 : cond1 i)
    (x0 : Vec F S1250x128 .f32) (x1 : Vec F S10000x16 .f32) (x2 : Vec F S1x16 .f32) (x3 : Vec F S400x10000 .f32) :
    Σ' (L4 : List (View.Piece (Elt F) S400x16 .f32)), { L5 : List (View.Piece (Elt F) S1250x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc1__stream_b i arg1 harg1 arg2 harg2 arg3 harg3 arg4 harg4 arg5 harg5 arg6 harg6) K } := by
  refine ⟨?_, ?_, fun E K => ?run⟩
  case run =>
    simp only [cc1__stream_b_eq_skeleton]; unfold cc1__stream_b_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

set_option maxHeartbeats 4000000 in
/-- The body at a later point: the softmax block's buffer, at `xi5`, is neither read nor stored and comes back
    as it was; the log-softmax block is stored whole. -/
noncomputable def kernelRun1_B (c : Dev nD) (i : grid1.Coords) (arg1 : Memref sig .tc .vmem S1250x128 .f32) (harg1 : arg1.IsWhole) (arg2 : Memref sig .tc .vmem S10000x16 .f32) (harg2 : arg2.IsWhole) (arg3 : Memref sig .tc .vmem S1x16 .f32) (harg3 : arg3.IsWhole) (arg4 : Memref sig .tc .vmem S400x10000 .f32) (harg4 : arg4.IsWhole) (arg5 : Memref sig .tc .vmem S400x16 .f32) (harg5 : arg5.IsWhole) (arg6 : Memref sig .tc .vmem S1250x128 .f32) (harg6 : arg6.IsWhole) (hc0 : ¬cond1 i)
    (x0 : Vec F S1250x128 .f32) (x1 : Vec F S10000x16 .f32) (x2 : Vec F S1x16 .f32) (x3 : Vec F S400x10000 .f32) :
    { L4 : List (View.Piece (Elt F) S400x16 .f32) //
      ∀ (xi5 : Vec F S1250x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5) -∗ K ⟨⟩))
          ⊢ wp frame (wpE (defs₀ (F := F)) Variants.none c none) E (cc1__stream_b i arg1 harg1 arg2 harg2 arg3 harg3 arg4 harg4 arg5 harg5 arg6 harg6) K } := by
  refine ⟨?_, fun xi5 E K => ?run⟩
  case run =>
    simp only [cc1__stream_b_eq_skeleton]; unfold cc1__stream_b_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact H5

end Cert.KernelIdeal.Run

end
-- ==== Proof.IdealRun.R1Body.lean ====
import proofs.«103986_g86887188398718_cont_9to1c4b_243_22_alg».proof.Proof.IdealRun.R1Run
import Idealize.ShloMosaic.Lib.Pipeline.RegionsLoop
import Idealize.ShloMosaic.Lib.Pipeline.TableIdle

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel over its grid: what every buffer holds after each point, and the obligation per point

Stated at a parameter `V`, the contents of the core's buffers when the kernel region is entered. The softmax
block is stored at the first point, stays in its one staging buffer while the later points leave it alone, and is
written back after the last. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Where the windows are idle, and when the softmax block's buffer is fresh -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_0c : ∀ i : grid1.Coords, cfg1.idle 0 i = false := fun _ => rfl
theorem liveAt1_1c : ∀ i : grid1.Coords, cfg1.idle 1 i = false := fun _ => rfl
theorem liveAt1_2c : ∀ i : grid1.Coords, cfg1.idle 2 i = false := fun _ => rfl
theorem liveAt1_3c : ∀ i : grid1.Coords, cfg1.idle 3 i = false := fun _ => rfl
theorem liveAt1_5 : ∀ t : Fin cfg1.N, t.val = 0 → cfg1.idle 5 (grid1.coords t) = false := by decide +kernel
theorem idleAt1_5 : ∀ t : Fin cfg1.N, t.val ≠ 0 → cfg1.idle 5 (grid1.coords t) = true := by decide +kernel
/-- The softmax block's buffer holds nothing the body stored only before the first point. -/
theorem fresh1_5 : ∀ t : Fin cfg1.N, cfg1.fresh 5 t.val = decide (t.val = 0) := by decide +kernel
theorem noclip1_5 : ∀ (i : cfg1.grid.Coords) a, (cfg1.win 5).clip i a = none := by decide +kernel

/-- Input window 0's staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl liveAt1_0c (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl liveAt1_1c (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl liveAt1_2c (fun _ _ _ => rfl) (fun t => by rw [hafter]; unfold Dat.blockOf iblk1; rw [hA]; try rfl) t d).trans
    (by unfold Dat.fetched Dat.blockOf iblk1; rw [hA]; try rfl)

/-- Input window 3's staging buffer holds the window's block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl liveAt1_3c (fun _ _ _ => rfl) (fun t => by rw [hafter]; unfold Dat.blockOf iblk1; rw [hA]; try rfl) t d).trans
    (by unfold Dat.fetched Dat.blockOf iblk1; rw [hA]; try rfl)

/-! ## The memrefs the body is called with -/

abbrev ms1_0 (t : Fin cfg1.N) : Memref sig .tc .vmem S1250x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x10000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S400x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1250x128 .f32 := win1_5.stage (cfg1.slots t 5)
abbrev hs1_5 (t : Fin cfg1.N) : (ms1_5 t).IsWhole := hstage1_5 ((cfg1.slots t 5).cast nbuf1_5)
abbrev VO1_4 : View sig .tc .vmem S400x16 .f32 := (Memref.whole cc1_stg4_0 : Memref sig .tc .vmem S400x16 .f32).view
abbrev VO1_5 : View sig .tc .vmem S1250x128 .f32 := (Memref.whole cc1_stg5_0 : Memref sig .tc .vmem S1250x128 .f32).view

/-- The first point's run, at the point's memrefs and input blocks. -/
def stepA1 (c : Dev nD) (t : Fin cfg1.N) (h : t.val = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1 t).mpr h)
    (iblk1 V c 0 t) (iblk1 V c 1 t) (iblk1 V c 2 t) (iblk1 V c 3 t)

/-- A later point's run. -/
def stepB1 (c : Dev nD) (t : Fin cfg1.N) (h : t.val ≠ 0) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (fun hc => h ((hcond1 t).mp hc))
    (iblk1 V c 0 t) (iblk1 V c 1 t) (iblk1 V c 2 t) (iblk1 V c 3 t)

theorem cover1_A_4 (c : Dev nD) (t : Fin cfg1.N) (h : t.val = 0) (y : S400x16.Idx) :
    ∃ pc ∈ (stepA1 V c t h).1, y ∈ pc.1.set :=
  View.cover_of_tiledL (stepA1 V c t h).1 S400x16.size (by unfold stepA1; sl_kernel_rfl) y
/-- What the first point leaves in the log-softmax block's buffer. -/
def out1_A_4 (c : Dev nD) (t : Fin cfg1.N) (h : t.val = 0) : Vec F S400x16 .f32 :=
  VO1_4.read (Elt F) (VO1_4.writes (Elt F) VO1_4.junk (stepA1 V c t h).1)
theorem cover1_A_5 (c : Dev nD) (t : Fin cfg1.N) (h : t.val = 0) (y : S1250x128.Idx) :
    ∃ pc ∈ (stepA1 V c t h).2.1, y ∈ pc.1.set :=
  View.cover_of_tiledL (stepA1 V c t h).2.1 S1250x128.size (by unfold stepA1; sl_kernel_rfl) y
/-- What the first point leaves in the softmax block's buffer. -/
def out1_A_5 (c : Dev nD) (t : Fin cfg1.N) (h : t.val = 0) : Vec F S1250x128 .f32 :=
  VO1_5.read (Elt F) (VO1_5.writes (Elt F) VO1_5.junk (stepA1 V c t h).2.1)
theorem cover1_B_4 (c : Dev nD) (t : Fin cfg1.N) (h : t.val ≠ 0) (y : S400x16.Idx) :
    ∃ pc ∈ (stepB1 V c t h).1, y ∈ pc.1.set :=
  View.cover_of_tiledL (stepB1 V c t h).1 S400x16.size (by unfold stepB1; sl_kernel_rfl) y
/-- What a later point leaves in the log-softmax block's buffer. -/
def out1_B_4 (c : Dev nD) (t : Fin cfg1.N) (h : t.val ≠ 0) : Vec F S400x16 .f32 :=
  VO1_4.read (Elt F) (VO1_4.writes (Elt F) VO1_4.junk (stepB1 V c t h).1)

/-- The log-softmax block after point `t`. -/
def out1_4 (c : Dev nD) (t : Fin cfg1.N) : Vec F S400x16 .f32 :=
  if h : t.val = 0 then out1_A_4 V c t h else out1_B_4 V c t h

theorem N1_pos : 0 < cfg1.N := by rw [show cfg1.N = 25 from N_1]; omega

/-- The softmax block, as the first point stores it: what its buffer holds from then on. -/
def out1_5 (c : Dev nD) : Vec F S1250x128 .f32 := out1_A_5 V c ⟨0, N1_pos⟩ rfl

theorem out1_A_5_eq (c : Dev nD) (t : Fin cfg1.N) (h : t.val = 0) : out1_A_5 V c t h = out1_5 V c := by
  obtain ⟨n, hn⟩ := t
  simp only at h; subst h; rfl

/-- The second pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 V c t
    | ⟨5, _⟩ => out1_5 V c
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 V c t := by dsimp only [dat1]
theorem after1_5 (c : Dev nD) (t : Fin cfg1.N) : (dat1 V c).after 5 t = out1_5 V c := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- After the first point the softmax block's buffer holds the softmax block. -/
theorem before1_5 (c : Dev nD) (t : Fin cfg1.N) (h : t.val ≠ 0) (d) : (dat1 V c).before 5 t d = out1_5 V c := by
  rw [(dat1 V c).before_out_traj 5 rfl noclip1_5 (fun t _ _ _ => by rw [after1_5, after1_5]) t.val t rfl d, fresh1_5 t,
    if_neg (by simpa using h), after1_5]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the first point stores both blocks; a later one stores the log-softmax block and hands
    the softmax block's buffer back as it found it, holding the softmax block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3,
    show (dat1 V c).leavesExact 4 t = owns (c : Thread nD τ) (ms1_4 t) fullShare ((dat1 V c).after 4 t) from by
      unfold Dat.leavesExact; rw [liveAt1_4 t], after1_4]
  by_cases hz : t.val = 0
  · rw [show (dat1 V c).leavesExact 5 t = owns (c : Thread nD τ) (ms1_5 t) fullShare ((dat1 V c).after 5 t) from by
      unfold Dat.leavesExact; rw [liveAt1_5 t hz], after1_5, ← out1_A_5_eq V c t hz]
    unfold out1_4; rw [dif_pos hz]
    unfold out1_A_4 out1_A_5; (try dsimp only)
    iintro ⟨HΦ, Ho, ⟨%d0, H0⟩, ⟨%d1, H1⟩, ⟨%d2, H2⟩, ⟨%d3, H3⟩, H4, H5⟩
    iapply ((stepA1 V c t hz).2.2 Set.univ _)
    isplitl [H0]; · iexact H0
    isplitl [H1]; · iexact H1
    isplitl [H2]; · iexact H2
    isplitl [H3]; · iexact H3
    isplitl [H4]; · icases H4 with ⟨%d, H4⟩; iexists _; iexact H4
    isplitl [H5]; · icases H5 with ⟨%d, H5⟩; iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 V c t hz)
    unfold owns; iexists _; isplitr
    swap; · iexact H5
    ipureintro; exact View.read_writes_of_cover _ _ _ _ _ (cover1_A_5 V c t hz)
  · have h5 : (dat1 V c).leavesExact 5 t = owns (c : Thread nD τ) (ms1_5 t) fullShare (out1_5 V c) := by
      unfold Dat.leavesExact; rw [idleAt1_5 t hz]
      cases hfl : (cfg1.win 5).flush t
      · dsimp only
        simp only [before1_5 V c t hz]
        have h₁ : (iprop(∃ d : (cfg1.win 5).block.Idx → Elt F (cfg1.win 5).elt, owns (c : Thread nD τ) (ms1_5 t) fullShare (out1_5 V c)) : sProp 𝕄)
            ⊢ owns (c : Thread nD τ) (ms1_5 t) fullShare (out1_5 V c) := by
          iintro ⟨%d, H⟩; iexact H
        have h₂ : (owns (c : Thread nD τ) (ms1_5 t) fullShare (out1_5 V c) : sProp 𝕄)
            ⊢ iprop(∃ d : (cfg1.win 5).block.Idx → Elt F (cfg1.win 5).elt, owns (c : Thread nD τ) (ms1_5 t) fullShare (out1_5 V c)) := by
          iintro H; iexists (out1_5 V c); iexact H
        exact BI.equiv_iff.mp ⟨h₁, h₂⟩
      · dsimp only; rw [after1_5]
    rw [h5]
    simp only [before1_5 V c t hz]
    unfold out1_4; rw [dif_neg hz]
    unfold out1_B_4; (try dsimp only)
    iintro ⟨HΦ, Ho, ⟨%d0, H0⟩, ⟨%d1, H1⟩, ⟨%d2, H2⟩, ⟨%d3, H3⟩, H4, ⟨%d5, H5⟩⟩
    iapply ((stepB1 V c t hz).2 (out1_5 V c) Set.univ _)
    isplitl [H0]; · iexact H0
    isplitl [H1]; · iexact H1
    isplitl [H2]; · iexact H2
    isplitl [H3]; · iexact H3
    isplitl [H4]; · icases H4 with ⟨%d, H4⟩; iexists _; iexact H4
    isplitl [H5]; · iexact H5
    iintro ⟨H0, H1, H2, H3, ⟨%e4, H4⟩, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 V c t hz)
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Run

end
-- ==== Proof.IdealRun.Launch.lean ====
import proofs.«103986_g86887188398718_cont_9to1c4b_243_22_alg».proof.Proof.IdealRun.R0Body
import proofs.«103986_g86887188398718_cont_9to1c4b_243_22_alg».proof.Proof.IdealRun.R1Body

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program's run

The program is five items: host operations (three reshapes of the biases, a transpose and the concatenation of the
three small weight matrices), the first kernel region, one host reshape of the attention logits, the second kernel
region, one host reshape of the softmax. The contents of the core's buffers at each boundary are a fold from the
launch memory; the run ends with every unscoped buffer at the last fold. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: what the program returns from. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-- After the last host stretch the thread state is the last one beside the core owing nothing. -/
theorem last_chain (c : Dev nD) :
    (iprop(StableHlo.held (c : Thread nD τ) (Pipeline.ucRefs τ sig) (W5 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as items of the run -/

set_option backward.isDefEq.respectTransparency.types false in
/-- Kernel region 0 over the thread state "every unscoped buffer at the boundary's contents, the generator
    register at some state, nothing owed": its arrays split out of the unscoped buffers at entry and put back at
    the contents the pipeline leaves at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state "every unscoped buffer at the boundary's contents, the generator
    register at some state, nothing owed": its arrays split out of the unscoped buffers at entry and put back at
    the contents the pipeline leaves at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final memory holds every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Run

end
-- ==== Proof.IdealRun.Fold.lean ====
import proofs.«103986_g86887188398718_cont_9to1c4b_243_22_alg».proof.Proof.IdealRun.Launch
import proofs.«103986_g86887188398718_cont_9to1c4b_243_22_alg».proof.Proof.LibNary3

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Reading the fold of buffer contents

What each buffer holds at each boundary of the program, walked back through the items that do not write it. -/

variable (m : (ℓ : Loc nD τ sig) → Buf (Elt F) ℓ) (ρ : Dev nD → PrngReg)

abbrev hostOps0_Wr : List (Ref sig .tc) := [main_v0, main_v1, main_v2, main_v3, main_v4]
theorem hostOps0_wr : (hostOps0 : List (HloOp τ sig (Elt F))).Forall fun op => op.writes ⊆ (hostOps0_Wr.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
abbrev hostOps1_Wr : List (Ref sig .tc) := [main_v6]
theorem hostOps1_wr : (hostOps1 : List (HloOp τ sig (Elt F))).Forall fun op => op.writes ⊆ (hostOps1_Wr.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
abbrev hostOps2_Wr : List (Ref sig .tc) := [main_v8]
theorem hostOps2_wr : (hostOps2 : List (HloOp τ sig (Elt F))).Forall fun op => op.writes ⊆ (hostOps2_Wr.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem W1_of (c : Dev nD) (r : Ref sig .tc) (h : r ∉ hostOps0_Wr) : W1 m ρ c (Proc.devRef .tc r) = W0 m ρ c (Proc.devRef .tc r) :=
  StableHlo.after_of_writes_sub hostOps0 _ hostOps0_wr h
theorem W3_of (c : Dev nD) (r : Ref sig .tc) (h : r ∉ hostOps1_Wr) : W3 m ρ c (Proc.devRef .tc r) = W2 m ρ c (Proc.devRef .tc r) :=
  StableHlo.after_of_writes_sub hostOps1 _ hostOps1_wr h
theorem W5_of (c : Dev nD) (r : Ref sig .tc) (h : r ∉ hostOps2_Wr) : W5 m ρ c (Proc.devRef .tc r) = W4 m ρ c (Proc.devRef .tc r) :=
  StableHlo.after_of_writes_sub hostOps2 _ hostOps2_wr h

/-! ## The arguments end as launched -/

/-- No item writes argument 0: it reaches the end as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

/-- No item writes argument 1: it reaches the end as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := (W4_arr m ρ c 3).trans (((dat1 (V3 m ρ) c).arrAt_in 3 rfl _).trans (A_eq1 (V3 m ρ) c 3))
    _ = W2 m ρ c (Proc.devRef .tc main_arg1) := W3_of m ρ c main_arg1 (by decide)
    _ = W1 m ρ c (Proc.devRef .tc main_arg1) := (W2_arr m ρ c 5).trans (((dat0 (V1 m ρ) c).arrAt_in 5 rfl _).trans (A_eq0 (V1 m ρ) c 5))
    _ = W0 m ρ c (Proc.devRef .tc main_arg1) := W1_of m ρ c main_arg1 (by decide)
    _ = m ((c : Thread nD τ).loc main_arg1) := rfl

/-- No item writes argument 2: it reaches the end as launched. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl

/-- No item writes argument 3: it reaches the end as launched. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- No item writes argument 4: it reaches the end as launched. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- No item writes argument 5: it reaches the end as launched. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- No item writes argument 6: it reaches the end as launched. -/
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- No item writes argument 7: it reaches the end as launched. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- No item writes argument 8: it reaches the end as launched. -/
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! ## The results, and what the regions are entered with -/

/-- The first result is the second region's log-softmax array. -/
theorem W5_main_v7_0 (c : Dev nD) : W5 m ρ c (Proc.devRef .tc main_v7_0) = (dat1 (V3 m ρ) c).arrAt 4 cfg1.N :=
  (W5_of m ρ c main_v7_0 (by decide)).trans (W4_arr m ρ c 4)
/-- The second result is the first region's encoder array, which nothing later writes. -/
theorem W5_main_v5_1 (c : Dev nD) : W5 m ρ c (Proc.devRef .tc main_v5_1) = (dat0 (V1 m ρ) c).arrAt 7 cfg0.N :=
  (W5_of m ρ c main_v5_1 (by decide)).trans <| (W4_of_ne m ρ c main_v5_1 (by decide)).trans <|
    (W3_of m ρ c main_v5_1 (by decide)).trans (W2_arr m ρ c 7)
/-- The third result is the second region's softmax array, relaid by the host. -/
theorem W5_main_v8 (c : Dev nD) :
    W5 m ρ c (Proc.devRef .tc main_v8) = shapeCast S10000x16 ((dat1 (V3 m ρ) c).arrAt 5 cfg1.N) shapeCasts_S1250x128_S10000x16 := by
  show StableHlo.after hostOps2 (W4 m ρ c) (Proc.devRef .tc main_v8) = _
  after_results
  rw [W4_arr m ρ c 5]
  rfl

/-- The second region's logits are the first region's attention array, relaid by the host. -/
theorem V3_main_v6 (c : Dev nD) :
    V3 m ρ c main_v6 = shapeCast S1250x128 ((dat0 (V1 m ρ) c).arrAt 6 cfg0.N) shapeCasts_S10000x16_S1250x128 := by
  show StableHlo.after hostOps1 (W2 m ρ c) (Proc.devRef .tc main_v6) = _
  after_results
  rw [W2_arr m ρ c 6]
  rfl
theorem V3_main_v5_2 (c : Dev nD) : V3 m ρ c main_v5_2 = (dat0 (V1 m ρ) c).arrAt 8 cfg0.N :=
  (W3_of m ρ c main_v5_2 (by decide)).trans (W2_arr m ρ c 8)
theorem V3_main_arg1 (c : Dev nD) : V3 m ρ c main_arg1 = m ((c : Thread nD τ).loc main_arg1) :=
  (W3_of m ρ c main_arg1 (by decide)).trans <| ((W2_arr m ρ c 5).trans (((dat0 (V1 m ρ) c).arrAt_in 5 rfl _).trans (A_eq0 (V1 m ρ) c 5))).trans <|
    (W1_of m ρ c main_arg1 (by decide)).trans rfl
theorem V1_main_arg0 (c : Dev nD) : V1 m ρ c main_arg0 = m ((c : Thread nD τ).loc main_arg0) := (W1_of m ρ c main_arg0 (by decide)).trans rfl
theorem V1_main_arg1 (c : Dev nD) : V1 m ρ c main_arg1 = m ((c : Thread nD τ).loc main_arg1) := (W1_of m ρ c main_arg1 (by decide)).trans rfl
theorem V1_main_arg2 (c : Dev nD) : V1 m ρ c main_arg2 = m ((c : Thread nD τ).loc main_arg2) := (W1_of m ρ c main_arg2 (by decide)).trans rfl

/-- The biases as one-row matrices, and the three small weight matrices side by side: what the host prepares. -/
theorem V1_main_v0 (c : Dev nD) : V1 m ρ c main_v0 = shapeCast S1x16 (m ((c : Thread nD τ).loc main_arg3)) shapeCasts_S16_S1x16 := by
  show StableHlo.after hostOps0 (W0 m ρ c) (Proc.devRef .tc main_v0) = _
  after_results; rfl
theorem V1_main_v2 (c : Dev nD) : V1 m ρ c main_v2 = shapeCast S1x16 (m ((c : Thread nD τ).loc main_arg7)) shapeCasts_S16_S1x16 := by
  show StableHlo.after hostOps0 (W0 m ρ c) (Proc.devRef .tc main_v2) = _
  after_results; rfl
theorem V3_main_v1 (c : Dev nD) : V3 m ρ c main_v1 = shapeCast S1x16 (m ((c : Thread nD τ).loc main_arg5)) shapeCasts_S16_S1x16 := by
  refine (W3_of m ρ c main_v1 (by decide)).trans <| (W2_of_ne m ρ c main_v1 (by decide)).trans ?_
  show StableHlo.after hostOps0 (W0 m ρ c) (Proc.devRef .tc main_v1) = _
  after_results; rfl
theorem V1_main_v4 (c : Dev nD) :
    V1 m ρ c main_v4 = concatenate S16x48 1 [⟨S16x16, m ((c : Thread nD τ).loc main_arg8)⟩,
      ⟨S16x16, transpose S16x16 [1, 0] (m ((c : Thread nD τ).loc main_arg6)) transposes_S16x16_S16x16_1_0⟩,
      ⟨S16x16, m ((c : Thread nD τ).loc main_arg4)⟩] concatenates_S16x16_S16x16_S16x16_S16x48_d1 := by
  show StableHlo.after hostOps0 (W0 m ρ c) (Proc.devRef .tc main_v4) = _
  simp only [StableHlo.after_cons, StableHlo.after_nil]
  rw [StableHlo.nary3_result]
  repeat (first
    | rw [StableHlo.unary_result] | rw [StableHlo.reshape_result]
    | (rw [StableHlo.unary_result_ne]; rotate_left; decide)
    | (rw [StableHlo.reshape_result_ne]; rotate_left; decide))
  rfl

end Cert.KernelIdeal.Run

end
-- ==== Proof.IdealRun.Vals0.lean ====
import proofs.«103986_g86887188398718_cont_9to1c4b_243_22_alg».proof.Proof.IdealRun.R0Body
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's buffers as functions of the arrays it is entered with

What each case's run leaves is a payload of the point's blocks; five of the six input windows have one block, the
whole array, so the scratch holds the product of the feature matrix with the first weight matrix from the first
point on, and each output block is a payload of the point's 400 adjacency rows and whole arrays. -/

section Region0
variable (V : (c : Dev nD) → (b : Ref sig .tc) → Buf (Elt F) ((c : Thread nD τ).loc b))

theorem N0_lt (t : Fin cfg0.N) : t.val < 25 := lt_of_lt_of_eq t.isLt N_0
theorem lt_N0 {n : ℕ} (h : n < 25) : n < cfg0.N := lt_of_lt_of_eq h N_0.symm
theorem N1_lt (t : Fin cfg1.N) : t.val < 25 := lt_of_lt_of_eq t.isLt N_1
theorem lt_N1 {n : ℕ} (h : n < 25) : n < cfg1.N := lt_of_lt_of_eq h N_1.symm

theorem hz2 : (![0, 0] : Fin 2 → Nat) = fun _ => 0 := funext fun a => by fin_cases a <;> rfl

/-- The scratch read back through its whole-buffer view. -/
theorem read_scr (h : (scM0 : Memref sig .tc .vmem S10000x16 .f32).IsWhole) (xs0 : Vec F S10000x16 .f32) :
    View.read (Elt F) (View.whole cc0_scratch0) (h.unread xs0) = xs0 := h.read_unread xs0

/-! ## What each run leaves, as payloads of the point's blocks -/

theorem sout0_A_eq (c : Dev nD) (t : Fin cfg0.N) (h : t.val = 0) : sout0_A V c t h = k0_pay1 (iblk0 V c 0 t) (iblk0 V c 1 t) := by
  unfold sout0_A
  rw [View.read_writes_eq_canon _ _ _ (scover0_A V c t h)]
  unfold stepA0 kernelRun0_A
  dsimp only
  sl_unfold_words
  rw [View.canon_unit_zero (S := S10000x16) hz2]
  simp only [View.readAt_eq_ld, Memref.IsWhole.read_unread, View.readCov_unit_zero (S := S10000x16) _ hz2, View.ld_unit_zero (S := S10000x128) hz2, View.ld_unit_zero (S := S128x16) hz2, View.ld_unit_zero (S := S400x10000) hz2, View.ld_unit_zero (S := S1x16) hz2, View.ld_unit_zero (S := S16x48) hz2, View.ld_unit_zero (S := S10000x16) hz2]
theorem out0_A_6_eq (c : Dev nD) (t : Fin cfg0.N) (h : t.val = 0) : out0_A_6 V c t h = k0_pay3 (iblk0 V c 5 t) (k0_pay1 (iblk0 V c 0 t) (iblk0 V c 1 t)) (iblk0 V c 2 t) (iblk0 V c 3 t) := by
  unfold out0_A_6
  rw [View.read_writes_eq_canon _ _ _ (cover0_A_6 V c t h)]
  unfold stepA0 kernelRun0_A
  dsimp only
  sl_unfold_words
  rw [View.canon_unit_zero (S := S400x16) hz2]
  simp only [View.readAt_eq_ld, Memref.IsWhole.read_unread, View.readCov_unit_zero (S := S10000x16) _ hz2, View.ld_unit_zero (S := S10000x128) hz2, View.ld_unit_zero (S := S128x16) hz2, View.ld_unit_zero (S := S400x10000) hz2, View.ld_unit_zero (S := S1x16) hz2, View.ld_unit_zero (S := S16x48) hz2, View.ld_unit_zero (S := S10000x16) hz2]

theorem out0_A_7_eq (c : Dev nD) (t : Fin cfg0.N) (h : t.val = 0) : out0_A_7 V c t h = k0_pay4 (iblk0 V c 5 t) (k0_pay1 (iblk0 V c 0 t) (iblk0 V c 1 t)) (iblk0 V c 2 t) (iblk0 V c 3 t) (iblk0 V c 4 t) := by
  unfold out0_A_7
  rw [View.read_writes_eq_canon _ _ _ (cover0_A_7 V c t h)]
  unfold stepA0 kernelRun0_A
  dsimp only
  sl_unfold_words
  rw [View.canon_unit_zero (S := S400x16) hz2]
  simp only [View.readAt_eq_ld, Memref.IsWhole.read_unread, View.readCov_unit_zero (S := S10000x16) _ hz2, View.ld_unit_zero (S := S10000x128) hz2, View.ld_unit_zero (S := S128x16) hz2, View.ld_unit_zero (S := S400x10000) hz2, View.ld_unit_zero (S := S1x16) hz2, View.ld_unit_zero (S := S16x48) hz2, View.ld_unit_zero (S := S10000x16) hz2]

theorem out0_A_8_eq (c : Dev nD) (t : Fin cfg0.N) (h : t.val = 0) : out0_A_8 V c t h = k0_pay5 (iblk0 V c 5 t) (k0_pay1 (iblk0 V c 0 t) (iblk0 V c 1 t)) (iblk0 V c 2 t) (iblk0 V c 3 t) := by
  unfold out0_A_8
  rw [View.read_writes_eq_canon _ _ _ (cover0_A_8 V c t h)]
  unfold stepA0 kernelRun0_A
  dsimp only
  sl_unfold_words
  rw [View.canon_unit_zero (S := S400x16) hz2]
  simp only [View.readAt_eq_ld, Memref.IsWhole.read_unread, View.readCov_unit_zero (S := S10000x16) _ hz2, View.ld_unit_zero (S := S10000x128) hz2, View.ld_unit_zero (S := S128x16) hz2, View.ld_unit_zero (S := S400x10000) hz2, View.ld_unit_zero (S := S1x16) hz2, View.ld_unit_zero (S := S16x48) hz2, View.ld_unit_zero (S := S10000x16) hz2]

theorem out0_B_6_eq (c : Dev nD) (t : Fin cfg0.N) (h : t.val ≠ 0) (xs0 : Vec F S10000x16 .f32) : out0_B_6 V c t h xs0 = k0_pay3 (iblk0 V c 5 t) xs0 (iblk0 V c 2 t) (iblk0 V c 3 t) := by
  unfold out0_B_6
  rw [View.read_writes_eq_canon _ _ _ (cover0_B_6 V c t h xs0)]
  unfold stepB0 kernelRun0_B
  dsimp only
  sl_unfold_words
  rw [View.canon_unit_zero (S := S400x16) hz2]
  simp only [View.readAt_eq_ld, Memref.IsWhole.read_unread, View.readCov_unit_zero (S := S10000x16) _ hz2, View.ld_unit_zero (S := S10000x128) hz2, View.ld_unit_zero (S := S128x16) hz2, View.ld_unit_zero (S := S400x10000) hz2, View.ld_unit_zero (S := S1x16) hz2, View.ld_unit_zero (S := S16x48) hz2, View.ld_unit_zero (S := S10000x16) hz2]
  rw [read_scr]

theorem out0_B_7_eq (c : Dev nD) (t : Fin cfg0.N) (h : t.val ≠ 0) (xs0 : Vec F S10000x16 .f32) : out0_B_7 V c t h xs0 = k0_pay4 (iblk0 V c 5 t) xs0 (iblk0 V c 2 t) (iblk0 V c 3 t) (iblk0 V c 4 t) := by
  unfold out0_B_7
  rw [View.read_writes_eq_canon _ _ _ (cover0_B_7 V c t h xs0)]
  unfold stepB0 kernelRun0_B
  dsimp only
  sl_unfold_words
  rw [View.canon_unit_zero (S := S400x16) hz2]
  simp only [View.readAt_eq_ld, Memref.IsWhole.read_unread, View.readCov_unit_zero (S := S10000x16) _ hz2, View.ld_unit_zero (S := S10000x128) hz2, View.ld_unit_zero (S := S128x16) hz2, View.ld_unit_zero (S := S400x10000) hz2, View.ld_unit_zero (S := S1x16) hz2, View.ld_unit_zero (S := S16x48) hz2, View.ld_unit_zero (S := S10000x16) hz2]
  rw [read_scr]

theorem out0_B_8_eq (c : Dev nD) (t : Fin cfg0.N) (h : t.val ≠ 0) (xs0 : Vec F S10000x16 .f32) : out0_B_8 V c t h xs0 = k0_pay5 (iblk0 V c 5 t) xs0 (iblk0 V c 2 t) (iblk0 V c 3 t) := by
  unfold out0_B_8
  rw [View.read_writes_eq_canon _ _ _ (cover0_B_8 V c t h xs0)]
  unfold stepB0 kernelRun0_B
  dsimp only
  sl_unfold_words
  rw [View.canon_unit_zero (S := S400x16) hz2]
  simp only [View.readAt_eq_ld, Memref.IsWhole.read_unread, View.readCov_unit_zero (S := S10000x16) _ hz2, View.ld_unit_zero (S := S10000x128) hz2, View.ld_unit_zero (S := S128x16) hz2, View.ld_unit_zero (S := S400x10000) hz2, View.ld_unit_zero (S := S1x16) hz2, View.ld_unit_zero (S := S16x48) hz2, View.ld_unit_zero (S := S10000x16) hz2]
  rw [read_scr]

/-! ## The one-block windows -/

theorem idx0_0 : ∀ t : Fin cfg0.N, win0_0.index t (0 : Fin 2) = 0 ∧ win0_0.index t (1 : Fin 2) = 0 :=
  (by decide +kernel : ∀ t : Fin grid0.N, _)
/-- Window 0's one block is its whole array. -/
theorem iblk0_0 (c : Dev nD) (t : Fin cfg0.N) : (iblk0 V c 0 t : S10000x128.Idx → Elt F .f32) = V c main_arg0 := by
  funext y
  show V c main_arg0 (((cfg0.win 0).blk t).view.emb y) = V c main_arg0 y
  congr 1
  obtain ⟨e0, e1⟩ := idx0_0 t
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem idx0_1 : ∀ t : Fin cfg0.N, win0_1.index t (0 : Fin 2) = 0 ∧ win0_1.index t (1 : Fin 2) = 0 :=
  (by decide +kernel : ∀ t : Fin grid0.N, _)
/-- Window 1's one block is its whole array. -/
theorem iblk0_1 (c : Dev nD) (t : Fin cfg0.N) : (iblk0 V c 1 t : S128x16.Idx → Elt F .f32) = V c main_arg2 := by
  funext y
  show V c main_arg2 (((cfg0.win 1).blk t).view.emb y) = V c main_arg2 y
  congr 1
  obtain ⟨e0, e1⟩ := idx0_1 t
  funext a; apply Fin.ext
  match a with
  | ⟨0, _⟩ => show win0_1.index t (0 : Fin 2) * 128 + 1 * (y 0).val = (y 0).val; omega
  | ⟨1, _⟩ => show win0_1.index t (1 : Fin 2) * 16 + 1 * (y 1).val = (y 1).val; omega

theorem idx0_2 : ∀ t : Fin cfg0.N, win0_2.index t (0 : Fin 2) = 0 ∧ win0_2.index t (1 : Fin 2) = 0 :=
  (by decide +kernel : ∀ t : Fin grid0.N, _)
/-- Window 2's one block is its whole array. -/
theorem iblk0_2 (c : Dev nD) (t : Fin cfg0.N) : (iblk0 V c 2 t : S1x16.Idx → Elt F .f32) = V c main_v0 := by
  funext y
  show V c main_v0 (((cfg0.win 2).blk t).view.emb y) = V c main_v0 y
  congr 1
  obtain ⟨e0, e1⟩ := idx0_2 t
  funext a; apply Fin.ext
  match a with
  | ⟨0, _⟩ => show win0_2.index t (0 : Fin 2) * 1 + 1 * (y 0).val = (y 0).val; omega
  | ⟨1, _⟩ => show win0_2.index t (1 : Fin 2) * 16 + 1 * (y 1).val = (y 1).val; omega

theorem idx0_3 : ∀ t : Fin cfg0.N, win0_3.index t (0 : Fin 2) = 0 ∧ win0_3.index t (1 : Fin 2) = 0 :=
  (by decide +kernel : ∀ t : Fin grid0.N, _)
/-- Window 3's one block is its whole array. -/
theorem iblk0_3 (c : Dev nD) (t : Fin cfg0.N) : (iblk0 V c 3 t : S16x48.Idx → Elt F .f32) = V c main_v4 := by
  funext y
  show V c main_v4 (((cfg0.win 3).blk t).view.emb y) = V c main_v4 y
  congr 1
  obtain ⟨e0, e1⟩ := idx0_3 t
  funext a; apply Fin.ext
  match a with
  | ⟨0, _⟩ => show win0_3.index t (0 : Fin 2) * 16 + 1 * (y 0).val = (y 0).val; omega
  | ⟨1, _⟩ => show win0_3.index t (1 : Fin 2) * 48 + 1 * (y 1).val = (y 1).val; omega

theorem idx0_4 : ∀ t : Fin cfg0.N, win0_4.index t (0 : Fin 2) = 0 ∧ win0_4.index t (1 : Fin 2) = 0 :=
  (by decide +kernel : ∀ t : Fin grid0.N, _)
/-- Window 4's one block is its whole array. -/
theorem iblk0_4 (c : Dev nD) (t : Fin cfg0.N) : (iblk0 V c 4 t : S1x16.Idx → Elt F .f32) = V c main_v2 := by
  funext y
  show V c main_v2 (((cfg0.win 4).blk t).view.emb y) = V c main_v2 y
  congr 1
  obtain ⟨e0, e1⟩ := idx0_4 t
  funext a; apply Fin.ext
  match a with
  | ⟨0, _⟩ => show win0_4.index t (0 : Fin 2) * 1 + 1 * (y 0).val = (y 0).val; omega
  | ⟨1, _⟩ => show win0_4.index t (1 : Fin 2) * 16 + 1 * (y 1).val = (y 1).val; omega

/-! ## The scratch and the outputs after every point -/

/-- The product of the feature matrix with the first weight matrix, as the first point computes it. -/
def scr0 (c : Dev nD) : Vec F S10000x16 .f32 := k0_pay1 (V c main_arg0) (V c main_arg2)

/-- From the first point on the scratch holds that product. -/
theorem scratch0_eq (c : Dev nD) : ∀ (n : ℕ) (hn : n < cfg0.N), (outsAt0 V c n hn).2.2.2 = scr0 V c := by
  intro n
  induction n with
  | zero =>
    intro hn
    rw [outsAt0_A V c ⟨0, hn⟩ rfl]; dsimp only
    rw [sout0_A_eq, iblk0_0, iblk0_1]; rfl
  | succ n ih =>
    intro hn
    rw [outsAt0_B V c ⟨n + 1, hn⟩ (Nat.succ_ne_zero n)]; dsimp only
    exact ih _

/-- After point `t` the three output buffers hold the three bands' payloads of the point's adjacency rows. -/
theorem outs0_6_eq (c : Dev nD) (t : Fin cfg0.N) :
    (outsAt0 V c t.val t.isLt).1 = k0_pay3 (iblk0 V c 5 t) (scr0 V c) (V c main_v0) (V c main_v4) := by
  by_cases hz : t.val = 0
  · rw [outsAt0_A V c t hz]; dsimp only
    rw [out0_A_6_eq, iblk0_0, iblk0_1, iblk0_2, iblk0_3]; rfl
  · rw [outsAt0_B V c t hz]; dsimp only
    rw [out0_B_6_eq, scratch0_eq, iblk0_2, iblk0_3]
theorem outs0_7_eq (c : Dev nD) (t : Fin cfg0.N) :
    (outsAt0 V c t.val t.isLt).2.1 = k0_pay4 (iblk0 V c 5 t) (scr0 V c) (V c main_v0) (V c main_v4) (V c main_v2) := by
  by_cases hz : t.val = 0
  · rw [outsAt0_A V c t hz]; dsimp only
    rw [out0_A_7_eq, iblk0_0, iblk0_1, iblk0_2, iblk0_3, iblk0_4]; rfl
  · rw [outsAt0_B V c t hz]; dsimp only
    rw [out0_B_7_eq, scratch0_eq, iblk0_2, iblk0_3, iblk0_4]
theorem outs0_8_eq (c : Dev nD) (t : Fin cfg0.N) :
    (outsAt0 V c t.val t.isLt).2.2.1 = k0_pay5 (iblk0 V c 5 t) (scr0 V c) (V c main_v0) (V c main_v4) := by
  by_cases hz : t.val = 0
  · rw [outsAt0_A V c t hz]; dsimp only
    rw [out0_A_8_eq, iblk0_0, iblk0_1, iblk0_2, iblk0_3]; rfl
  · rw [outsAt0_B V c t hz]; dsimp only
    rw [out0_B_8_eq, scratch0_eq, iblk0_2, iblk0_3]

/-! ## The adjacency window: block `t` is rows `400·t … 400·t + 399` -/

theorem idx0_5 : ∀ t : Fin cfg0.N, win0_5.index t (0 : Fin 2) = t.val ∧ win0_5.index t (1 : Fin 2) = 0 :=
  (by decide +kernel : ∀ t : Fin grid0.N, _)

theorem iblk0_5_apply (c : Dev nD) (t : Fin cfg0.N) (y : S400x10000.Idx) :
    (iblk0 V c 5 t : S400x10000.Idx → Elt F .f32) y
      = V c main_arg1 (ValueIdx.ix2 (⟨400 * t.val + (y 0).val, by have := ValueIdx.idx2_lt0 y; have := N0_lt t; omega⟩ : Fin 10000) (y 1)) := by
  show V c main_arg1 (((cfg0.win 5).blk t).view.emb y) = _
  congr 1
  obtain ⟨e0, e1⟩ := idx0_5 t
  funext a; apply Fin.ext
  match a with
  | ⟨0, _⟩ => show win0_5.index t (0 : Fin 2) * 400 + 1 * (y 0).val = 400 * t.val + (y 0).val; omega
  | ⟨1, _⟩ => show win0_5.index t (1 : Fin 2) * 10000 + 1 * (y 1).val = (y 1).val; omega

end Region0

end Cert.KernelIdeal.Run

end
-- ==== Proof.Math.Rows.lean ====
import proofs.«103986_g86887188398718_cont_9to1c4b_243_22_alg».proof.Proof.RefRead
import proofs.«103986_g86887188398718_cont_9to1c4b_243_22_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost

noncomputable section

namespace Cert.Bridge

open Idealize.ShloMosaic Idealize.ShloMosaic.ValueIdx
open Cert.KernelIdeal Cert.KernelIdeal.Gen

/-! # Row blocks

Both kernels walk the 10000 adjacency rows in 25 blocks of 400. -/

/-- Row `r` of block `t` is row `400·t + r` of the matrix. -/
def rowIdx (t : Fin 25) (r : Fin 400) : Fin 10000 := ⟨400 * t.val + r.val, by have := t.isLt; have := r.isLt; omega⟩

/-- Rows `400·t … 400·t + 399` of a matrix of 10000 rows. -/
def rowsOf {n : Nat} (t : Fin 25) (a : (⟨2, ![10000, n]⟩ : Shape).Idx → Ideal .f32) : (⟨2, ![400, n]⟩ : Shape).Idx → Ideal .f32 :=
  fun y => a (ix2 (rowIdx t ⟨(y 0).val, idx2_lt0 y⟩) (y 1))

theorem rowsOf_apply {n : Nat} (t : Fin 25) (a : (⟨2, ![10000, n]⟩ : Shape).Idx → Ideal .f32) (r : Fin 400) (k : Fin n) :
    rowsOf t a (ix2 r k) = a (ix2 (rowIdx t r) k) := rfl

/-- The three small weight matrices laid side by side, as the host prepares them for the first kernel: the
    attention matrix, the transposed encoder matrix, the second layer's matrix. -/
def wcatOf (att We W2 : FVec Ideal S16x16 .f32) : FVec Ideal S16x48 .f32 :=
  concatenate S16x48 1 [⟨S16x16, att⟩, ⟨S16x16, transpose S16x16 [1, 0] We transposes_S16x16_S16x16_1_0⟩, ⟨S16x16, W2⟩] concatenates_S16x16_S16x16_S16x16_S16x48_d1

end Cert.Bridge

end
-- ==== Proof.Math.Hidden.lean ====
import proofs.«103986_g86887188398718_cont_9to1c4b_243_22_alg».proof.Proof.Math.Rows

noncomputable section

namespace Cert.Bridge

open Idealize.ShloMosaic Idealize.ShloMosaic.ValueIdx
open Cert.KernelIdeal Cert.KernelIdeal.Gen

/-! # The first kernel's three output blocks against the reference's three matrices

At a block of 400 rows the first kernel computes the hidden layer `h = max(adj·(x·W1) + b1, 0)` of those rows
and multiplies it once with the three weight matrices laid side by side; the reference computes the hidden layer
of all rows and three separate products. A column of a matrix product depends on that column of the right
factor alone, so the three column bands of the one product are the three products. -/

/-! ## The feature product `x · W1` -/

/-- The kernel's and the reference's dimension numbers of `x · W1` are the same record. -/
theorem dot_xW1_eq :
    dot_S10000x128_S128x16_S10000x16_1_0_0_1_n_n = Cert.ReferenceIdeal.dot_S10000x128_S128x16_S10000x16_1_0_0_1_n_n := rfl

/-- The kernel's product into a zero accumulator is the reference's `dot_general`, as whole arrays. -/
theorem xW1_eq (x : FVec Ideal S10000x128 .f32) (W1 : FVec Ideal S128x16 .f32) :
    k0_pay1 (F := Ideal) x W1 = Cert.ReferenceIdeal.ReadP.val_main_v0 (F := Ideal) x W1 := by
  unfold Cert.ReferenceIdeal.ReadP.val_main_v0
  show shapeCast S10000x16 (matmul dot_S10000x128_S128x16_S10000x16_1_0_0_1_n_n none x W1 (constant S10000x16 .f32 0x00000000#32))
    shapeCasts_S10000x16_S10000x16 = _
  rw [shapeCast_self, matmul_zero_eq_dotGeneral, dot_xW1_eq]

/-! ## The two products of a block, read at an index -/

theorem lhsA_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhsA_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhsA_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhsA_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- The block's rows of the adjacency times a 10000×16 matrix, into a zero accumulator, at (r, l): the sum over the
    10000 columns. -/
theorem matmulA_apply (a : FVec Ideal S400x10000 .f32) (b : FVec Ideal S10000x16 .f32) (r : Fin 400) (l : Fin 16) :
    matmul dot_S400x10000_S10000x16_S400x16_1_0_0_1_n_n none a b (constant S400x16 .f32 0x00000000#32) (ix2 r l)
      = ∑ k : Fin 10000, a (ix2 r k) * b (ix2 k l) := by
  refine (Ideal.matmul_constant_zero_apply dot_S400x10000_S10000x16_S400x16_1_0_0_1_n_n none a b (ix2 r l)).trans ?_
  rw [← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 r l) ((contrEquiv1 dot_S400x10000_S10000x16_S400x16_1_0_0_1_n_n 10000 rfl rfl).symm k) = ix2 r k := funext fun a => Fin.ext (by
    match a with
    | ⟨0, _⟩ => exact lhsA_0 _ _
    | ⟨1, _⟩ => exact (lhsA_1 _ _).trans hk)
  have er : dot_S400x10000_S10000x16_S400x16_1_0_0_1_n_n.rhsIdx (ix2 r l) ((contrEquiv1 dot_S400x10000_S10000x16_S400x16_1_0_0_1_n_n 10000 rfl rfl).symm k) = ix2 k l := funext fun a => Fin.ext (by
    match a with
    | ⟨0, _⟩ => exact (rhsA_0 _ _).trans hk
    | ⟨1, _⟩ => exact rhsA_1 _ _)
  rw [el, er]

theorem lhsB_0 (i : S400x48.Idx) (q : dot_S400x16_S16x48_S400x48_1_0_0_1_n_n.contr.Idx) :
    (dot_S400x16_S16x48_S400x48_1_0_0_1_n_n.lhsIdx i q 0).val = (i 0).val := by
  unfold DotDims.lhsIdx
  rw [dif_neg (show ¬(0 : Fin S400x16.rank) ∈ dot_S400x16_S16x48_S400x48_1_0_0_1_n_n.lhsBatch by decide), dif_pos (show (0 : Fin S400x16.rank) ∈ dot_S400x16_S16x48_S400x48_1_0_0_1_n_n.lhsNonContracting by decide)]
  rfl
theorem lhsB_1 (i : S400x48.Idx) (q : dot_S400x16_S16x48_S400x48_1_0_0_1_n_n.contr.Idx) :
    (dot_S400x16_S16x48_S400x48_1_0_0_1_n_n.lhsIdx i q 1).val = (q ⟨0, by decide⟩).val :=
  dot_S400x16_S16x48_S400x48_1_0_0_1_n_n.lhsIdx_val_of_single rfl i q
theorem rhsB_0 (i : S400x48.Idx) (q : dot_S400x16_S16x48_S400x48_1_0_0_1_n_n.contr.Idx) :
    (dot_S400x16_S16x48_S400x48_1_0_0_1_n_n.rhsIdx i q 0).val = (q ⟨0, by decide⟩).val :=
  dot_S400x16_S16x48_S400x48_1_0_0_1_n_n.rhsIdx_val_of_single rfl i q
theorem rhsB_1 (i : S400x48.Idx) (q : dot_S400x16_S16x48_S400x48_1_0_0_1_n_n.contr.Idx) :
    (dot_S400x16_S16x48_S400x48_1_0_0_1_n_n.rhsIdx i q 1).val = (i 1).val := by
  unfold DotDims.rhsIdx
  rw [dif_neg (show ¬(1 : Fin S16x48.rank) ∈ dot_S400x16_S16x48_S400x48_1_0_0_1_n_n.rhsBatch by decide), dif_pos (show (1 : Fin S16x48.rank) ∈ dot_S400x16_S16x48_S400x48_1_0_0_1_n_n.rhsNonContracting by decide)]
  rfl

/-- A 400×16 block times a 16×48 matrix, into a zero accumulator, at (r, c): the sum over the 16 hidden units. -/
theorem matmulB_apply (h : FVec Ideal S400x16 .f32) (w : FVec Ideal S16x48 .f32) (r : Fin 400) (c : Fin 48) :
    matmul dot_S400x16_S16x48_S400x48_1_0_0_1_n_n none h w (constant S400x48 .f32 0x00000000#32) (ix2 r c)
      = ∑ l : Fin 16, h (ix2 r l) * w (ix2 l c) := by
  refine (Ideal.matmul_constant_zero_apply dot_S400x16_S16x48_S400x48_1_0_0_1_n_n none h w (ix2 r c)).trans ?_
  rw [← Equiv.sum_comp (contrEquiv1 dot_S400x16_S16x48_S400x48_1_0_0_1_n_n 16 rfl rfl).symm]
  refine Finset.sum_congr rfl fun k _ => ?_
  have hk := contrEquiv1_symm_val dot_S400x16_S16x48_S400x48_1_0_0_1_n_n 16 rfl rfl k
  have el : dot_S400x16_S16x48_S400x48_1_0_0_1_n_n.lhsIdx (ix2 r c) ((contrEquiv1 dot_S400x16_S16x48_S400x48_1_0_0_1_n_n 16 rfl rfl).symm k) = ix2 r k := funext fun a => Fin.ext (by
    match a with
    | ⟨0, _⟩ => exact lhsB_0 _ _
    | ⟨1, _⟩ => exact (lhsB_1 _ _).trans hk)
  have er : dot_S400x16_S16x48_S400x48_1_0_0_1_n_n.rhsIdx (ix2 r c) ((contrEquiv1 dot_S400x16_S16x48_S400x48_1_0_0_1_n_n 16 rfl rfl).symm k) = ix2 k c := funext fun a => Fin.ext (by
    match a with
    | ⟨0, _⟩ => exact (rhsB_0 _ _).trans hk
    | ⟨1, _⟩ => exact rhsB_1 _ _)
  rw [el, er]

/-! ## The hidden layer of a block -/

/-- The bias, cast to one row and laid along the block's 400 rows, at (r, l): its entry l. -/
theorem biasRow_apply (b : FVec Ideal S16 .f32) (r : Fin 400) (l : Fin 16) :
    broadcastTo S400x16 (shapeCast S1x16 (shapeCast S1x16 b shapeCasts_S16_S1x16) shapeCasts_S1x16_S1x16) broadcasts_S1x16_S400x16 (ix2 r l)
      = b (ix1 l) := by
  rw [shapeCast_self]
  refine (broadcastTo_apply (shapeCast S1x16 b shapeCasts_S16_S1x16) broadcasts_S1x16_S400x16 (ix2 r l) (ix2 (0 : Fin 1) l) ?_).trans ?_
  · intro a
    match a with
    | ⟨0, _⟩ => show 0 = if (1 : Nat) = 1 then 0 else r.val; rw [if_pos rfl]
    | ⟨1, _⟩ => show l.val = if (16 : Nat) = 1 then 0 else l.val; rw [if_neg (by decide)]
  · exact shapeCast_apply b shapeCasts_S16_S1x16 (ix2 (0 : Fin 1) l) (ix1 l)
      (by rw [Shape.rowMajor_val_two, Shape.rowMajor_val_one]; show l.val = 0 * 16 + l.val; omega)

/-- The block's hidden layer as the kernel computes it: the block's adjacency rows times `x · W1`, plus the bias
    row, clamped below at zero. -/
def hiddenBlock (a : FVec Ideal S400x10000 .f32) (xw : FVec Ideal S10000x16 .f32) (b : FVec Ideal S1x16 .f32) :
    FVec Ideal S400x16 .f32 :=
  maximumf (addf (matmul dot_S400x10000_S10000x16_S400x16_1_0_0_1_n_n none a xw (constant S400x16 .f32 0x00000000#32))
    (broadcastTo S400x16 (shapeCast S1x16 b shapeCasts_S1x16_S1x16) broadcasts_S1x16_S400x16))
    (broadcast S400x16 (Scalar.ofBits .f32 0x00000000#32 : Ideal .f32))

/-- The one product of the kernel is the hidden block times the (identically cast) 16×48 matrix. -/
theorem pay2_eq_matmul (a : FVec Ideal S400x10000 .f32) (xw : FVec Ideal S10000x16 .f32) (b : FVec Ideal S1x16 .f32)
    (w : FVec Ideal S16x48 .f32) :
    k0_pay2 (F := Ideal) a xw b w
      = matmul dot_S400x16_S16x48_S400x48_1_0_0_1_n_n none (hiddenBlock a xw b)
          (shapeCast S16x48 w shapeCasts_S16x48_S16x48) (constant S400x48 .f32 0x00000000#32) := rfl

theorem lidx1_eq (R : Fin 10000) (l : Fin 16) (k : Fin 10000) :
    Cert.ReferenceIdeal.ReadP.lidx_main_v1 (ix2 R l) k = ix2 R k :=
  funext fun a => Fin.ext (by match a with | ⟨0, _⟩ => rfl | ⟨1, _⟩ => rfl)
theorem ridx1_eq (R : Fin 10000) (l : Fin 16) (k : Fin 10000) :
    Cert.ReferenceIdeal.ReadP.ridx_main_v1 (ix2 R l) k = ix2 k l :=
  funext fun a => Fin.ext (by match a with | ⟨0, _⟩ => rfl | ⟨1, _⟩ => rfl)
theorem idx23_eq (R : Fin 10000) (l : Fin 16) :
    Cert.ReferenceIdeal.ReadP.idx_main_v2 (Cert.ReferenceIdeal.ReadP.idx_main_v3 (ix2 R l)) = ix1 l :=
  funext fun a => Fin.ext (by match a with | ⟨0, _⟩ => rfl)

/-- The block's hidden layer at (r, l) is the reference's hidden layer at row `400·t + r`. -/
theorem hiddenBlock_apply (t : Fin 25) (x : FVec Ideal S10000x128 .f32) (adj : FVec Ideal S10000x10000 .f32)
    (W1 : FVec Ideal S128x16 .f32) (b1 : FVec Ideal S16 .f32) (r : Fin 400) (l : Fin 16) :
    hiddenBlock (rowsOf t adj) (Cert.ReferenceIdeal.ReadP.val_main_v0 (F := Ideal) x W1) (shapeCast S1x16 b1 shapeCasts_S16_S1x16) (ix2 r l)
      = Cert.ReferenceIdeal.ReadP.val_main_v5 (F := Ideal) x adj W1 b1 (ix2 (rowIdx t r) l) := by
  unfold hiddenBlock
  rw [maximumf_apply, addf_apply, broadcast_apply, matmulA_apply, biasRow_apply]
  rw [Cert.ReferenceIdeal.ReadP.val_main_v5_apply, Cert.ReferenceIdeal.ReadP.val_main_v4_apply,
    Cert.ReferenceIdeal.ReadP.val_main_v1_apply, Cert.ReferenceIdeal.ReadP.val_main_v3_apply,
    Cert.ReferenceIdeal.ReadP.val_main_v2_apply, Cert.ReferenceIdeal.ReadP.val_main_call0_v0_apply,
    Cert.ReferenceIdeal.ReadP.val_main_call0_cst_apply]
  simp only [rowsOf_apply, lidx1_eq, ridx1_eq, idx23_eq, Ideal.maximumf_def, Ideal.addf_def]

/-! ## The three bands -/

/-- Column j of the band that starts at column `off` of the 48. -/
def band (off : Nat) (hoff : off + 16 ≤ 48) (j : Fin 16) : Fin 48 := ⟨off + j.val, by have := j.isLt; omega⟩

/-- The kernel's one product at (r, c): the sum over the hidden units of the reference's hidden layer at row
    `400·t + r` times the side-by-side matrix at (l, c). -/
theorem pay2_apply (t : Fin 25) (x : FVec Ideal S10000x128 .f32) (adj : FVec Ideal S10000x10000 .f32)
    (W1 : FVec Ideal S128x16 .f32) (b1 : FVec Ideal S16 .f32) (w : FVec Ideal S16x48 .f32) (r : Fin 400) (c : Fin 48) :
    k0_pay2 (F := Ideal) (rowsOf t adj) (Cert.ReferenceIdeal.ReadP.val_main_v0 (F := Ideal) x W1) (shapeCast S1x16 b1 shapeCasts_S16_S1x16) w (ix2 r c)
      = ∑ l : Fin 16, Cert.ReferenceIdeal.ReadP.val_main_v5 (F := Ideal) x adj W1 b1 (ix2 (rowIdx t r) l) * w (ix2 l c) := by
  rw [pay2_eq_matmul, matmulB_apply, shapeCast_self]
  exact Finset.sum_congr rfl fun l _ => by rw [hiddenBlock_apply]

theorem slice0_apply (p : FVec Ideal S400x48 .f32) (r : Fin 400) (j : Fin 16) :
    extractStridedSlice S400x16 ![0, 0] p slices_S400x48_o0_0_S400x16 (ix2 r j) = p (ix2 r (band 0 (by decide) j)) :=
  extractStridedSlice_apply ![0, 0] p slices_S400x48_o0_0_S400x16 (ix2 r j) (ix2 r (band 0 (by decide) j)) (fun a =>
    match a with
    | ⟨0, _⟩ => by show r.val = 0 + r.val; omega
    | ⟨1, _⟩ => by show 0 + j.val = 0 + j.val; rfl)
theorem slice16_apply (p : FVec Ideal S400x48 .f32) (r : Fin 400) (j : Fin 16) :
    extractStridedSlice S400x16 ![0, 16] p slices_S400x48_o0_16_S400x16 (ix2 r j) = p (ix2 r (band 16 (by decide) j)) :=
  extractStridedSlice_apply ![0, 16] p slices_S400x48_o0_16_S400x16 (ix2 r j) (ix2 r (band 16 (by decide) j)) (fun a =>
    match a with
    | ⟨0, _⟩ => by show r.val = 0 + r.val; omega
    | ⟨1, _⟩ => by show 16 + j.val = 16 + j.val; rfl)
theorem slice32_apply (p : FVec Ideal S400x48 .f32) (r : Fin 400) (j : Fin 16) :
    extractStridedSlice S400x16 ![0, 32] p slices_S400x48_o0_32_S400x16 (ix2 r j) = p (ix2 r (band 32 (by decide) j)) :=
  extractStridedSlice_apply ![0, 32] p slices_S400x48_o0_32_S400x16 (ix2 r j) (ix2 r (band 32 (by decide) j)) (fun a =>
    match a with
    | ⟨0, _⟩ => by show r.val = 0 + r.val; omega
    | ⟨1, _⟩ => by show 32 + j.val = 32 + j.val; rfl)

/-- Columns 0–15 of the side-by-side matrix are the attention matrix. -/
theorem wcat_att (att We W2 : FVec Ideal S16x16 .f32) (l j : Fin 16) :
    wcatOf att We W2 (ix2 l (band 0 (by decide) j)) = att (ix2 l j) := by
  unfold wcatOf
  refine concatenate_apply_piece (1 : Fin S16x48.rank) [⟨S16x16, att⟩, ⟨S16x16, transpose S16x16 [1, 0] We transposes_S16x16_S16x16_1_0⟩, ⟨S16x16, W2⟩]
    concatenates_S16x16_S16x16_S16x16_S16x48_d1 (ix2 l (band 0 (by decide) j))
    0 (by show (0 : Nat) < 3; decide) S16x16 att rfl rfl 0 rfl (ix2 l j) ?_ ?_
  · intro b hb
    match b with
    | ⟨0, _⟩ => rfl
    | ⟨1, _⟩ => exact absurd (Fin.ext rfl) hb
  · show 0 + j.val = 0 + j.val; rfl

/-- Columns 16–31 are the transposed encoder matrix. -/
theorem wcat_We (att We W2 : FVec Ideal S16x16 .f32) (l j : Fin 16) :
    wcatOf att We W2 (ix2 l (band 16 (by decide) j)) = We (ix2 j l) := by
  unfold wcatOf
  refine (concatenate_apply_piece (1 : Fin S16x48.rank) [⟨S16x16, att⟩, ⟨S16x16, transpose S16x16 [1, 0] We transposes_S16x16_S16x16_1_0⟩, ⟨S16x16, W2⟩]
    concatenates_S16x16_S16x16_S16x16_S16x48_d1 (ix2 l (band 16 (by decide) j))
    1 (by show (1 : Nat) < 3; decide) S16x16 (transpose S16x16 [1, 0] We transposes_S16x16_S16x16_1_0) rfl rfl 16 rfl (ix2 l j) ?_ ?_).trans ?_
  · intro b hb
    match b with
    | ⟨0, _⟩ => rfl
    | ⟨1, _⟩ => exact absurd (Fin.ext rfl) hb
  · show 16 + j.val = 16 + j.val; rfl
  · exact transpose_apply [1, 0] We transposes_S16x16_S16x16_1_0 (ix2 l j) (ix2 j l) (fun b => match b with
      | ⟨0, _⟩ => rfl
      | ⟨1, _⟩ => rfl)

/-- Columns 32–47 are the second layer's matrix. -/
theorem wcat_W2 (att We W2 : FVec Ideal S16x16 .f32) (l j : Fin 16) :
    wcatOf att We W2 (ix2 l (band 32 (by decide) j)) = W2 (ix2 l j) := by
  unfold wcatOf
  refine concatenate_apply_piece (1 : Fin S16x48.rank) [⟨S16x16, att⟩, ⟨S16x16, transpose S16x16 [1, 0] We transposes_S16x16_S16x16_1_0⟩, ⟨S16x16, W2⟩]
    concatenates_S16x16_S16x16_S16x16_S16x48_d1 (ix2 l (band 32 (by decide) j))
    2 (by show (2 : Nat) < 3; decide) S16x16 W2 rfl rfl 32 rfl (ix2 l j) ?_ ?_
  · intro b hb
    match b with
    | ⟨0, _⟩ => rfl
    | ⟨1, _⟩ => exact absurd (Fin.ext rfl) hb
  · show 32 + j.val = 32 + j.val; rfl

/-! ## The reference's three products at row `400·t + r` -/

theorem lidx16_eq (R : Fin 10000) (j l : Fin 16) : Cert.ReferenceIdeal.ReadP.lidx_main_v16 (ix2 R j) l = ix2 R l :=
  funext fun a => Fin.ext (by match a with | ⟨0, _⟩ => rfl | ⟨1, _⟩ => rfl)
theorem ridx16_eq (R : Fin 10000) (j l : Fin 16) : Cert.ReferenceIdeal.ReadP.ridx_main_v16 (ix2 R j) l = ix2 l j :=
  funext fun a => Fin.ext (by match a with | ⟨0, _⟩ => rfl | ⟨1, _⟩ => rfl)
theorem lidx12_eq (R : Fin 10000) (j l : Fin 16) : Cert.ReferenceIdeal.ReadP.lidx_main_v12 (ix2 R j) l = ix2 R l :=
  funext fun a => Fin.ext (by match a with | ⟨0, _⟩ => rfl | ⟨1, _⟩ => rfl)
theorem ridx12_eq (R : Fin 10000) (j l : Fin 16) :
    Cert.ReferenceIdeal.ReadP.idx_main_v11 (Cert.ReferenceIdeal.ReadP.ridx_main_v12 (ix2 R j) l) = ix2 j l :=
  funext fun a => Fin.ext (by match a with | ⟨0, _⟩ => rfl | ⟨1, _⟩ => rfl)
theorem idx1314_eq (R : Fin 10000) (j : Fin 16) :
    Cert.ReferenceIdeal.ReadP.idx_main_v13 (Cert.ReferenceIdeal.ReadP.idx_main_v14 (ix2 R j)) = ix1 j :=
  funext fun a => Fin.ext (by match a with | ⟨0, _⟩ => rfl)
theorem lidx6_eq (R : Fin 10000) (j l : Fin 16) : Cert.ReferenceIdeal.ReadP.lidx_main_v6 (ix2 R j) l = ix2 R l :=
  funext fun a => Fin.ext (by match a with | ⟨0, _⟩ => rfl | ⟨1, _⟩ => rfl)
theorem ridx6_eq (R : Fin 10000) (j l : Fin 16) : Cert.ReferenceIdeal.ReadP.ridx_main_v6 (ix2 R j) l = ix2 l j :=
  funext fun a => Fin.ext (by match a with | ⟨0, _⟩ => rfl | ⟨1, _⟩ => rfl)

/-- The three stored payloads are slices of the one product (the middle one plus the encoder bias row). -/
theorem pay3_def (a : FVec Ideal S400x10000 .f32) (xw : FVec Ideal S10000x16 .f32) (b : FVec Ideal S1x16 .f32) (w : FVec Ideal S16x48 .f32) :
    k0_pay3 (F := Ideal) a xw b w
      = extractStridedSlice S400x16 ![0, 0] (k0_pay2 (F := Ideal) a xw b w) slices_S400x48_o0_0_S400x16 := rfl
theorem pay4_def (a : FVec Ideal S400x10000 .f32) (xw : FVec Ideal S10000x16 .f32) (b : FVec Ideal S1x16 .f32) (w : FVec Ideal S16x48 .f32)
    (e : FVec Ideal S1x16 .f32) :
    k0_pay4 (F := Ideal) a xw b w e
      = addf (extractStridedSlice S400x16 ![0, 16] (k0_pay2 (F := Ideal) a xw b w) slices_S400x48_o0_16_S400x16)
          (broadcastTo S400x16 (shapeCast S1x16 e shapeCasts_S1x16_S1x16) broadcasts_S1x16_S400x16) := rfl
theorem pay5_def (a : FVec Ideal S400x10000 .f32) (xw : FVec Ideal S10000x16 .f32) (b : FVec Ideal S1x16 .f32) (w : FVec Ideal S16x48 .f32) :
    k0_pay5 (F := Ideal) a xw b w
      = extractStridedSlice S400x16 ![0, 32] (k0_pay2 (F := Ideal) a xw b w) slices_S400x48_o0_32_S400x16 := rfl

/-- Columns 0–15 of the block's product are the block's rows of `h · att`. -/
theorem pay3_eq (t : Fin 25) (x : FVec Ideal S10000x128 .f32) (adj : FVec Ideal S10000x10000 .f32) (W1 : FVec Ideal S128x16 .f32) (b1 : FVec Ideal S16 .f32) (att We W2 : FVec Ideal S16x16 .f32) (r : Fin 400) (j : Fin 16) :
    k0_pay3 (F := Ideal) (rowsOf t adj) (k0_pay1 (F := Ideal) x W1) (shapeCast S1x16 b1 shapeCasts_S16_S1x16) (wcatOf att We W2) (ix2 r j)
      = Cert.ReferenceIdeal.ReadP.val_main_v16 (F := Ideal) x adj W1 b1 att (ix2 (rowIdx t r) j) := by
  rw [pay3_def, xW1_eq, slice0_apply, pay2_apply, Cert.ReferenceIdeal.ReadP.val_main_v16_apply]
  exact Finset.sum_congr rfl fun l _ => by rw [wcat_att, lidx16_eq, ridx16_eq]

/-- Columns 16–31 plus the encoder bias are the block's rows of `h · Weᵀ + be`. -/
theorem pay4_eq (t : Fin 25) (x : FVec Ideal S10000x128 .f32) (adj : FVec Ideal S10000x10000 .f32) (W1 : FVec Ideal S128x16 .f32) (b1 : FVec Ideal S16 .f32) (att We W2 : FVec Ideal S16x16 .f32) (be : FVec Ideal S16 .f32) (r : Fin 400) (j : Fin 16) :
    k0_pay4 (F := Ideal) (rowsOf t adj) (k0_pay1 (F := Ideal) x W1) (shapeCast S1x16 b1 shapeCasts_S16_S1x16) (wcatOf att We W2) (shapeCast S1x16 be shapeCasts_S16_S1x16) (ix2 r j)
      = Cert.ReferenceIdeal.ReadP.val_main_v15 (F := Ideal) x adj W1 b1 We be (ix2 (rowIdx t r) j) := by
  rw [pay4_def, xW1_eq, addf_apply, biasRow_apply, slice16_apply, pay2_apply]
  rw [Cert.ReferenceIdeal.ReadP.val_main_v15_apply, Cert.ReferenceIdeal.ReadP.val_main_v12_apply,
    Cert.ReferenceIdeal.ReadP.val_main_v14_apply, Cert.ReferenceIdeal.ReadP.val_main_v13_apply, idx1314_eq, Ideal.addf_def]
  refine congrArg (· + be (ix1 j)) (Finset.sum_congr rfl fun l _ => ?_)
  rw [wcat_We, Cert.ReferenceIdeal.ReadP.val_main_v11_apply, lidx12_eq, ridx12_eq]

/-- Columns 32–47 are the block's rows of `h · W2`. -/
theorem pay5_eq (t : Fin 25) (x : FVec Ideal S10000x128 .f32) (adj : FVec Ideal S10000x10000 .f32) (W1 : FVec Ideal S128x16 .f32) (b1 : FVec Ideal S16 .f32) (att We W2 : FVec Ideal S16x16 .f32) (r : Fin 400) (j : Fin 16) :
    k0_pay5 (F := Ideal) (rowsOf t adj) (k0_pay1 (F := Ideal) x W1) (shapeCast S1x16 b1 shapeCasts_S16_S1x16) (wcatOf att We W2) (ix2 r j)
      = Cert.ReferenceIdeal.ReadP.val_main_v6 (F := Ideal) x adj W1 b1 W2 (ix2 (rowIdx t r) j) := by
  rw [pay5_def, xW1_eq, slice32_apply, pay2_apply, Cert.ReferenceIdeal.ReadP.val_main_v6_apply]
  exact Finset.sum_congr rfl fun l _ => by rw [wcat_W2, lidx6_eq, ridx6_eq]

end Cert.Bridge

end
-- ==== Proof.IdealRun.Final0.lean ====
import proofs.«103986_g86887188398718_cont_9to1c4b_243_22_alg».proof.Proof.IdealRun.Vals0
import proofs.«103986_g86887188398718_cont_9to1c4b_243_22_alg».proof.Proof.Math.Hidden

set_option maxRecDepth 16384

noncomputable section

namespace Cert.KernelIdeal.Run

open Cert.KernelIdeal Cert.KernelIdeal.Gen Cert.Bridge
open Idealize.ShloMosaic Idealize.ShloMosaic.TcCoe Idealize.ShloMosaic.ValueIdx
open Idealize.SL Idealize.SL.Sem
open Idealize.ShloMosaic.Pipeline (Dat Cfg Window)

/-! # The first kernel's three result arrays are the reference's three matrices

Each output array is tiled by 25 blocks of 400 rows; block `t` is the band's payload of adjacency rows
`400·t … 400·t + 399`, which is the reference's matrix at those rows. -/

section
variable (V : (c : Dev nD) → (b : Ref sig .tc) → Buf (Elt Ideal) ((c : Thread nD τ).loc b))
variable (x : FVec Ideal S10000x128 .f32) (adj : FVec Ideal S10000x10000 .f32) (W1 : FVec Ideal S128x16 .f32) (b1 : FVec Ideal S16 .f32) (att We W2 : FVec Ideal S16x16 .f32) (be : FVec Ideal S16 .f32)

theorem idx0_6 : ∀ t : Fin cfg0.N, win0_6.index t (0 : Fin 2) = t.val ∧ win0_6.index t (1 : Fin 2) = 0 :=
  (by decide +kernel : ∀ t : Fin grid0.N, _)

/-- An index of the array is in point `t`'s block iff each coordinate is in the block's range on its axis. -/
theorem mem_blk0_6 (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v5_0).slice (win0_6.rect t)).set ↔ _
  rw [View.set_slice_whole, Rect.mem_set_unit]
  exact Iff.rfl

/-- The 25 blocks of 400 rows cover the array: row `i` is in block `i / 400`. -/
theorem cover0_6 (i : S10000x16.Idx) :
    ∃ t : Fin cfg0.N, (cfg0.win 6).flush t = true ∧ i ∈ ((cfg0.win 6).blk t).view.set := by
  have hi0 : (i 0).val < 10000 := idx2_lt0 i
  have hi1 : (i 1).val < 16 := idx2_lt1 i
  refine ⟨⟨(i 0).val / 400, lt_N0 (by omega)⟩, flush0_6 _, ?_⟩
  rw [mem_blk0_6]
  obtain ⟨e0, e1⟩ := idx0_6 ⟨(i 0).val / 400, lt_N0 (by omega)⟩
  intro a
  match a with
  | ⟨0, _⟩ => show win0_6.index _ (0 : Fin 2) * 400 ≤ (i 0).val ∧ (i 0).val < win0_6.index _ (0 : Fin 2) * 400 + 400; simp only at e0; omega
  | ⟨1, _⟩ => show win0_6.index _ (1 : Fin 2) * 16 ≤ (i 1).val ∧ (i 1).val < win0_6.index _ (1 : Fin 2) * 16 + 16; omega

/-- What point `t` writes back is block `t` of the reference's matrix. -/
theorem flushed0_6_eq (c : Dev nD) (hx : V c main_arg0 = x) (hadj : V c main_arg1 = adj) (hW1 : V c main_arg2 = W1) (hv0 : V c main_v0 = shapeCast S1x16 b1 shapeCasts_S16_S1x16) (hv4 : V c main_v4 = wcatOf att We W2) (hv2 : V c main_v2 = shapeCast S1x16 be shapeCasts_S16_S1x16) (t : Fin cfg0.N) :
    (dat0 V c).flushed 6 t = ((cfg0.win 6).blk t).view.read (Elt Ideal) (Cert.ReferenceIdeal.ReadP.val_main_v16 (F := Ideal) x adj W1 b1 att) := by
  show (cfg0.win 6).cut (grid0.coords t) ((dat0 V c).after 6 t) = _
  rw [after0_6, outs0_6_eq]
  funext y
  obtain ⟨r, j, rfl⟩ : ∃ (r : Fin 400) (j : Fin 16), y = ix2 r j := ⟨y 0, y 1, eq_ix2 y⟩
  have hblk : (iblk0 V c 5 t : S400x10000.Idx → Ideal .f32) = rowsOf (Fin.cast N_0 t) adj := by
    funext z; rw [iblk0_5_apply, hadj]; rfl
  show k0_pay3 (F := Ideal) (iblk0 V c 5 t) (scr0 V c) (V c main_v0) (V c main_v4) (ix2 r j) = (Cert.ReferenceIdeal.ReadP.val_main_v16 (F := Ideal) x adj W1 b1 att) (((cfg0.win 6).blk t).view.emb (ix2 r j))
  rw [hblk, hv0, hv4]
  unfold scr0
  rw [hx, hW1]
  refine (pay3_eq (Fin.cast N_0 t) x adj W1 b1 att We W2 r j).trans ?_
  congr 1
  obtain ⟨e0, e1⟩ := idx0_6 t
  funext a; apply Fin.ext
  match a with
  | ⟨0, _⟩ => show 400 * t.val + r.val = win0_6.index t (0 : Fin 2) * 400 + 1 * r.val; omega
  | ⟨1, _⟩ => show j.val = win0_6.index t (1 : Fin 2) * 16 + 1 * j.val; omega

/-- The array after the region. -/
theorem final0_6 (c : Dev nD) (hx : V c main_arg0 = x) (hadj : V c main_arg1 = adj) (hW1 : V c main_arg2 = W1) (hv0 : V c main_v0 = shapeCast S1x16 b1 shapeCasts_S16_S1x16) (hv4 : V c main_v4 = wcatOf att We W2) (hv2 : V c main_v2 = shapeCast S1x16 be shapeCasts_S16_S1x16) :
    (dat0 V c).arrAt 6 cfg0.N = Cert.ReferenceIdeal.ReadP.val_main_v16 (F := Ideal) x adj W1 b1 att :=
  (dat0 V c).arrAt_eq_of_cover 6 _ (fun t _ => flushed0_6_eq V x adj W1 b1 att We W2 be c hx hadj hW1 hv0 hv4 hv2 t) cover0_6

theorem idx0_7 : ∀ t : Fin cfg0.N, win0_7.index t (0 : Fin 2) = t.val ∧ win0_7.index t (1 : Fin 2) = 0 :=
  (by decide +kernel : ∀ t : Fin grid0.N, _)

/-- An index of the array is in point `t`'s block iff each coordinate is in the block's range on its axis. -/
theorem mem_blk0_7 (t : Fin cfg0.N) (i : S10000x16.Idx) :
    i ∈ ((cfg0.win 7).blk t).view.set ↔ ∀ a : Fin 2, win0_7.index t a * S400x16.size a ≤ (i a).val ∧ (i a).val < win0_7.index t a * S400x16.size a + S400x16.size a := by
  show i ∈ ((View.whole main_v5_1).slice (win0_7.rect t)).set ↔ _
  rw [View.set_slice_whole, Rect.mem_set_unit]
  exact Iff.rfl

/-- The 25 blocks of 400 rows cover the array: row `i` is in block `i / 400`. -/
theorem cover0_7 (i : S10000x16.Idx) :
    ∃ t : Fin cfg0.N, (cfg0.win 7).flush t = true ∧ i ∈ ((cfg0.win 7).blk t).view.set := by
  have hi0 : (i 0).val < 10000 := idx2_lt0 i
  have hi1 : (i 1).val < 16 := idx2_lt1 i
  refine ⟨⟨(i 0).val / 400, lt_N0 (by omega)⟩, flush0_7 _, ?_⟩
  rw [mem_blk0_7]
  obtain ⟨e0, e1⟩ := idx0_7 ⟨(i 0).val / 400, lt_N0 (by omega)⟩
  intro a
  match a with
  | ⟨0, _⟩ => show win0_7.index _ (0 : Fin 2) * 400 ≤ (i 0).val ∧ (i 0).val < win0_7.index _ (0 : Fin 2) * 400 + 400; simp only at e0; omega
  | ⟨1, _⟩ => show win0_7.index _ (1 : Fin 2) * 16 ≤ (i 1).val ∧ (i 1).val < win0_7.index _ (1 : Fin 2) * 16 + 16; omega

/-- What point `t` writes back is block `t` of the reference's matrix. -/
theorem flushed0_7_eq (c : Dev nD) (hx : V c main_arg0 = x) (hadj : V c main_arg1 = adj) (hW1 : V c main_arg2 = W1) (hv0 : V c main_v0 = shapeCast S1x16 b1 shapeCasts_S16_S1x16) (hv4 : V c main_v4 = wcatOf att We W2) (hv2 : V c main_v2 = shapeCast S1x16 be shapeCasts_S16_S1x16) (t : Fin cfg0.N) :
    (dat0 V c).flushed 7 t = ((cfg0.win 7).blk t).view.read (Elt Ideal) (Cert.ReferenceIdeal.ReadP.val_main_v15 (F := Ideal) x adj W1 b1 We be) := by
  show (cfg0.win 7).cut (grid0.coords t) ((dat0 V c).after 7 t) = _
  rw [after0_7, outs0_7_eq]
  funext y
  obtain ⟨r, j, rfl⟩ : ∃ (r : Fin 400) (j : Fin 16), y = ix2 r j := ⟨y 0, y 1, eq_ix2 y⟩
  have hblk : (iblk0 V c 5 t : S400x10000.Idx → Ideal .f32) = rowsOf (Fin.cast N_0 t) adj := by
    funext z; rw [iblk0_5_apply, hadj]; rfl
  show k0_pay4 (F := Ideal) (iblk0 V c 5 t) (scr0 V c) (V c main_v0) (V c main_v4) (V c main_v2) (ix2 r j) = (Cert.ReferenceIdeal.ReadP.val_main_v15 (F := Ideal) x adj W1 b1 We be) (((cfg0.win 7).blk t).view.emb (ix2 r j))
  rw [hblk, hv0, hv4, hv2]
  unfold scr0
  rw [hx, hW1]
  refine (pay4_eq (Fin.cast N_0 t) x adj W1 b1 att We W2 be r j).trans ?_
  congr 1
  obtain ⟨e0, e1⟩ := idx0_7 t
  funext a; apply Fin.ext
  match a with
  | ⟨0, _⟩ => show 400 * t.val + r.val = win0_7.index t (0 : Fin 2) * 400 + 1 * r.val; omega
  | ⟨1, _⟩ => show j.val = win0_7.index t (1 : Fin 2) * 16 + 1 * j.val; omega

/-- The array after the region. -/
theorem final0_7 (c : Dev nD) (hx : V c main_arg0 = x) (hadj : V c main_arg1 = adj) (hW1 : V c main_arg2 = W1) (hv0 : V c main_v0 = shapeCast S1x16 b1 shapeCasts_S16_S1x16) (hv4 : V c main_v4 = wcatOf att We W2) (hv2 : V c main_v2 = shapeCast S1x16 be shapeCasts_S16_S1x16) :
    (dat0 V c).arrAt 7 cfg0.N = Cert.ReferenceIdeal.ReadP.val_main_v15 (F := Ideal) x adj W1 b1 We be :=
  (dat0 V c).arrAt_eq_of_cover 7 _ (fun t _ => flushed0_7_eq V x adj W1 b1 att We W2 be c hx hadj hW1 hv0 hv4 hv2 t) cover0_7

theorem idx0_8 : ∀ t : Fin cfg0.N, win0_8.index t (0 : Fin 2) = t.val ∧ win0_8.index t (1 : Fin 2) = 0 :=
  (by decide +kernel : ∀ t : Fin grid0.N, _)

/-- An index of the array is in point `t`'s block iff each coordinate is in the block's range on its axis. -/
theorem mem_blk0_8 (t : Fin cfg0.N) (i : S10000x16.Idx) :
    i ∈ ((cfg0.win 8).blk t).view.set ↔ ∀ a : Fin 2, win0_8.index t a * S400x16.size a ≤ (i a).val ∧ (i a).val < win0_8.index t a * S400x16.size a + S400x16.size a := by
  show i ∈ ((View.whole main_v5_2).slice (win0_8.rect t)).set ↔ _
  rw [View.set_slice_whole, Rect.mem_set_unit]
  exact Iff.rfl

/-- The 25 blocks of 400 rows cover the array: row `i` is in block `i / 400`. -/
theorem cover0_8 (i : S10000x16.Idx) :
    ∃ t : Fin cfg0.N, (cfg0.win 8).flush t = true ∧ i ∈ ((cfg0.win 8).blk t).view.set := by
  have hi0 : (i 0).val < 10000 := idx2_lt0 i
  have hi1 : (i 1).val < 16 := idx2_lt1 i
  refine ⟨⟨(i 0).val / 400, lt_N0 (by omega)⟩, flush0_8 _, ?_⟩
  rw [mem_blk0_8]
  obtain ⟨e0, e1⟩ := idx0_8 ⟨(i 0).val / 400, lt_N0 (by omega)⟩
  intro a
  match a with
  | ⟨0, _⟩ => show win0_8.index _ (0 : Fin 2) * 400 ≤ (i 0).val ∧ (i 0).val < win0_8.index _ (0 : Fin 2) * 400 + 400; simp only at e0; omega
  | ⟨1, _⟩ => show win0_8.index _ (1 : Fin 2) * 16 ≤ (i 1).val ∧ (i 1).val < win0_8.index _ (1 : Fin 2) * 16 + 16; omega

/-- What point `t` writes back is block `t` of the reference's matrix. -/
theorem flushed0_8_eq (c : Dev nD) (hx : V c main_arg0 = x) (hadj : V c main_arg1 = adj) (hW1 : V c main_arg2 = W1) (hv0 : V c main_v0 = shapeCast S1x16 b1 shapeCasts_S16_S1x16) (hv4 : V c main_v4 = wcatOf att We W2) (hv2 : V c main_v2 = shapeCast S1x16 be shapeCasts_S16_S1x16) (t : Fin cfg0.N) :
    (dat0 V c).flushed 8 t = ((cfg0.win 8).blk t).view.read (Elt Ideal) (Cert.ReferenceIdeal.ReadP.val_main_v6 (F := Ideal) x adj W1 b1 W2) := by
  show (cfg0.win 8).cut (grid0.coords t) ((dat0 V c).after 8 t) = _
  rw [after0_8, outs0_8_eq]
  funext y
  obtain ⟨r, j, rfl⟩ : ∃ (r : Fin 400) (j : Fin 16), y = ix2 r j := ⟨y 0, y 1, eq_ix2 y⟩
  have hblk : (iblk0 V c 5 t : S400x10000.Idx → Ideal .f32) = rowsOf (Fin.cast N_0 t) adj := by
    funext z; rw [iblk0_5_apply, hadj]; rfl
  show k0_pay5 (F := Ideal) (iblk0 V c 5 t) (scr0 V c) (V c main_v0) (V c main_v4) (ix2 r j) = (Cert.ReferenceIdeal.ReadP.val_main_v6 (F := Ideal) x adj W1 b1 W2) (((cfg0.win 8).blk t).view.emb (ix2 r j))
  rw [hblk, hv0, hv4]
  unfold scr0
  rw [hx, hW1]
  refine (pay5_eq (Fin.cast N_0 t) x adj W1 b1 att We W2 r j).trans ?_
  congr 1
  obtain ⟨e0, e1⟩ := idx0_8 t
  funext a; apply Fin.ext
  match a with
  | ⟨0, _⟩ => show 400 * t.val + r.val = win0_8.index t (0 : Fin 2) * 400 + 1 * r.val; omega
  | ⟨1, _⟩ => show j.val = win0_8.index t (1 : Fin 2) * 16 + 1 * j.val; omega

/-- The array after the region. -/
theorem final0_8 (c : Dev nD) (hx : V c main_arg0 = x) (hadj : V c main_arg1 = adj) (hW1 : V c main_arg2 = W1) (hv0 : V c main_v0 = shapeCast S1x16 b1 shapeCasts_S16_S1x16) (hv4 : V c main_v4 = wcatOf att We W2) (hv2 : V c main_v2 = shapeCast S1x16 be shapeCasts_S16_S1x16) :
    (dat0 V c).arrAt 8 cfg0.N = Cert.ReferenceIdeal.ReadP.val_main_v6 (F := Ideal) x adj W1 b1 W2 :=
  (dat0 V c).arrAt_eq_of_cover 8 _ (fun t _ => flushed0_8_eq V x adj W1 b1 att We W2 be c hx hadj hW1 hv0 hv4 hv2 t) cover0_8

end

end Cert.KernelIdeal.Run

end
-- ==== Proof.IdealRun.Vals1.lean ====
import proofs.«103986_g86887188398718_cont_9to1c4b_243_22_alg».proof.Proof.IdealRun.R1Body
import proofs.«103986_g86887188398718_cont_9to1c4b_243_22_alg».proof.Proof.IdealRun.Vals0
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's buffers as functions of the arrays it is entered with -/

section Region1
variable (V : (c : Dev nD) → (b : Ref sig .tc) → Buf (Elt F) ((c : Thread nD τ).loc b))

theorem out1_A_4_eq (c : Dev nD) (t : Fin cfg1.N) (h : t.val = 0) :
    out1_A_4 V c t h = k1_pay2 (iblk1 V c 3 t) (iblk1 V c 1 t) (iblk1 V c 2 t) := by
  unfold out1_A_4
  rw [View.read_writes_eq_canon _ _ _ (cover1_A_4 V c t h)]
  unfold stepA1 kernelRun1_A
  dsimp only
  sl_unfold_words
  rw [View.canon_unit_zero (S := S400x16) hz2]
  simp only [View.readAt_eq_ld, Memref.IsWhole.read_unread, View.ld_unit_zero (S := S1250x128) hz2, View.ld_unit_zero (S := S10000x16) hz2, View.ld_unit_zero (S := S400x10000) hz2, View.ld_unit_zero (S := S1x16) hz2, View.ld_unit_zero (S := S400x16) hz2]
theorem out1_A_5_eq' (c : Dev nD) (t : Fin cfg1.N) (h : t.val = 0) :
    out1_A_5 V c t h = k1_pay1 (iblk1 V c 0 t) := by
  unfold out1_A_5
  rw [View.read_writes_eq_canon _ _ _ (cover1_A_5 V c t h)]
  unfold stepA1 kernelRun1_A
  dsimp only
  sl_unfold_words
  rw [View.canon_unit_zero (S := S1250x128) hz2]
  simp only [View.readAt_eq_ld, Memref.IsWhole.read_unread, View.ld_unit_zero (S := S1250x128) hz2, View.ld_unit_zero (S := S10000x16) hz2, View.ld_unit_zero (S := S400x10000) hz2, View.ld_unit_zero (S := S1x16) hz2, View.ld_unit_zero (S := S400x16) hz2]
theorem out1_B_4_eq (c : Dev nD) (t : Fin cfg1.N) (h : t.val ≠ 0) :
    out1_B_4 V c t h = k1_pay2 (iblk1 V c 3 t) (iblk1 V c 1 t) (iblk1 V c 2 t) := by
  unfold out1_B_4
  rw [View.read_writes_eq_canon _ _ _ (cover1_B_4 V c t h)]
  unfold stepB1 kernelRun1_B
  dsimp only
  sl_unfold_words
  rw [View.canon_unit_zero (S := S400x16) hz2]
  simp only [View.readAt_eq_ld, Memref.IsWhole.read_unread, View.ld_unit_zero (S := S1250x128) hz2, View.ld_unit_zero (S := S10000x16) hz2, View.ld_unit_zero (S := S400x10000) hz2, View.ld_unit_zero (S := S1x16) hz2, View.ld_unit_zero (S := S400x16) hz2]

theorem idx1_0 : ∀ t : Fin cfg1.N, win1_0.index t (0 : Fin 2) = 0 ∧ win1_0.index t (1 : Fin 2) = 0 :=
  (by decide +kernel : ∀ t : Fin grid1.N, _)
/-- Window 0's one block is its whole array. -/
theorem iblk1_0 (c : Dev nD) (t : Fin cfg1.N) : (iblk1 V c 0 t : S1250x128.Idx → Elt F .f32) = V c main_v6 := by
  funext y
  show V c main_v6 (((cfg1.win 0).blk t).view.emb y) = V c main_v6 y
  congr 1
  obtain ⟨e0, e1⟩ := idx1_0 t
  funext a; apply Fin.ext
  match a with
  | ⟨0, _⟩ => show win1_0.index t (0 : Fin 2) * 1250 + 1 * (y 0).val = (y 0).val; omega
  | ⟨1, _⟩ => show win1_0.index t (1 : Fin 2) * 128 + 1 * (y 1).val = (y 1).val; omega

theorem idx1_1 : ∀ t : Fin cfg1.N, win1_1.index t (0 : Fin 2) = 0 ∧ win1_1.index t (1 : Fin 2) = 0 :=
  (by decide +kernel : ∀ t : Fin grid1.N, _)
/-- Window 1's one block is its whole array. -/
theorem iblk1_1 (c : Dev nD) (t : Fin cfg1.N) : (iblk1 V c 1 t : S10000x16.Idx → Elt F .f32) = V c main_v5_2 := by
  funext y
  show V c main_v5_2 (((cfg1.win 1).blk t).view.emb y) = V c main_v5_2 y
  congr 1
  obtain ⟨e0, e1⟩ := idx1_1 t
  funext a; apply Fin.ext
  match a with
  | ⟨0, _⟩ => show win1_1.index t (0 : Fin 2) * 10000 + 1 * (y 0).val = (y 0).val; omega
  | ⟨1, _⟩ => show win1_1.index t (1 : Fin 2) * 16 + 1 * (y 1).val = (y 1).val; omega

theorem idx1_2 : ∀ t : Fin cfg1.N, win1_2.index t (0 : Fin 2) = 0 ∧ win1_2.index t (1 : Fin 2) = 0 :=
  (by decide +kernel : ∀ t : Fin grid1.N, _)
/-- Window 2's one block is its whole array. -/
theorem iblk1_2 (c : Dev nD) (t : Fin cfg1.N) : (iblk1 V c 2 t : S1x16.Idx → Elt F .f32) = V c main_v1 := by
  funext y
  show V c main_v1 (((cfg1.win 2).blk t).view.emb y) = V c main_v1 y
  congr 1
  obtain ⟨e0, e1⟩ := idx1_2 t
  funext a; apply Fin.ext
  match a with
  | ⟨0, _⟩ => show win1_2.index t (0 : Fin 2) * 1 + 1 * (y 0).val = (y 0).val; omega
  | ⟨1, _⟩ => show win1_2.index t (1 : Fin 2) * 16 + 1 * (y 1).val = (y 1).val; omega

/-- After point `t` the log-softmax buffer holds the payload of the point's adjacency rows. -/
theorem out1_4_eq (c : Dev nD) (t : Fin cfg1.N) :
    out1_4 V c t = k1_pay2 (iblk1 V c 3 t) (V c main_v5_2) (V c main_v1) := by
  unfold out1_4
  by_cases hz : t.val = 0
  · rw [dif_pos hz, out1_A_4_eq, iblk1_1, iblk1_2]
  · rw [dif_neg hz, out1_B_4_eq, iblk1_1, iblk1_2]
/-- The softmax buffer holds the softmax payload of all the logits. -/
theorem out1_5_eq (c : Dev nD) : out1_5 V c = k1_pay1 (V c main_v6) := by
  unfold out1_5
  rw [out1_A_5_eq', iblk1_0]

theorem idx1_3 : ∀ t : Fin cfg1.N, win1_3.index t (0 : Fin 2) = t.val ∧ win1_3.index t (1 : Fin 2) = 0 :=
  (by decide +kernel : ∀ t : Fin grid1.N, _)
theorem iblk1_3_apply (c : Dev nD) (t : Fin cfg1.N) (y : S400x10000.Idx) :
    (iblk1 V c 3 t : S400x10000.Idx → Elt F .f32) y
      = V c main_arg1 (ValueIdx.ix2 (⟨400 * t.val + (y 0).val, by have := ValueIdx.idx2_lt0 y; have := N1_lt t; omega⟩ : Fin 10000) (y 1)) := by
  show V c main_arg1 (((cfg1.win 3).blk t).view.emb y) = _
  congr 1
  obtain ⟨e0, e1⟩ := idx1_3 t
  funext a; apply Fin.ext
  match a with
  | ⟨0, _⟩ => show win1_3.index t (0 : Fin 2) * 400 + 1 * (y 0).val = 400 * t.val + (y 0).val; omega
  | ⟨1, _⟩ => show win1_3.index t (1 : Fin 2) * 10000 + 1 * (y 1).val = (y 1).val; omega

end Region1

end Cert.KernelIdeal.Run

end
-- ==== Proof.Math.LogSoftmax.lean ====
import proofs.«103986_g86887188398718_cont_9to1c4b_243_22_alg».proof.Proof.Math.Rows

noncomputable section

namespace Cert.Bridge

open Idealize.ShloMosaic Idealize.ShloMosaic.ValueIdx
open Cert.KernelIdeal Cert.KernelIdeal.Gen

/-! # The second kernel's log-softmax block against the reference's log-softmax

At a block of 400 rows the second kernel computes `z = adj·m + b2` for those rows and, row by row,
`(z − max z) − log Σ exp(z − max z)`; the reference does the same on all rows at once. -/

/-- The log-softmax of one row of 16 extended reals, its maximum folded from `c`:
    `(z j − M) − log Σₖ exp (z k − M)` with `M = max (c, z 0, …, z 15)`. -/
def ls_row (c : EReal) (z : Fin 16 → EReal) (j : Fin 16) : EReal :=
  (z j - (Finset.univ : Finset (Fin 16)).fold max c z)
    - Ideal.log (∑ k : Fin 16, Ideal.exp (z k - (Finset.univ : Finset (Fin 16)).fold max c z))

/-! ## The kernel's side -/

/-- The kernel's affine part: the block's rows of the adjacency times `m`, plus the bias row. -/
def ls_zK (a : FVec Ideal S400x10000 .f32) (m : FVec Ideal S10000x16 .f32) (b : FVec Ideal S1x16 .f32) : FVec Ideal S400x16 .f32 :=
  addf (matmul dot_S400x10000_S10000x16_S400x16_1_0_0_1_n_n none a (shapeCast S10000x16 m shapeCasts_S10000x16_S10000x16) (constant (F := Ideal) S400x16 .f32 0x00000000#32))
    (broadcastTo S400x16 (shapeCast S1x16 b shapeCasts_S1x16_S1x16) broadcasts_S1x16_S400x16)

/-- The kernel's row maximum, kept as a column. -/
def ls_maxK (z : FVec Ideal S400x16 .f32) : FVec Ideal S400x1 .f32 :=
  shapeCast S400x1 (multiReduction (F := Ideal) .maximumf [1] S400 z 0xFF800000#32 reduces_S400x16_S400 (.inl rfl) rfl) shapeCasts_S400_S400x1

/-- The kernel's shifted block `z − max z`. -/
def ls_shiftK (z : FVec Ideal S400x16 .f32) : FVec Ideal S400x16 .f32 :=
  subf z (broadcastTo S400x16 (ls_maxK z) broadcasts_S400x1_S400x16)

/-- The kernel's row sum of a block, kept as a column. -/
def ls_sumK (e : FVec Ideal S400x16 .f32) : FVec Ideal S400x1 .f32 :=
  shapeCast S400x1 (multiReduction (F := Ideal) .add [1] S400 e 0x00000000#32 reduces_S400x16_S400 (.inl rfl) rfl) shapeCasts_S400_S400x1

/-- The kernel's log-softmax of a block. -/
def ls_lsmK (z : FVec Ideal S400x16 .f32) : FVec Ideal S400x16 .f32 :=
  subf (ls_shiftK z) (broadcastTo S400x16 (log (ls_sumK (exp (ls_shiftK z)))) broadcasts_S400x1_S400x16)

/-- The payload is the log-softmax of the affine part. -/
theorem ls_pay2_eq_lsmK (a : FVec Ideal S400x10000 .f32) (m : FVec Ideal S10000x16 .f32) (b : FVec Ideal S1x16 .f32) :
    k1_pay2 (F := Ideal) a m b = ls_lsmK (ls_zK a m b) := rfl

/-! ### The block's matrix product at an index -/

theorem ls_lhs_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem ls_lhs_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem ls_rhs_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem ls_rhs_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- The block's product into the zero splat, at row `r` and column `l`: the sum over the 10000 columns of the block. -/
theorem ls_matmul_apply (a : FVec Ideal S400x10000 .f32) (m : FVec Ideal S10000x16 .f32) (r : Fin 400) (l : Fin 16) :
    matmul dot_S400x10000_S10000x16_S400x16_1_0_0_1_n_n none a m (constant (F := Ideal) S400x16 .f32 0x00000000#32) (ix2 r l)
      = ∑ k : Fin 10000, a (ix2 r k) * m (ix2 k l) := by
  simp only [matmul]
  rw [Ideal.matmul_constant_zero_apply, ← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 r l) ((contrEquiv1 dot_S400x10000_S10000x16_S400x16_1_0_0_1_n_n 10000 rfl rfl).symm k) = ix2 r k := funext fun a => Fin.ext (by
    match a with
    | ⟨0, _⟩ => exact ls_lhs_0 _ _
    | ⟨1, _⟩ => exact (ls_lhs_1 _ _).trans hk)
  have er : dot_S400x10000_S10000x16_S400x16_1_0_0_1_n_n.rhsIdx (ix2 r l) ((contrEquiv1 dot_S400x10000_S10000x16_S400x16_1_0_0_1_n_n 10000 rfl rfl).symm k) = ix2 k l := funext fun a => Fin.ext (by
    match a with
    | ⟨0, _⟩ => exact (ls_rhs_0 _ _).trans hk
    | ⟨1, _⟩ => exact ls_rhs_1 _ _)
  rw [el, er]

/-- The bias row laid along the block's rows reads the row's entry. -/
theorem ls_biasK_apply (b : FVec Ideal S1x16 .f32) (r : Fin 400) (l : Fin 16) :
    broadcastTo S400x16 (shapeCast S1x16 b shapeCasts_S1x16_S1x16) broadcasts_S1x16_S400x16 (ix2 r l) = b (ix2 (0 : Fin 1) l) := by
  rw [shapeCast_self]
  exact broadcastTo_1b_ab_apply b broadcasts_S1x16_S400x16 r l

/-- The affine part at row `r` and column `l`. -/
theorem ls_zK_apply (a : FVec Ideal S400x10000 .f32) (m : FVec Ideal S10000x16 .f32) (b : FVec Ideal S1x16 .f32) (r : Fin 400) (l : Fin 16) :
    ls_zK a m b (ix2 r l) = (∑ k : Fin 10000, a (ix2 r k) * m (ix2 k l)) + b (ix2 (0 : Fin 1) l) := by
  unfold ls_zK
  rw [addf_apply, shapeCast_self, ls_matmul_apply, ls_biasK_apply]

/-! ### The block's row reductions, and a column laid along the rows -/

/-- Row `r` with column `k` put back on the reduced axis is `(r, k)`. -/
theorem ls_liftK (r : Fin 400) (k : Fin 16) : reduces_S400x16_S400.lift (ix1 r) k = ix2 r k :=
  funext fun a => Fin.ext (by match a with | ⟨0, _⟩ => rfl | ⟨1, _⟩ => rfl)

/-- The block's row maximum at row `r`: the fold of `max` from the accumulator's value over the row. -/
theorem ls_rowmaxK_apply (z : FVec Ideal S400x16 .f32) (r : Fin 400) :
    multiReduction (F := Ideal) .maximumf [1] S400 z 0xFF800000#32 reduces_S400x16_S400 (.inl rfl) rfl (ix1 r)
      = (Finset.univ : Finset (Fin 16)).fold max (Ideal.ofBits .f32 0xFF800000#32) (fun l => z (ix2 r l)) := by
  refine (Ideal.multiReduction_maximumf_single z 0xFF800000#32 reduces_S400x16_S400 (.inl rfl) rfl (ix1 r)).trans ?_
  exact congrArg (fun f => Finset.fold max (Ideal.ofBits .f32 0xFF800000#32) f Finset.univ) (funext fun k => congrArg z (ls_liftK r k))

/-- The block's row sum at row `r`: the sum over the row. -/
theorem ls_rowsumK_apply (e : FVec Ideal S400x16 .f32) (r : Fin 400) :
    multiReduction (F := Ideal) .add [1] S400 e 0x00000000#32 reduces_S400x16_S400 (.inl rfl) rfl (ix1 r)
      = ∑ l : Fin 16, e (ix2 r l) := by
  refine (Ideal.multiReduction_add_single e 0x00000000#32 reduces_S400x16_S400 (.inl rfl) rfl (ix1 r)).trans ?_
  exact Finset.sum_congr rfl fun k _ => congrArg e (ls_liftK r k)

/-- A vector of 400 entries stood up as a column reads its entry. -/
theorem ls_colK_apply {α : Type} (v : S400.Idx → α) (r : Fin 400) :
    shapeCast S400x1 v shapeCasts_S400_S400x1 (ix2 r (0 : Fin 1)) = v (ix1 r) := by
  refine shapeCast_apply v shapeCasts_S400_S400x1 (ix2 r (0 : Fin 1)) (ix1 r) ?_
  rw [Shape.rowMajor_val_one, Shape.rowMajor_val_two]
  show r.val = r.val * 1 + 0
  omega

/-- A column laid along the 16 columns of the block reads the column's entry of the row. -/
theorem ls_bcastColK_apply {α : Type} (c : S400x1.Idx → α) (r : Fin 400) (l : Fin 16) :
    broadcastTo S400x16 c broadcasts_S400x1_S400x16 (ix2 r l) = c (ix2 r (0 : Fin 1)) := by
  refine broadcastTo_apply c broadcasts_S400x1_S400x16 (ix2 r l) (ix2 r (0 : Fin 1)) fun a => ?_
  match a with
  | ⟨0, _⟩ => show r.val = if (400 : Nat) = 1 then 0 else r.val; rw [if_neg (by decide)]
  | ⟨1, _⟩ => show 0 = if (1 : Nat) = 1 then 0 else l.val; rw [if_pos rfl]

theorem ls_maxK_apply (z : FVec Ideal S400x16 .f32) (r : Fin 400) :
    ls_maxK z (ix2 r (0 : Fin 1)) = (Finset.univ : Finset (Fin 16)).fold max (Ideal.ofBits .f32 0xFF800000#32) (fun l => z (ix2 r l)) := by
  unfold ls_maxK
  rw [ls_colK_apply, ls_rowmaxK_apply]

theorem ls_shiftK_apply (z : FVec Ideal S400x16 .f32) (r : Fin 400) (l : Fin 16) :
    ls_shiftK z (ix2 r l) = z (ix2 r l) - (Finset.univ : Finset (Fin 16)).fold max (Ideal.ofBits .f32 0xFF800000#32) (fun l => z (ix2 r l)) := by
  unfold ls_shiftK
  rw [subf_apply, ls_bcastColK_apply, ls_maxK_apply]

theorem ls_sumK_apply (e : FVec Ideal S400x16 .f32) (r : Fin 400) :
    ls_sumK e (ix2 r (0 : Fin 1)) = ∑ l : Fin 16, e (ix2 r l) := by
  unfold ls_sumK
  rw [ls_colK_apply, ls_rowsumK_apply]

/-- The kernel's log-softmax of a block, at row `r` and column `j`: the log-softmax of the row. -/
theorem ls_lsmK_apply (z : FVec Ideal S400x16 .f32) (r : Fin 400) (j : Fin 16) :
    ls_lsmK z (ix2 r j) = ls_row (Ideal.ofBits .f32 0xFF800000#32) (fun l => z (ix2 r l)) j := by
  unfold ls_lsmK ls_row
  rw [subf_apply, ls_bcastColK_apply]
  show ls_shiftK z (ix2 r j) - Ideal.log (ls_sumK (exp (ls_shiftK z)) (ix2 r (0 : Fin 1))) = _
  rw [ls_sumK_apply, ls_shiftK_apply]
  refine congrArg (fun s => _ - Ideal.log s) (Finset.sum_congr rfl fun l _ => ?_)
  show Ideal.exp (ls_shiftK z (ix2 r l)) = _
  rw [ls_shiftK_apply]

/-! ## The reference's side -/

section Reference
open Cert.ReferenceIdeal.ReadP

/-- Row `R` with column `k` put back on the reduced axis is `(R, k)`. -/
theorem ls_liftH (h : S10000x16.Reduces [1] Cert.ReferenceIdeal.S10000) (R : Fin 10000) (k : Fin 16) : h.lift (ix1 R) k = ix2 R k :=
  funext fun a => Fin.ext (by match a with | ⟨0, _⟩ => rfl | ⟨1, _⟩ => rfl)

/-- The reference's row maximum at row `R`: the fold of `max` from the initial value over the row. -/
theorem ls_rowmaxH_apply (z : FVec Ideal S10000x16 .f32) (init : Cert.ReferenceIdeal.S_.Idx → Ideal .f32)
    (h' : S10000x16.ReducesTo [1] Cert.ReferenceIdeal.S10000) (hu : 0 < Cert.ReferenceIdeal.S_.numel) (R : Fin 10000) :
    Host.reduce FloatOps.maximumf z init h' hu (ix1 R)
      = (Finset.univ : Finset (Fin 16)).fold max (init (Shape.Idx.first hu)) (fun l => z (ix2 R l)) := by
  have h : S10000x16.Reduces [1] Cert.ReferenceIdeal.S10000 := by decide
  refine (Host.reduce_eq_fold_single FloatOps.maximumf z init h' h hu (ix1 R)).trans ?_
  exact congrArg (fun f => Finset.fold max (init (Shape.Idx.first hu)) f Finset.univ) (funext fun k => congrArg z (ls_liftH h R k))

/-- The reference's log-softmax at row `R` and column `j`: the log-softmax of row `R` of its affine part. -/
theorem ls_ref_apply (x : FVec Ideal S10000x128 .f32) (adj : FVec Ideal S10000x10000 .f32) (W1 : FVec Ideal S128x16 .f32) (b1 : FVec Ideal S16 .f32) (W2 : FVec Ideal S16x16 .f32) (b2 : FVec Ideal S16 .f32) (R : Fin 10000) (j : Fin 16) :
    val_main_v29 (F := Ideal) x adj W1 b1 W2 b2 (ix2 R j)
      = ls_row (Ideal.ofBits .f32 0xFF800000#32) (fun l => val_main_v10 (F := Ideal) x adj W1 b1 W2 b2 (ix2 R l)) j := by
  have e7 : ∀ k : Fin 16, idx_main_call1_v7 (idx_main_call1_v8 (idx_main_call1_v10 (ix2 R j))) k = ix2 R k := fun k =>
    funext fun a => Fin.ext (by match a with | ⟨0, _⟩ => rfl | ⟨1, _⟩ => rfl)
  have e3 : ∀ l : Fin 16, idx_main_call1_v3 (idx_main_call1_v4 (ix2 R l)) = ix1 R := fun l =>
    funext fun a => Fin.ext (by match a with | ⟨0, _⟩ => rfl)
  rw [val_main_v29_apply, val_main_call1_v10_apply, val_main_call1_v9_apply, val_main_call1_v8_apply, val_main_call1_v7_apply]
  simp only [e7, val_main_call1_v6_apply, val_main_call1_v5_apply, val_main_call1_v4_apply, val_main_call1_v3_apply, e3, val_main_call1_v2_apply, val_main_call1_v1_apply, val_main_call1_cst_0_apply, val_main_call1_cst_1_apply]
  unfold val_main_call1_v0
  generalize val_main_v10 (F := Ideal) x adj W1 b1 W2 b2 = z
  rw [ls_rowmaxH_apply, val_main_call1_cst_apply]
  simp only [Ideal.ofBits_def, Ideal.maximumf_def, Ideal.subf_def, Ideal.hostUnary_log_def, Ideal.hostUnary_exp_def, Ideal.ofBits_zero_f32, zero_add]
  rw [max_eq_right ((Finset.le_fold_max (Ideal.ofBits .f32 0xFF800000#32)).mpr (Or.inl le_rfl))]
  rfl

end Reference

/-! ## The two sides meet -/

theorem pay2_eq (t : Fin 25) (x : FVec Ideal S10000x128 .f32) (adj : FVec Ideal S10000x10000 .f32) (W1 : FVec Ideal S128x16 .f32) (b1 : FVec Ideal S16 .f32) (W2 : FVec Ideal S16x16 .f32) (b2 : FVec Ideal S16 .f32) (r : Fin 400) (j : Fin 16) :
    k1_pay2 (F := Ideal) (rowsOf t adj) (Cert.ReferenceIdeal.ReadP.val_main_v6 (F := Ideal) x adj W1 b1 W2) (shapeCast S1x16 b2 shapeCasts_S16_S1x16) (ix2 r j)
      = Cert.ReferenceIdeal.ReadP.val_main_v29 (F := Ideal) x adj W1 b1 W2 b2 (ix2 (rowIdx t r) j) := by
  rw [ls_pay2_eq_lsmK, ls_lsmK_apply, ls_ref_apply]
  refine congrArg (fun z => ls_row (Ideal.ofBits .f32 0xFF800000#32) z j) (funext fun l => ?_)
  have el : ∀ k : Fin 10000, Cert.ReferenceIdeal.ReadP.lidx_main_v7 (ix2 (rowIdx t r) l) k = ix2 (rowIdx t r) k := fun k =>
    funext fun a => Fin.ext (by match a with | ⟨0, _⟩ => rfl | ⟨1, _⟩ => rfl)
  have er : ∀ k : Fin 10000, Cert.ReferenceIdeal.ReadP.ridx_main_v7 (ix2 (rowIdx t r) l) k = ix2 k l := fun k =>
    funext fun a => Fin.ext (by match a with | ⟨0, _⟩ => rfl | ⟨1, _⟩ => rfl)
  have eb : Cert.ReferenceIdeal.ReadP.idx_main_v8 (Cert.ReferenceIdeal.ReadP.idx_main_v9 (ix2 (rowIdx t r) l)) = ix1 l :=
    funext fun a => Fin.ext (by match a with | ⟨0, _⟩ => rfl)
  rw [ls_zK_apply, shapeCast_a_1a_apply, Cert.ReferenceIdeal.ReadP.val_main_v10_apply, Cert.ReferenceIdeal.ReadP.val_main_v7_apply,
    Cert.ReferenceIdeal.ReadP.val_main_v9_apply, Cert.ReferenceIdeal.ReadP.val_main_v8_apply, eb]
  simp only [el, er, rowsOf_apply]
  rfl

end Cert.Bridge

end
-- ==== Proof.IdealRun.Final1.lean ====
import proofs.«103986_g86887188398718_cont_9to1c4b_243_22_alg».proof.Proof.IdealRun.Vals1
import proofs.«103986_g86887188398718_cont_9to1c4b_243_22_alg».proof.Proof.Math.LogSoftmax

set_option maxRecDepth 16384

noncomputable section

namespace Cert.KernelIdeal.Run

open Cert.KernelIdeal Cert.KernelIdeal.Gen Cert.Bridge
open Idealize.ShloMosaic Idealize.ShloMosaic.TcCoe Idealize.ShloMosaic.ValueIdx
open Idealize.SL Idealize.SL.Sem
open Idealize.ShloMosaic.Pipeline (Dat Cfg Window)

/-! # The second kernel's two result arrays

The log-softmax array is tiled by 25 blocks of 400 rows, each the reference's log-softmax at those rows; the
softmax array is one block, written back once after the last point. -/

section
variable (V : (c : Dev nD) → (b : Ref sig .tc) → Buf (Elt Ideal) ((c : Thread nD τ).loc b))
variable (x : FVec Ideal S10000x128 .f32) (adj : FVec Ideal S10000x10000 .f32) (W1 : FVec Ideal S128x16 .f32) (b1 : FVec Ideal S16 .f32) (W2 : FVec Ideal S16x16 .f32) (b2 : FVec Ideal S16 .f32)

theorem idx1_4 : ∀ t : Fin cfg1.N, win1_4.index t (0 : Fin 2) = t.val ∧ win1_4.index t (1 : Fin 2) = 0 :=
  (by decide +kernel : ∀ t : Fin grid1.N, _)

theorem mem_blk1_4 (t : Fin cfg1.N) (i : S10000x16.Idx) :
    i ∈ ((cfg1.win 4).blk t).view.set ↔ ∀ a : Fin 2, win1_4.index t a * S400x16.size a ≤ (i a).val ∧ (i a).val < win1_4.index t a * S400x16.size a + S400x16.size a := by
  show i ∈ ((View.whole main_v7_0).slice (win1_4.rect t)).set ↔ _
  rw [View.set_slice_whole, Rect.mem_set_unit]
  exact Iff.rfl

theorem cover1_4 (i : S10000x16.Idx) :
    ∃ t : Fin cfg1.N, (cfg1.win 4).flush t = true ∧ i ∈ ((cfg1.win 4).blk t).view.set := by
  have hi0 : (i 0).val < 10000 := idx2_lt0 i
  have hi1 : (i 1).val < 16 := idx2_lt1 i
  refine ⟨⟨(i 0).val / 400, lt_N1 (by omega)⟩, flush1_4 _, ?_⟩
  rw [mem_blk1_4]
  obtain ⟨e0, e1⟩ := idx1_4 ⟨(i 0).val / 400, lt_N1 (by omega)⟩
  intro a
  match a with
  | ⟨0, _⟩ => show win1_4.index _ (0 : Fin 2) * 400 ≤ (i 0).val ∧ (i 0).val < win1_4.index _ (0 : Fin 2) * 400 + 400; simp only at e0; omega
  | ⟨1, _⟩ => show win1_4.index _ (1 : Fin 2) * 16 ≤ (i 1).val ∧ (i 1).val < win1_4.index _ (1 : Fin 2) * 16 + 16; omega

theorem flushed1_4_eq (c : Dev nD) (hadj : V c main_arg1 = adj) (hm : V c main_v5_2 = Cert.ReferenceIdeal.ReadP.val_main_v6 (F := Ideal) x adj W1 b1 W2) (hb2 : V c main_v1 = shapeCast S1x16 b2 shapeCasts_S16_S1x16) (t : Fin cfg1.N) :
    (dat1 V c).flushed 4 t = ((cfg1.win 4).blk t).view.read (Elt Ideal) (Cert.ReferenceIdeal.ReadP.val_main_v29 (F := Ideal) x adj W1 b1 W2 b2) := by
  show (cfg1.win 4).cut (grid1.coords t) ((dat1 V c).after 4 t) = _
  rw [after1_4, out1_4_eq]
  funext y
  obtain ⟨r, j, rfl⟩ : ∃ (r : Fin 400) (j : Fin 16), y = ix2 r j := ⟨y 0, y 1, eq_ix2 y⟩
  have hblk : (iblk1 V c 3 t : S400x10000.Idx → Ideal .f32) = rowsOf (Fin.cast N_1 t) adj := by
    funext z; rw [iblk1_3_apply, hadj]; rfl
  show k1_pay2 (F := Ideal) (iblk1 V c 3 t) (V c main_v5_2) (V c main_v1) (ix2 r j) = (Cert.ReferenceIdeal.ReadP.val_main_v29 (F := Ideal) x adj W1 b1 W2 b2) (((cfg1.win 4).blk t).view.emb (ix2 r j))
  rw [hblk, hm, hb2]
  refine (pay2_eq (Fin.cast N_1 t) x adj W1 b1 W2 b2 r j).trans ?_
  congr 1
  obtain ⟨e0, e1⟩ := idx1_4 t
  funext a; apply Fin.ext
  match a with
  | ⟨0, _⟩ => show 400 * t.val + r.val = win1_4.index t (0 : Fin 2) * 400 + 1 * r.val; omega
  | ⟨1, _⟩ => show j.val = win1_4.index t (1 : Fin 2) * 16 + 1 * j.val; omega

/-- The log-softmax array after the region is the reference's. -/
theorem final1_4 (c : Dev nD) (hadj : V c main_arg1 = adj) (hm : V c main_v5_2 = Cert.ReferenceIdeal.ReadP.val_main_v6 (F := Ideal) x adj W1 b1 W2) (hb2 : V c main_v1 = shapeCast S1x16 b2 shapeCasts_S16_S1x16) :
    (dat1 V c).arrAt 4 cfg1.N = Cert.ReferenceIdeal.ReadP.val_main_v29 (F := Ideal) x adj W1 b1 W2 b2 :=
  (dat1 V c).arrAt_eq_of_cover 4 _ (fun t _ => flushed1_4_eq V x adj W1 b1 W2 b2 c hadj hm hb2 t) cover1_4

theorem idx1_5 : ∀ t : Fin cfg1.N, win1_5.index t (0 : Fin 2) = 0 ∧ win1_5.index t (1 : Fin 2) = 0 :=
  (by decide +kernel : ∀ t : Fin grid1.N, _)

theorem mem_blk1_5 (t : Fin cfg1.N) (i : S1250x128.Idx) :
    i ∈ ((cfg1.win 5).blk t).view.set ↔ ∀ a : Fin 2, win1_5.index t a * S1250x128.size a ≤ (i a).val ∧ (i a).val < win1_5.index t a * S1250x128.size a + S1250x128.size a := by
  show i ∈ ((View.whole main_v7_1).slice (win1_5.rect t)).set ↔ _
  rw [View.set_slice_whole, Rect.mem_set_unit]
  exact Iff.rfl

theorem N1_last : 24 < cfg1.N := lt_N1 (by omega)

/-- The one write-back, after the last point, covers the whole softmax array. -/
theorem cover1_5 (i : S1250x128.Idx) :
    ∃ t : Fin cfg1.N, (cfg1.win 5).flush t = true ∧ i ∈ ((cfg1.win 5).blk t).view.set := by
  have hi0 : (i 0).val < 1250 := idx2_lt0 i
  have hi1 : (i 1).val < 128 := idx2_lt1 i
  refine ⟨⟨24, N1_last⟩, (flush1_5 _).mpr rfl, ?_⟩
  rw [mem_blk1_5]
  obtain ⟨e0, e1⟩ := idx1_5 ⟨24, N1_last⟩
  intro a
  match a with
  | ⟨0, _⟩ => show win1_5.index _ (0 : Fin 2) * 1250 ≤ (i 0).val ∧ (i 0).val < win1_5.index _ (0 : Fin 2) * 1250 + 1250; omega
  | ⟨1, _⟩ => show win1_5.index _ (1 : Fin 2) * 128 ≤ (i 1).val ∧ (i 1).val < win1_5.index _ (1 : Fin 2) * 128 + 128; omega

theorem flushed1_5_eq (c : Dev nD) (t : Fin cfg1.N) :
    (dat1 V c).flushed 5 t = ((cfg1.win 5).blk t).view.read (Elt Ideal) (k1_pay1 (F := Ideal) (V c main_v6)) := by
  show (cfg1.win 5).cut (grid1.coords t) ((dat1 V c).after 5 t) = _
  rw [after1_5, out1_5_eq]
  funext y
  show k1_pay1 (F := Ideal) (V c main_v6) y = k1_pay1 (F := Ideal) (V c main_v6) (((cfg1.win 5).blk t).view.emb y)
  congr 1
  obtain ⟨e0, e1⟩ := idx1_5 t
  funext a; apply Fin.ext
  match a with
  | ⟨0, _⟩ => show (y 0).val = win1_5.index t (0 : Fin 2) * 1250 + 1 * (y 0).val; omega
  | ⟨1, _⟩ => show (y 1).val = win1_5.index t (1 : Fin 2) * 128 + 1 * (y 1).val; omega

/-- The softmax array after the region is the softmax payload of the logits the region was entered with. -/
theorem final1_5 (c : Dev nD) : (dat1 V c).arrAt 5 cfg1.N = k1_pay1 (F := Ideal) (V c main_v6) :=
  (dat1 V c).arrAt_eq_of_cover 5 _ (fun t _ => flushed1_5_eq V c t) cover1_5

end

end Cert.KernelIdeal.Run

end
-- ==== Proof.Math.Softmax.lean ====
import proofs.«103986_g86887188398718_cont_9to1c4b_243_22_alg».proof.Proof.Math.Rows

noncomputable section

namespace Cert.Bridge

open Idealize.ShloMosaic Idealize.ShloMosaic.ValueIdx
open Cert.KernelIdeal Cert.KernelIdeal.Gen

/-! # The second kernel's softmax over all 160000 attention logits against the reference's

The kernel lays the 10000 × 16 logits out as 1250 × 128, takes the maximum and the sum of exponentials over the
whole block, and divides; the reference flattens the logits to one axis of 160000, does the same, and lays the
result out as 10000 × 16. A row-major relayout keeps every entry's position in the flat order, and the maximum and
the sum over all entries do not depend on the layout. -/

/-! ## The maximum and the sum over all entries, and the softmax over all entries -/

/-- The maximum of all entries of a vector, taken from the value `c`. -/
def sm_maxAll {s : Shape} (c : EReal) (a : s.Idx → EReal) : EReal :=
  (Finset.univ : Finset s.Idx).fold max c a

/-- The sum of all entries of a vector. -/
def sm_sumAll {s : Shape} (a : s.Idx → EReal) : EReal := ∑ q : s.Idx, a q

/-- Each entry less `m`, exponentiated. -/
def sm_expSubBy {s : Shape} (m : EReal) (a : s.Idx → EReal) : s.Idx → EReal :=
  fun i => Ideal.exp (a i - m)

/-- Each entry over `d`. -/
def sm_divBy {s : Shape} (d : EReal) (e : s.Idx → EReal) : s.Idx → EReal :=
  fun i => Ideal.div (e i) d

/-- The softmax over ALL entries of a vector: each entry less the maximum of all, exponentiated, over the sum of
    these exponentials. -/
def sm_softmaxAll {s : Shape} (c : EReal) (a : s.Idx → EReal) : s.Idx → EReal :=
  sm_divBy (sm_sumAll (sm_expSubBy (sm_maxAll c a) a)) (sm_expSubBy (sm_maxAll c a) a)

/-- A relayout reads its operand through a bijection of the two index sets. -/
theorem sm_shapeCast_apply {s t : Shape} {α : Type} (a : s.Idx → α) (h : s.ShapeCasts t) (j : t.Idx) :
    shapeCast t a h j = a (Shape.reshapeEquiv h j) := rfl

/-- An extraction at a static position reads its operand there. -/
theorem sm_extractAt_apply {s : Shape} {α : Type} (pos : Fin s.rank → Nat) (a : s.Idx → α) (h : ∀ b, pos b < s.size b) :
    extractAt pos a h = a fun b => ⟨pos b, h b⟩ := rfl

/-- The kernel's exponential of a difference from a broadcast scalar. -/
theorem sm_exp_subf_broadcast {s : Shape} (v : FVec Ideal s .f32) (m : EReal) :
    exp (subf v (broadcast s m)) = sm_expSubBy m v := rfl

/-- The kernel's quotient by a broadcast scalar. -/
theorem sm_divf_broadcast {s : Shape} (e : FVec Ideal s .f32) (d : EReal) :
    divf e (broadcast s d) = sm_divBy d e := rfl

/-- The reference's exponential of a difference, at an entry. -/
theorem sm_hostExp_subf {s : Shape} (a : s.Idx → EReal) (m : EReal) (k : s.Idx) :
    FloatOps.hostUnary (F := Ideal) (φ := .f32) .exp (FloatOps.subf (F := Ideal) (φ := .f32) (a k) m) = sm_expSubBy m a k := rfl

/-- The reference's quotient, at an entry. -/
theorem sm_hostDivf {s : Shape} (e : s.Idx → EReal) (d : EReal) (k : s.Idx) :
    FloatOps.hostDivf (F := Ideal) (φ := .f32) (e k) d = sm_divBy d e k := rfl

/-- Subtracting and exponentiating commutes with a relayout. -/
theorem sm_expSubBy_shapeCast {s t : Shape} (m : EReal) (a : s.Idx → EReal) (h : s.ShapeCasts t) :
    sm_expSubBy m (shapeCast t a h) = shapeCast t (sm_expSubBy m a) h := rfl

/-- Dividing commutes with a relayout. -/
theorem sm_divBy_shapeCast {s t : Shape} (d : EReal) (e : s.Idx → EReal) (h : s.ShapeCasts t) :
    sm_divBy d (shapeCast t e h) = shapeCast t (sm_divBy d e) h := rfl

/-- The maximum of all entries of a relayout is the operand's: the relayout is a bijection of the index sets. -/
theorem sm_maxAll_shapeCast {s t : Shape} (c : EReal) (a : s.Idx → EReal) (h : s.ShapeCasts t) :
    sm_maxAll c (shapeCast t a h) = sm_maxAll c a := by
  have e := Finset.fold_map (op := (max : EReal → EReal → EReal)) (b := c) (f := a)
    (g := (Shape.reshapeEquiv h).toEmbedding) (s := Finset.univ)
  rw [Finset.map_univ_equiv] at e
  exact e.symm

/-- The sum over all entries of a relayout is the operand's. -/
theorem sm_sumAll_shapeCast {s t : Shape} (a : s.Idx → EReal) (h : s.ShapeCasts t) :
    sm_sumAll (shapeCast t a h) = sm_sumAll a :=
  Equiv.sum_comp (Shape.reshapeEquiv h) a

/-- A maximum reduction of the kernel into a shape whose axes all have size one is the maximum of all entries. -/
theorem sm_multiReduction_maximumf_total {s t : Shape} {axes : List (Fin s.rank)} (src : FVec Ideal s .f32) (acc : BitVec FTy.f32.bits)
    (h : s.Reduces axes t) (ht : ∀ b, t.size b = 1) (hφ : FKind.Formats .f32) (hacc : acc = FKind.maximumf.neutral .f32 hφ) (j : t.Idx) :
    multiReduction .maximumf axes t src acc h hφ hacc j = sm_maxAll (Ideal.ofBits .f32 acc) src := by
  rw [multiReduction_maximumf_eq_fold]
  rw [Finset.filter_true_of_mem fun i _ => funext fun b => Fin.ext (by
    have := (h.drop i b).isLt; have := (j b).isLt; have := ht b; omega)]
  rfl

/-- A sum reduction of the kernel into such a shape is the sum of all entries. -/
theorem sm_multiReduction_add_total {s t : Shape} {axes : List (Fin s.rank)} (src : FVec Ideal s .f32) (acc : BitVec FTy.f32.bits)
    (h : s.Reduces axes t) (ht : ∀ b, t.size b = 1) (hφ : FKind.Formats .f32) (hacc : acc = FKind.add.neutral .f32 hφ) (j : t.Idx) :
    multiReduction .add axes t src acc h hφ hacc j = sm_sumAll src :=
  Ideal.multiReduction_add_total src acc h ht hφ hacc j

/-- The reference's maximum reduction into such a shape likewise. -/
theorem sm_hostReduce_maximumf_total {s t u : Shape} {axes : List (Fin s.rank)} (x : s.Idx → EReal) (init : u.Idx → EReal)
    (h : s.ReducesTo axes t) (ht : ∀ b, t.size b = 1) (hu : 0 < u.numel) (j : t.Idx) :
    Host.reduce (FloatOps.maximumf (F := Ideal) (φ := .f32)) x init h hu j = sm_maxAll (init (Shape.Idx.first hu)) x := by
  rw [Host.reduce_eq_fold]
  rw [Finset.filter_true_of_mem fun i _ => funext fun b => Fin.ext (by
    have := (h.drop i b).isLt; have := (j b).isLt; have := ht b; omega)]
  rfl

/-- The reference's sum reduction from the zero word is the sum of all entries. -/
theorem sm_zero_add_sum {s : Shape} (f : s.Idx → EReal) :
    FloatOps.ofBits (F := Ideal) .f32 0x00000000#32 + ∑ j : s.Idx, f j = sm_sumAll f := by
  rw [Ideal.ofBits_def, Ideal.ofBits_zero_f32, zero_add]
  rfl

/-- The maximum of all entries from `c` is at least `c`. -/
theorem sm_le_maxAll {s : Shape} (c : EReal) (a : s.Idx → EReal) : c ≤ sm_maxAll c a :=
  (Finset.le_fold_max c).2 (Or.inl le_rfl)

/-- The reference's further maximum with the starting value changes nothing. -/
theorem sm_max_maxAll {s : Shape} (c : EReal) (a : s.Idx → EReal) :
    FloatOps.maximumf (F := Ideal) (φ := .f32) c (sm_maxAll c a) = sm_maxAll c a :=
  max_eq_right (sm_le_maxAll c a)

attribute [local irreducible] sm_maxAll sm_sumAll

/-- The softmax over all entries commutes with a relayout. -/
theorem sm_softmaxAll_shapeCast {s t : Shape} (c : EReal) (a : s.Idx → EReal) (h : s.ShapeCasts t) :
    sm_softmaxAll c (shapeCast t a h) = shapeCast t (sm_softmaxAll c a) h := by
  unfold sm_softmaxAll
  rw [sm_maxAll_shapeCast, sm_expSubBy_shapeCast, sm_sumAll_shapeCast, sm_divBy_shapeCast]

/-! ## The kernel's payload -/

/-- The one-entry result has one index. -/
theorem sm_S1_sizes : ∀ b : Fin S1.rank, S1.size b = 1 := by decide

/-- The kernel's maximum over its whole block, read off the one-entry result: the maximum of all entries. -/
theorem sm_k1_max_eq (w : FVec Ideal S1250x128 .f32) :
    extractAt ![0, 0, 0] (shapeCast S1x1x1 (multiReduction (F := Ideal) .maximumf [1, 2] S1 (shapeCast S1x1250x128 w shapeCasts_S1250x128_S1x1250x128) 0xFF800000#32 reduces_S1x1250x128_S1 (.inl rfl) rfl) shapeCasts_S1_S1x1x1) inpos_S1x1x1_p0_0_0
      = sm_maxAll (Ideal.ofBits .f32 0xFF800000#32) w := by
  rw [sm_extractAt_apply, sm_shapeCast_apply]
  refine (sm_multiReduction_maximumf_total _ _ _ sm_S1_sizes _ _ _).trans ?_
  exact sm_maxAll_shapeCast _ w _

/-- The kernel's sum over its whole block, read off the one-entry result: the sum of all entries. -/
theorem sm_k1_sum_eq (w : FVec Ideal S1250x128 .f32) :
    extractAt ![0, 0, 0] (shapeCast S1x1x1 (multiReduction (F := Ideal) .add [1, 2] S1 (shapeCast S1x1250x128 w shapeCasts_S1250x128_S1x1250x128) 0x00000000#32 reduces_S1x1250x128_S1 (.inl rfl) rfl) shapeCasts_S1_S1x1x1) inpos_S1x1x1_p0_0_0
      = sm_sumAll w := by
  rw [sm_extractAt_apply, sm_shapeCast_apply]
  refine (sm_multiReduction_add_total _ _ _ sm_S1_sizes _ _ _).trans ?_
  exact sm_sumAll_shapeCast w _

/-- The second kernel's payload is the softmax over all entries of its block. -/
theorem sm_k1_pay1_eq (v : FVec Ideal S1250x128 .f32) :
    k1_pay1 (F := Ideal) v = sm_softmaxAll (Ideal.ofBits .f32 0xFF800000#32) v := by
  unfold k1_pay1
  simp only [shapeCast_self]
  rw [sm_k1_max_eq, sm_k1_sum_eq, sm_exp_subf_broadcast, sm_divf_broadcast]
  rfl

/-! ## The reference's stages -/

section Reference

open Cert.ReferenceIdeal.ReadP

variable (x : FVec Ideal S10000x128 .f32) (adj : FVec Ideal S10000x10000 .f32) (W1 : FVec Ideal S128x16 .f32) (b1 : FVec Ideal S16 .f32) (att : FVec Ideal S16x16 .f32)

/-- The reference's maximum over the flattened logits is the maximum of all entries. -/
theorem sm_val_main_v18_eq (j : Cert.ReferenceIdeal.S_.Idx) :
    val_main_v18 (F := Ideal) x adj W1 b1 att j
      = sm_maxAll (Ideal.ofBits .f32 0xFF800000#32) (val_main_v17 (F := Ideal) x adj W1 b1 att) := by
  unfold val_main_v18
  refine (sm_hostReduce_maximumf_total _ _ _ (fun b => b.elim0) _ j).trans ?_
  rw [val_main_cst_apply, Ideal.ofBits_def]

/-- The value the reference subtracts from every flattened logit. -/
theorem sm_val_main_v21_eq (k : Cert.ReferenceIdeal.S160000.Idx) :
    val_main_v21 (F := Ideal) x adj W1 b1 att k
      = sm_maxAll (Ideal.ofBits .f32 0xFF800000#32) (val_main_v17 (F := Ideal) x adj W1 b1 att) := by
  rw [val_main_v21_apply, val_main_v20_apply, val_main_v19_apply, sm_val_main_v18_eq, val_main_cst_0_apply, Ideal.ofBits_def]
  exact sm_max_maxAll _ _

/-- The reference's exponentials. -/
theorem sm_val_main_v23_eq :
    val_main_v23 (F := Ideal) x adj W1 b1 att
      = sm_expSubBy (sm_maxAll (Ideal.ofBits .f32 0xFF800000#32) (val_main_v17 (F := Ideal) x adj W1 b1 att)) (val_main_v17 (F := Ideal) x adj W1 b1 att) := by
  funext k
  rw [val_main_v23_apply, val_main_v22_apply, sm_val_main_v21_eq]
  exact sm_hostExp_subf _ _ k

/-- The reference's sum of the exponentials. -/
theorem sm_val_main_v24_eq (j : Cert.ReferenceIdeal.S_.Idx) :
    val_main_v24 (F := Ideal) x adj W1 b1 att j = sm_sumAll (val_main_v23 (F := Ideal) x adj W1 b1 att) := by
  rw [val_main_v24_apply, val_main_cst_1_apply]
  exact sm_zero_add_sum _

/-- The reference's quotient is the softmax over all the flattened logits. -/
theorem sm_val_main_v27_eq :
    val_main_v27 (F := Ideal) x adj W1 b1 att
      = sm_softmaxAll (Ideal.ofBits .f32 0xFF800000#32) (val_main_v17 (F := Ideal) x adj W1 b1 att) := by
  funext k
  rw [val_main_v27_apply, val_main_v26_apply, val_main_v25_apply, sm_val_main_v24_eq, sm_val_main_v23_eq]
  unfold sm_softmaxAll
  exact sm_hostDivf _ _ k

end Reference

theorem pay1_eq (x : FVec Ideal S10000x128 .f32) (adj : FVec Ideal S10000x10000 .f32) (W1 : FVec Ideal S128x16 .f32) (b1 : FVec Ideal S16 .f32) (att : FVec Ideal S16x16 .f32) :
    shapeCast S10000x16 (k1_pay1 (F := Ideal) (shapeCast S1250x128 (Cert.ReferenceIdeal.ReadP.val_main_v16 (F := Ideal) x adj W1 b1 att) shapeCasts_S10000x16_S1250x128)) shapeCasts_S1250x128_S10000x16
      = Cert.ReferenceIdeal.ReadP.val_main_v28 (F := Ideal) x adj W1 b1 att := by
  unfold Cert.ReferenceIdeal.ReadP.val_main_v28
  rw [sm_val_main_v27_eq]
  unfold Cert.ReferenceIdeal.ReadP.val_main_v17
  generalize Cert.ReferenceIdeal.ReadP.val_main_v16 (F := Ideal) x adj W1 b1 att = A
  rw [sm_k1_pay1_eq, sm_softmaxAll_shapeCast, sm_softmaxAll_shapeCast, shapeCast_shapeCast, shapeCast_shapeCast]

end Cert.Bridge

end
-- ==== Proof.IdealRun.Results.lean ====
import proofs.«103986_g86887188398718_cont_9to1c4b_243_22_alg».proof.Proof.IdealRun.Fold
import proofs.«103986_g86887188398718_cont_9to1c4b_243_22_alg».proof.Proof.IdealRun.Final0
import proofs.«103986_g86887188398718_cont_9to1c4b_243_22_alg».proof.Proof.IdealRun.Final1
import proofs.«103986_g86887188398718_cont_9to1c4b_243_22_alg».proof.Proof.Math.Softmax

set_option maxRecDepth 16384

noncomputable section

namespace Cert.KernelIdeal.Run

open Cert.KernelIdeal Cert.KernelIdeal.Gen Cert.Bridge
open Idealize.ShloMosaic Idealize.ShloMosaic.TcCoe Idealize.ShloMosaic.ValueIdx
open Idealize.SL Idealize.SL.Sem
open Idealize.ShloMosaic.Pipeline (Dat Cfg Window)

/-! # The program's three results are the reference's

The second result is the first region's encoder array; the first is the second region's log-softmax array, computed
from the first region's hidden product; the third is the second region's softmax of the first region's attention
logits, relaid twice by the host. -/

section
variable (m : (ℓ : Loc nD τ sig) → Buf (Elt Ideal) ℓ) (ρ : Dev nD → PrngReg)

/-- The side-by-side weight matrix the host prepares is the one the block lemmas are stated over. -/
theorem V1_wcat (c : Dev nD) : V1 m ρ c main_v4 = wcatOf (m ((c : Thread nD τ).loc main_arg8)) (m ((c : Thread nD τ).loc main_arg6)) (m ((c : Thread nD τ).loc main_arg4)) := V1_main_v4 m ρ c

theorem arr0_6 (c : Dev nD) : (dat0 (V1 m ρ) c).arrAt 6 cfg0.N = Cert.ReferenceIdeal.ReadP.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg8)) :=
  final0_6 (V1 m ρ) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg6)) (m ((c : Thread nD τ).loc main_arg4)) (m ((c : Thread nD τ).loc main_arg7)) c
    (V1_main_arg0 m ρ c) (V1_main_arg1 m ρ c) (V1_main_arg2 m ρ c) (V1_main_v0 m ρ c) (V1_wcat m ρ c) (V1_main_v2 m ρ c)
theorem arr0_7 (c : Dev nD) : (dat0 (V1 m ρ) c).arrAt 7 cfg0.N = Cert.ReferenceIdeal.ReadP.val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  final0_7 (V1 m ρ) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg6)) (m ((c : Thread nD τ).loc main_arg4)) (m ((c : Thread nD τ).loc main_arg7)) c
    (V1_main_arg0 m ρ c) (V1_main_arg1 m ρ c) (V1_main_arg2 m ρ c) (V1_main_v0 m ρ c) (V1_wcat m ρ c) (V1_main_v2 m ρ c)
theorem arr0_8 (c : Dev nD) : (dat0 (V1 m ρ) c).arrAt 8 cfg0.N = Cert.ReferenceIdeal.ReadP.val_main_v6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  final0_8 (V1 m ρ) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg6)) (m ((c : Thread nD τ).loc main_arg4)) (m ((c : Thread nD τ).loc main_arg7)) c
    (V1_main_arg0 m ρ c) (V1_main_arg1 m ρ c) (V1_main_arg2 m ρ c) (V1_main_v0 m ρ c) (V1_wcat m ρ c) (V1_main_v2 m ρ c)

/-- The first result: the reference's log-softmax. -/
theorem res0 (c : Dev nD) : W5 m ρ c (Proc.devRef .tc main_v7_0)
    = Cert.ReferenceIdeal.ReadP.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W5_main_v7_0 m ρ c).trans <|
    final1_4 (V3 m ρ) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) c
      (V3_main_arg1 m ρ c) ((V3_main_v5_2 m ρ c).trans (arr0_8 m ρ c)) (V3_main_v1 m ρ c)

/-- The second result: the reference's encoder output. -/
theorem res1 (c : Dev nD) : W5 m ρ c (Proc.devRef .tc main_v5_1)
    = Cert.ReferenceIdeal.ReadP.val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  (W5_main_v5_1 m ρ c).trans (arr0_7 m ρ c)

/-- The third result: the reference's global softmax. -/
theorem res2 (c : Dev nD) : W5 m ρ c (Proc.devRef .tc main_v8)
    = Cert.ReferenceIdeal.ReadP.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg8)) := by
  rw [W5_main_v8, final1_5, V3_main_v6, arr0_6]
  exact pay1_eq (m ((c : Thread nD τ).loc main_arg0)) (m ((c : Thread nD τ).loc main_arg1)) (m ((c : Thread nD τ).loc main_arg2)) (m ((c : Thread nD τ).loc main_arg3)) (m ((c : Thread nD τ).loc main_arg8))

end

end Cert.KernelIdeal.Run

end
-- ==== Proof.lean ====
/- The proof of `Cert.Claim`.

   Both printed kernels are the same text (the ideal pass rewrote nothing), so the idealization claim is trivial and
   both kernel programs get the same run: five items — host preparation, the first kernel region, a host reshape,
   the second kernel region, a host reshape — over a fold of buffer contents from the launch memory
   (Proof/IdealRun, laid out again for the word-level program in Proof/BitsRun). No item writes an argument, which is
   the three frames (the reference's from its own run). For the value claim the three results are read off the last
   fold: the first kernel's three output arrays are, block of 400 rows by block, the reference's `h·att`,
   `h·Weᵀ + be` and `h·W2` with `h = max(adj·(x·W1) + b1, 0)` (Proof/Math/Hidden); the second kernel's
   log-softmax array is, block by block, the reference's (Proof/Math/LogSoftmax); and its softmax of all the
   attention logits does not depend on whether they are laid out 1250 × 128 or on one axis (Proof/Math/Softmax).
   Every equation is between the same finite sums, maxima and quotients of extended reals, so the inputs' finiteness
   is not used. -/
import proofs.«103986_g86887188398718_cont_9to1c4b_243_22_alg».proof.Defs
import proofs.«103986_g86887188398718_cont_9to1c4b_243_22_alg».proof.Proof.Gen.Kernel
import proofs.«103986_g86887188398718_cont_9to1c4b_243_22_alg».proof.Proof.Gen.KernelIdeal
import proofs.«103986_g86887188398718_cont_9to1c4b_243_22_alg».proof.Proof.Gen.ReferenceIdeal
import proofs.«103986_g86887188398718_cont_9to1c4b_243_22_alg».proof.Proof.Gen.Pre_finite_inputs
import proofs.«103986_g86887188398718_cont_9to1c4b_243_22_alg».proof.Proof.BitsRun.Fold
import proofs.«103986_g86887188398718_cont_9to1c4b_243_22_alg».proof.Proof.IdealRun.Results
import proofs.«103986_g86887188398718_cont_9to1c4b_243_22_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run Cert.Kernel.defs _ _).mono (fun r h c =>
    ⟨(h c _ (Cert.Kernel.Run.mem_uc Cert.Kernel.main_arg0 (by decide))).trans (Cert.Kernel.Run.W5_main_arg0 m ρ c),
      (h c _ (Cert.Kernel.Run.mem_uc Cert.Kernel.main_arg1 (by decide))).trans (Cert.Kernel.Run.W5_main_arg1 m ρ c),
      (h c _ (Cert.Kernel.Run.mem_uc Cert.Kernel.main_arg2 (by decide))).trans (Cert.Kernel.Run.W5_main_arg2 m ρ c),
      (h c _ (Cert.Kernel.Run.mem_uc Cert.Kernel.main_arg3 (by decide))).trans (Cert.Kernel.Run.W5_main_arg3 m ρ c),
      (h c _ (Cert.Kernel.Run.mem_uc Cert.Kernel.main_arg4 (by decide))).trans (Cert.Kernel.Run.W5_main_arg4 m ρ c),
      (h c _ (Cert.Kernel.Run.mem_uc Cert.Kernel.main_arg5 (by decide))).trans (Cert.Kernel.Run.W5_main_arg5 m ρ c),
      (h c _ (Cert.Kernel.Run.mem_uc Cert.Kernel.main_arg6 (by decide))).trans (Cert.Kernel.Run.W5_main_arg6 m ρ c),
      (h c _ (Cert.Kernel.Run.mem_uc Cert.Kernel.main_arg7 (by decide))).trans (Cert.Kernel.Run.W5_main_arg7 m ρ c),
      (h c _ (Cert.Kernel.Run.mem_uc Cert.Kernel.main_arg8 (by decide))).trans (Cert.Kernel.Run.W5_main_arg8 m ρ c)⟩)
    (Cert.Kernel.Run.run_all (F := Bits) m ρ)

/-- The idealized kernel program likewise. -/
theorem frame_ki : Cert.frame_KernelIdeal := fun m ρ _ =>
  (θ_run Cert.KernelIdeal.defs _ _).mono (fun r h c =>
    ⟨(h c _ (Cert.KernelIdeal.Run.mem_uc Cert.KernelIdeal.main_arg0 (by decide))).trans (Cert.KernelIdeal.Run.W5_main_arg0 m ρ c),
      (h c _ (Cert.KernelIdeal.Run.mem_uc Cert.KernelIdeal.main_arg1 (by decide))).trans (Cert.KernelIdeal.Run.W5_main_arg1 m ρ c),
      (h c _ (Cert.KernelIdeal.Run.mem_uc Cert.KernelIdeal.main_arg2 (by decide))).trans (Cert.KernelIdeal.Run.W5_main_arg2 m ρ c),
      (h c _ (Cert.KernelIdeal.Run.mem_uc Cert.KernelIdeal.main_arg3 (by decide))).trans (Cert.KernelIdeal.Run.W5_main_arg3 m ρ c),
      (h c _ (Cert.KernelIdeal.Run.mem_uc Cert.KernelIdeal.main_arg4 (by decide))).trans (Cert.KernelIdeal.Run.W5_main_arg4 m ρ c),
      (h c _ (Cert.KernelIdeal.Run.mem_uc Cert.KernelIdeal.main_arg5 (by decide))).trans (Cert.KernelIdeal.Run.W5_main_arg5 m ρ c),
      (h c _ (Cert.KernelIdeal.Run.mem_uc Cert.KernelIdeal.main_arg6 (by decide))).trans (Cert.KernelIdeal.Run.W5_main_arg6 m ρ c),
      (h c _ (Cert.KernelIdeal.Run.mem_uc Cert.KernelIdeal.main_arg7 (by decide))).trans (Cert.KernelIdeal.Run.W5_main_arg7 m ρ c),
      (h c _ (Cert.KernelIdeal.Run.mem_uc Cert.KernelIdeal.main_arg8 (by decide))).trans (Cert.KernelIdeal.Run.W5_main_arg8 m ρ c)⟩)
    (Cert.KernelIdeal.Run.run_all (F := Ideal) m ρ)

/-- The reference's frame is its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The ideal pass rewrote nothing. -/
theorem preserves : Cert.preserves_Kernel_KernelIdeal := trivial

/-- From memories agreeing on the arguments both programs end with the reference's three arrays of the arguments. -/
theorem algebraic : Cert.algebraic_KernelIdeal_ReferenceIdeal := by
  intro m ρ m' ρ' _ hagree
  refine ⟨fun c => Cert.ReferenceIdeal.ReadP.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v15 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.ReadP.val_main_v28 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)), ?_, ?_⟩
  · exact (θ_run Cert.KernelIdeal.defs _ _).mono (fun r h c =>
      ⟨(h c _ (Cert.KernelIdeal.Run.mem_uc Cert.KernelIdeal.main_v7_0 (by decide))).trans (Cert.KernelIdeal.Run.res0 m ρ c),
       (h c _ (Cert.KernelIdeal.Run.mem_uc Cert.KernelIdeal.main_v5_1 (by decide))).trans (Cert.KernelIdeal.Run.res1 m ρ c),
       (h c _ (Cert.KernelIdeal.Run.mem_uc Cert.KernelIdeal.main_v8 (by decide))).trans (Cert.KernelIdeal.Run.res2 m ρ c),
      (h c _ (Cert.KernelIdeal.Run.mem_uc Cert.KernelIdeal.main_arg0 (by decide))).trans (Cert.KernelIdeal.Run.W5_main_arg0 m ρ c),
      (h c _ (Cert.KernelIdeal.Run.mem_uc Cert.KernelIdeal.main_arg1 (by decide))).trans (Cert.KernelIdeal.Run.W5_main_arg1 m ρ c),
      (h c _ (Cert.KernelIdeal.Run.mem_uc Cert.KernelIdeal.main_arg2 (by decide))).trans (Cert.KernelIdeal.Run.W5_main_arg2 m ρ c),
      (h c _ (Cert.KernelIdeal.Run.mem_uc Cert.KernelIdeal.main_arg3 (by decide))).trans (Cert.KernelIdeal.Run.W5_main_arg3 m ρ c),
      (h c _ (Cert.KernelIdeal.Run.mem_uc Cert.KernelIdeal.main_arg4 (by decide))).trans (Cert.KernelIdeal.Run.W5_main_arg4 m ρ c),
      (h c _ (Cert.KernelIdeal.Run.mem_uc Cert.KernelIdeal.main_arg5 (by decide))).trans (Cert.KernelIdeal.Run.W5_main_arg5 m ρ c),
      (h c _ (Cert.KernelIdeal.Run.mem_uc Cert.KernelIdeal.main_arg6 (by decide))).trans (Cert.KernelIdeal.Run.W5_main_arg6 m ρ c),
      (h c _ (Cert.KernelIdeal.Run.mem_uc Cert.KernelIdeal.main_arg7 (by decide))).trans (Cert.KernelIdeal.Run.W5_main_arg7 m ρ c),
      (h c _ (Cert.KernelIdeal.Run.mem_uc Cert.KernelIdeal.main_arg8 (by decide))).trans (Cert.KernelIdeal.Run.W5_main_arg8 m ρ c)⟩)
      (Cert.KernelIdeal.Run.run_all (F := Ideal) m ρ)
  · refine (θ_run Cert.ReferenceIdeal.defs _ _).mono (fun r h c => ?_) (Cert.ReferenceIdeal.ValueP.run (F := Ideal) m' ρ')
    obtain ⟨h29, h15, h28, hargs⟩ := h c
    obtain ⟨e0, e1, e2, e3, e4, e5, e6, e7, e8⟩ := hagree c
    refine ⟨?_, ?_, ?_, hargs⟩
    · rw [h29, Cert.ReferenceIdeal.ReadP.val_main_v29_eq, e0, e1, e2, e3, e4, e5]
    · refine h15.trans ((Cert.ReferenceIdeal.ReadP.val_main_v15_eq _ _ _ _ _ _).trans ?_)
      rw [e0, e1, e2, e3, e6, e7]
    · refine h28.trans ((Cert.ReferenceIdeal.ReadP.val_main_v28_eq _ _ _ _ _).trans ?_)
      rw [e0, e1, e2, e3, e8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
